-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x128 : Shape := ⟨3, ![4, 8192, 128]⟩
abbrev S4x8192x3 : Shape := ⟨3, ![4, 8192, 3]⟩
abbrev S4x8192x16 : Shape := ⟨3, ![4, 8192, 16]⟩
abbrev S128x128 : Shape := ⟨2, ![128, 128]⟩
abbrev S96 : Shape := ⟨1, ![96]⟩
abbrev S32 : Shape := ⟨1, ![32]⟩
abbrev S128 : Shape := ⟨1, ![128]⟩
abbrev S_ : Shape := ⟨0, ![]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel
  bcast_S_S4x8192x3 : S_.BroadcastsInDim S4x8192x3 (![] : Fin 0 → Fin S4x8192x3.rank)
  reducesTo_S4x8192x3_S_d0_1_2 : S4x8192x3.ReducesTo [0, 1, 2] S_
  bcast_S_S128x128 : S_.BroadcastsInDim S128x128 (![] : Fin 0 → Fin S128x128.rank)
  reducesTo_S128x128_S_d0_1 : S128x128.ReducesTo [0, 1] S_
  bcast_S_S96 : S_.BroadcastsInDim S96 (![] : Fin 0 → Fin S96.rank)
  reducesTo_S96_S_d0 : S96.ReducesTo [0] S_
  bcast_S_S32 : S_.BroadcastsInDim S32 (![] : Fin 0 → Fin S32.rank)
  reducesTo_S32_S_d0 : S32.ReducesTo [0] S_
  bcast_S_S128 : S_.BroadcastsInDim S128 (![] : Fin 0 → Fin S128.rank)
  reducesTo_S128_S_d0 : S128.ReducesTo [0] S_
  bcast_S_S4x8192x16 : S_.BroadcastsInDim S4x8192x16 (![] : Fin 0 → Fin S4x8192x16.rank)
  reducesTo_S4x8192x16_S_d0_1_2 : S4x8192x16.ReducesTo [0, 1, 2] S_

variable [Facts]

def fn_part2 {F : FTy → Type} [FloatOps F] (main_arg2 : IVec S4x8192x16 32) (main_v33 : IVec S_ 1) : IVec S_ 1 :=
  let main_c_12 : IVec S_ 32 := constantI S_ 32 0#32
  let main_v34 : IVec S4x8192x16 32 := broadcastInDim S4x8192x16 ![] bcast_S_S4x8192x16 main_c_12
  let main_v35 : IVec S4x8192x16 1 := cmpi .sge main_arg2 main_v34
  let main_c_13 : IVec S_ 32 := constantI S_ 32 8192#32
  let main_v36 : IVec S4x8192x16 32 := broadcastInDim S4x8192x16 ![] bcast_S_S4x8192x16 main_c_13
  let main_v37 : IVec S4x8192x16 1 := cmpi .slt main_arg2 main_v36
  let main_v38 : IVec S4x8192x16 1 := andi main_v35 main_v37
  let main_c_14 : IVec S_ 1 := constantI S_ 1 1#1
  let main_v39 : IVec S_ 1 := (fun x v => Host.reduce IntOp.andi x v reducesTo_S4x8192x16_S_d0_1_2 h_S_) main_v38 main_c_14
  let main_v40 : IVec S_ 1 := andi main_v33 main_v39
  main_v40

def fn_part1 {F : FTy → Type} [FloatOps F] (main_arg2 : IVec S4x8192x16 32) (main_arg5 : FVec F S32 .f32) (main_arg6 : FVec F S128 .f32) (main_arg7 : FVec F S128 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_v33

def fn {F : FTy → Type} [FloatOps F] (main_arg0 : FVec F S4x8192x128 .f32) (main_arg1 : FVec F S4x8192x3 .f32) (main_arg2 : IVec S4x8192x16 32) (main_arg3 : FVec F S128x128 .f32) (main_arg4 : FVec F S96 .f32) (main_arg5 : FVec F S32 .f32) (main_arg6 : FVec F S128 .f32) (main_arg7 : FVec F S128 .f32) : IVec S_ 1 :=
  let main_v0 : FVec F S4x8192x128 .f32 := Host.absf main_arg0
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_c : IVec S_ 1 := constantI S_ 1 1#1
  let main_v3 : IVec S_ 1 := (fun x v => Host.reduce IntOp.andi x v reducesTo_S4x8192x128_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg2 main_arg5 main_arg6 main_arg7 main_v13 main_v16
-- ==== Kernel.lean ====
abbrev S4x8192x128 : Shape := ⟨3, ![4, 8192, 128]⟩
abbrev S4x8192x3 : Shape := ⟨3, ![4, 8192, 3]⟩
abbrev S4x8192x16 : Shape := ⟨3, ![4, 8192, 16]⟩
abbrev S128x128 : Shape := ⟨2, ![128, 128]⟩
abbrev S96 : Shape := ⟨1, ![96]⟩
abbrev S32 : Shape := ⟨1, ![32]⟩
abbrev S128 : Shape := ⟨1, ![128]⟩
abbrev S32768x128 : Shape := ⟨2, ![32768, 128]⟩
abbrev S1024x128 : Shape := ⟨2, ![1024, 128]⟩
abbrev S32x3 : Shape := ⟨2, ![32, 3]⟩
abbrev S3x32 : Shape := ⟨2, ![3, 32]⟩
abbrev S1x32 : Shape := ⟨2, ![1, 32]⟩
abbrev S4x32 : Shape := ⟨2, ![4, 32]⟩
abbrev S_ : Shape := ⟨0, ![]⟩
abbrev S32x1 : Shape := ⟨2, ![32, 1]⟩
abbrev S1x128 : Shape := ⟨2, ![1, 128]⟩
abbrev S32x128 : Shape := ⟨2, ![32, 128]⟩
abbrev S4x8192x8 : Shape := ⟨3, ![4, 8192, 8]⟩
abbrev S1x256x16 : Shape := ⟨3, ![1, 256, 16]⟩
abbrev S1x256x8 : Shape := ⟨3, ![1, 256, 8]⟩
abbrev S1x8192x8 : Shape := ⟨3, ![1, 8192, 8]⟩
abbrev S1x8192x128 : Shape := ⟨3, ![1, 8192, 128]⟩
abbrev S1x256x128 : Shape := ⟨3, ![1, 256, 128]⟩
abbrev S256x16 : Shape := ⟨2, ![256, 16]⟩
abbrev S256x8 : Shape := ⟨2, ![256, 8]⟩
abbrev S8192x128 : Shape := ⟨2, ![8192, 128]⟩
abbrev S8192x8 : Shape := ⟨2, ![8192, 8]⟩
abbrev S1x8192 : Shape := ⟨2, ![1, 8192]⟩
abbrev S256x128 : Shape := ⟨2, ![256, 128]⟩
abbrev S256x1 : Shape := ⟨2, ![256, 1]⟩
abbrev S256x8192 : Shape := ⟨2, ![256, 8192]⟩
abbrev S256x3 : Shape := ⟨2, ![256, 3]⟩
abbrev S256 : Shape := ⟨1, ![256]⟩
abbrev S256x4 : Shape := ⟨2, ![256, 4]⟩
abbrev S256x32 : Shape := ⟨2, ![256, 32]⟩

abbrev nBuf : Space → Nat
  | .hbm => 80
  | .vmem => 17
  | .smem => 0
  | _ => 0

abbrev bufTy : (tb : Table) → Fin (tcTables nBuf tb) → BufTy
  | .hbm, ⟨0, _⟩ => ⟨S4x8192x128, .f32⟩
  | .hbm, ⟨1, _⟩ => ⟨S4x8192x3, .f32⟩
  | .hbm, ⟨2, _⟩ => ⟨S4x8192x16, .i32⟩
  | .hbm, ⟨3, _⟩ => ⟨S128x128, .f32⟩
  | .hbm, ⟨4, _⟩ => ⟨S96, .f32⟩
  | .hbm, ⟨5, _⟩ => ⟨S32, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S32768x128, .f32⟩
  | .hbm, ⟨10, _⟩ => ⟨S32768x128, .bf16⟩
  | .hbm, ⟨11, _⟩ => ⟨S4x8192x128, .bf16⟩
  | .hbm, ⟨12, _⟩ => ⟨S32x3, .f32⟩
  | .hbm, ⟨13, _⟩ => ⟨S3x32, .f32⟩
  | .hbm, ⟨14, _⟩ => ⟨S32, .f32⟩
  | .hbm, ⟨15, _⟩ => ⟨S1x32, .f32⟩
  | .hbm, ⟨16, _⟩ => ⟨S4x32, .f32⟩
  | .hbm, ⟨17, _⟩ => ⟨S128, .i32⟩
  | .hbm, ⟨18, _⟩ => ⟨S_, .i32⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i1⟩
  | .hbm, ⟨26, _⟩ => ⟨S128, .i32⟩
  | .hbm, ⟨27, _⟩ => ⟨S128, .i32⟩
  | .hbm, ⟨28, _⟩ => ⟨S_, .i32⟩
  | .hbm, ⟨29, _⟩ => ⟨S128, .i32⟩
  | .hbm, ⟨30, _⟩ => ⟨S128, .i1⟩
  | .hbm, ⟨31, _⟩ => ⟨S128, .i1⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S32, .i32⟩
  | .hbm, ⟨37, _⟩ => ⟨S32x1, .i32⟩
  | .hbm, ⟨38, _⟩ => ⟨S1x128, .i32⟩
  | .hbm, ⟨39, _⟩ => ⟨S32x128, .i32⟩
  | .hbm, ⟨40, _⟩ => ⟨S32x128, .i32⟩
  | .hbm, ⟨41, _⟩ => ⟨S32x128, .i1⟩
  | .hbm, ⟨42, _⟩ => ⟨S32x128, .f32⟩
  | .hbm, ⟨43, _⟩ => ⟨S_, .i32⟩
  | .hbm, ⟨44, _⟩ => ⟨S_, .f32⟩
  | .hbm, ⟨45, _⟩ => ⟨S4x8192x8, .f32⟩
  | .hbm, ⟨46, _⟩ => ⟨S4x8192x8, .bf16⟩
  | .hbm, ⟨47, _⟩ => ⟨S4x8192x128, .f32⟩
  | .hbm, ⟨48, _⟩ => ⟨S32768x128, .f32⟩
  | .hbm, ⟨49, _⟩ => ⟨S_, .f32⟩
  | .hbm, ⟨50, _⟩ => ⟨S128, .f32⟩
  | .hbm, ⟨51, _⟩ => ⟨S_, .f32⟩
  | .hbm, ⟨52, _⟩ => ⟨S128, .f32⟩
  | .hbm, ⟨53, _⟩ => ⟨S128, .f32⟩
  | .hbm, ⟨54, _⟩ => ⟨S1x128, .f32⟩
  | .hbm, ⟨55, _⟩ => ⟨S32768x128, .f32⟩
  | .hbm, ⟨56, _⟩ => ⟨S32768x128, .f32⟩
  | .hbm, ⟨57, _⟩ => ⟨S32768x128, .f32⟩
  | .hbm, ⟨58, _⟩ => ⟨S_, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S1x128, .f32⟩
  | .hbm, ⟨64, _⟩ => ⟨S32768x128, .f32⟩
  | .hbm, ⟨65, _⟩ => ⟨S32768x128, .f32⟩
  | .hbm, ⟨66, _⟩ => ⟨S_, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S32768x128, .f32⟩
  | .hbm, ⟨72, _⟩ => ⟨S32768x128, .f32⟩
  | .hbm, ⟨73, _⟩ => ⟨S1x128, .f32⟩
  | .hbm, ⟨74, _⟩ => ⟨S32768x128, .f32⟩
  | .hbm, ⟨75, _⟩ => ⟨S32768x128, .f32⟩
  | .hbm, ⟨76, _⟩ => ⟨S1x128, .f32⟩
  | .hbm, ⟨77, _⟩ => ⟨S32768x128, .f32⟩
  | .hbm, ⟨78, _⟩ => ⟨S32768x128, .f32⟩
  | .hbm, ⟨79, _⟩ => ⟨S4x8192x128, .f32⟩
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x128, .bf16⟩
  | .local _ .vmem, ⟨4, _⟩ => ⟨S1024x128, .bf16⟩
  | .local _ .vmem, ⟨5, _⟩ => ⟨S1x256x16, .i32⟩
  | .local _ .vmem, ⟨6, _⟩ => ⟨S1x256x16, .i32⟩
  | .local _ .vmem, ⟨7, _⟩ => ⟨S1x256x8, .f32⟩
  | .local _ .vmem, ⟨8, _⟩ => ⟨S1x256x8, .f32⟩
  | .local _ .vmem, ⟨9, _⟩ => ⟨S1x8192x8, .bf16⟩
  | .local _ .vmem, ⟨10, _⟩ => ⟨S1x8192x8, .bf16⟩
  | .local _ .vmem, ⟨11, _⟩ => ⟨S1x8192x128, .bf16⟩
  | .local _ .vmem, ⟨12, _⟩ => ⟨S1x8192x128, .bf16⟩
  | .local _ .vmem, ⟨13, _⟩ => ⟨S4x32, .f32⟩
  | .local _ .vmem, ⟨14, _⟩ => ⟨S32x128, .f32⟩
  | .local _ .vmem, ⟨15, _⟩ => ⟨S1x256x128, .f32⟩
  | .local _ .vmem, ⟨16, _⟩ => ⟨S1x256x128, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_0 : Ref sig .tc := ⟨.hbm, 43, rfl⟩
abbrev main_call1_v0 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst : Ref sig .tc := ⟨.hbm, 49, rfl⟩
abbrev main_v22 : Ref sig .tc := ⟨.hbm, 50, rfl⟩
abbrev main_cst_1 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_2 : Ref sig .tc := ⟨.hbm, 58, rfl⟩
abbrev main_v29 : Ref sig .tc := ⟨.hbm, 59, rfl⟩
abbrev main_cst_3 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_4 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem5_0 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![4, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x16 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8192x8 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x8192x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S4x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S32x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  transposes_S128x128_S128x128_1_0 : S128x128.Transposes [1, 0] S128x128
  shapeCasts_S4x8192x128_S32768x128 : S4x8192x128.ShapeCasts S32768x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S1024x128_S1024x128_0_0 : (Rect.unit (s := S1024x128) ![0, 0] S1024x128.size inb_S1024x128_S1024x128_0_0).PackedRows (EltTy.packing .bf16)
  shapeCasts_S32768x128_S4x8192x128 : S32768x128.ShapeCasts S4x8192x128
  shapeCasts_S96_S32x3 : S96.ShapeCasts S32x3
  transposes_S32x3_S3x32_1_0 : S32x3.Transposes [1, 0] S3x32
  bcast_S32_S1x32_1 : S32.BroadcastsInDim S1x32 (![1] : Fin 1 → Fin S1x32.rank)
  concatenates_S3x32_S1x32_S4x32_d0 : Shape.Concatenates [S3x32, S1x32] S4x32 0
  bcast_S_S128 : S_.BroadcastsInDim S128 (![] : Fin 0 → Fin S128.rank)
  bcast_S32_S32x1_0 : S32.BroadcastsInDim S32x1 (![0] : Fin 1 → Fin S32x1.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S32x1_S32x128_0_1 : S32x1.BroadcastsInDim S32x128 (![0, 1] : Fin 2 → Fin S32x128.rank)
  pads_S4x8192x3_S4x8192x8_000_000_050 : S4x8192x3.Pads (![0, 0, 0] : Fin 3 → Nat) ![0, 0, 5] ![0, 0, 0] S4x8192x8
  h_S_ : 0 < S_.numel
  inb_S1x256x16_S1x256x16_0_0_0 : ∀ a, (![0, 0, 0] : Fin 3 → Nat) a + S1x256x16.size a ≤ S1x256x16.size a
  h_S1x256x16 : 0 < S1x256x16.numel
  shapeCasts_S1x256x16_S256x16 : S1x256x16.ShapeCasts S256x16
  inb_S1x256x8_S1x256x8_0_0_0 : ∀ a, (![0, 0, 0] : Fin 3 → Nat) a + S1x256x8.size a ≤ S1x256x8.size a
  h_S1x256x8 : 0 < S1x256x8.numel
  shapeCasts_S1x256x8_S256x8 : S1x256x8.ShapeCasts S256x8
  inb_S4x32_S4x32_0_0 : ∀ a, (![0, 0] : Fin 2 → Nat) a + S4x32.size a ≤ S4x32.size a
  h_S4x32 : 0 < S4x32.numel
  shapeCasts_S4x32_S4x32 : S4x32.ShapeCasts S4x32
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S1x8192x8_S1x8192x8_0_0_0 : ∀ a, (![0, 0, 0] : Fin 3 → Nat) a + S1x8192x8.size a ≤ S1x8192x8.size a
  h_S1x8192x8 : 0 < S1x8192x8.numel
  shapeCasts_S1x8192x8_S8192x8 : S1x8192x8.ShapeCasts S8192x8
  iota_S1x8192_d1_w32 : S1x8192.Iotas .tc 32 [1]
  slices_S256x16_o0_0_S256x1 : S256x16.Slices ![0, 0] S256x1
  broadcasts_S256x1_S256x8192 : S256x1.Broadcasts S256x8192
  broadcasts_S1x8192_S256x8192 : S1x8192.Broadcasts S256x8192
  natLt_1_32 : 1 < 32
  slices_S256x8_o0_0_S256x3 : S256x8.Slices ![0, 0] S256x3
  reduces_S256x3_S256 : S256x3.Reduces [1] S256
  shapeCasts_S256_S256x1 : S256.ShapeCasts S256x1
  concatenates_S256x3_S256x1_S256x4_d1 : Shape.Concatenates [S256x3, S256x1] S256x4 1
  slices_S256x16_o0_1_S256x1 : S256x16.Slices ![0, 1] S256x1
  slices_S256x16_o0_2_S256x1 : S256x16.Slices ![0, 2] S256x1
  slices_S256x16_o0_3_S256x1 : S256x16.Slices ![0, 3] S256x1
  slices_S256x16_o0_4_S256x1 : S256x16.Slices ![0, 4] S256x1
  slices_S256x16_o0_5_S256x1 : S256x16.Slices ![0, 5] S256x1
  slices_S256x16_o0_6_S256x1 : S256x16.Slices ![0, 6] S256x1
  slices_S256x16_o0_7_S256x1 : S256x16.Slices ![0, 7] S256x1
  slices_S256x16_o0_8_S256x1 : S256x16.Slices ![0, 8] S256x1
  slices_S256x16_o0_9_S256x1 : S256x16.Slices ![0, 9] S256x1
  slices_S256x16_o0_10_S256x1 : S256x16.Slices ![0, 10] S256x1
  slices_S256x16_o0_11_S256x1 : S256x16.Slices ![0, 11] S256x1
  slices_S256x16_o0_12_S256x1 : S256x16.Slices ![0, 12] S256x1
  slices_S256x16_o0_13_S256x1 : S256x16.Slices ![0, 13] S256x1
  slices_S256x16_o0_14_S256x1 : S256x16.Slices ![0, 14] S256x1
  slices_S256x16_o0_15_S256x1 : S256x16.Slices ![0, 15] S256x1
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  reducesTo_S32768x128_S128_d0 : S32768x128.ReducesTo [0] S128
  bcast_S1x128_S32768x128_0_1 : S1x128.BroadcastsInDim S32768x128 (![0, 1] : Fin 2 → Fin S32768x128.rank)
  dot_S1024x128_S128x128_S1024x128_1_0_0_1_n_n_wf : DotDims.WF S1024x128 S128x128 S1024x128 [1] [0] [0] [1] [] []
  dot_S256x8192_S8192x128_S256x128_1_0_0_1_n_n_wf : DotDims.WF S256x8192 S8192x128 S256x128 [1] [0] [0] [1] [] []
  dot_S256x8192_S8192x8_S256x8_1_0_0_1_n_n_wf : DotDims.WF S256x8192 S8192x8 S256x8 [1] [0] [0] [1] [] []
  dot_S256x4_S4x32_S256x32_1_0_0_1_n_n_wf : DotDims.WF S256x4 S4x32 S256x32 [1] [0] [0] [1] [] []
  dot_S256x32_S32x128_S256x128_1_0_0_1_n_n_wf : DotDims.WF S256x32 S32x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S32768x128.size a
  hwx0_2 : ∀ i : grid0.Coords, EltTy.bits .bf16 = 32 ∨ (Rect.block (s := S32768x128) S1024x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x16.size a ≤ S4x8192x16.size a
  hwx1_0 : ∀ i : grid1.Coords, EltTy.bits .i32 = 32 ∨ (Rect.block (s := S4x8192x16) S1x256x16.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x8.size a ≤ S4x8192x8.size a
  hwx1_1 : ∀ i : grid1.Coords, EltTy.bits .f32 = 32 ∨ (Rect.block (s := S4x8192x8) S1x256x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x8192x8.size a ≤ S4x8192x8.size a
  hwx1_2 : ∀ i : grid1.Coords, EltTy.bits .bf16 = 32 ∨ (Rect.block (s := S4x8192x8) S1x8192x8.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x8192x128.size a ≤ S4x8192x128.size a
  hwx1_3 : ∀ i : grid1.Coords, EltTy.bits .bf16 = 32 ∨ (Rect.block (s := S4x8192x128) S1x8192x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x32.size a ≤ S4x32.size a
  hwx1_4 : ∀ i : grid1.Coords, EltTy.bits .f32 = 32 ∨ (Rect.block (s := S4x32) S4x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x128.size a ≤ S32x128.size a
  hwx1_5 : ∀ i : grid1.Coords, EltTy.bits .f32 = 32 ∨ (Rect.block (s := S32x128) S32x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x128.size a ≤ S4x8192x128.size a
  hwx1_6 : ∀ i : grid1.Coords, EltTy.bits .f32 = 32 ∨ (Rect.block (s := S4x8192x128) S1x256x128.size (cc1_transform_6 i) (hinb1_6 i)).WholeWords (EltTy.packing .f32)

variable [Facts₀]

def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x8192_S8192x8_S256x8_1_0_0_1_n_n : DotDims S256x8192 S8192x8 S256x8 where
  lhsContracting := [1]
  rhsContracting := [0]
  lhsNonContracting := [0]
  rhsNonContracting := [1]
  lhsBatch := []
  rhsBatch := []
  wf := dot_S256x8192_S8192x8_S256x8_1_0_0_1_n_n_wf
def dot_S256x4_S4x32_S256x32_1_0_0_1_n_n : DotDims S256x4 S4x32 S256x32 where
  lhsContracting := [1]
  rhsContracting := [0]
  lhsNonContracting := [0]
  rhsNonContracting := [1]
  lhsBatch := []
  rhsBatch := []
  wf := dot_S256x4_S4x32_S256x32_1_0_0_1_n_n_wf
def dot_S256x32_S32x128_S256x128_1_0_0_1_n_n : DotDims S256x32 S32x128 S256x128 where
  lhsContracting := [1]
  rhsContracting := [0]
  lhsNonContracting := [0]
  rhsNonContracting := [1]
  lhsBatch := []
  rhsBatch := []
  wf := dot_S256x32_S32x128_S256x128_1_0_0_1_n_n_wf

abbrev win0_0 : Pipeline.Window sig grid0 :=
  Pipeline.Window.ofSpec (Memref.whole main_v1) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1x256x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x256x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x8192x8.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x8192x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S4x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S32x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S1x256x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x8192x128 : Shape := ⟨3, ![4, 8192, 128]⟩
abbrev S4x8192x3 : Shape := ⟨3, ![4, 8192, 3]⟩
abbrev S4x8192x16 : Shape := ⟨3, ![4, 8192, 16]⟩
abbrev S128x128 : Shape := ⟨2, ![128, 128]⟩
abbrev S96 : Shape := ⟨1, ![96]⟩
abbrev S32 : Shape := ⟨1, ![32]⟩
abbrev S128 : Shape := ⟨1, ![128]⟩
abbrev S32x3 : Shape := ⟨2, ![32, 3]⟩
abbrev S3x32 : Shape := ⟨2, ![3, 32]⟩
abbrev S1x32 : Shape := ⟨2, ![1, 32]⟩
abbrev S4x32 : Shape := ⟨2, ![4, 32]⟩
abbrev S4 : Shape := ⟨1, ![4]⟩
abbrev S4x1x1 : Shape := ⟨3, ![4, 1, 1]⟩
abbrev S_ : Shape := ⟨0, ![]⟩
abbrev S4x8192x16x1 : Shape := ⟨4, ![4, 8192, 16, 1]⟩
abbrev S4x8192x16x2 : Shape := ⟨4, ![4, 8192, 16, 2]⟩
abbrev S4x8192x16x3 : Shape := ⟨4, ![4, 8192, 16, 3]⟩
abbrev S4x8192x1x3 : Shape := ⟨4, ![4, 8192, 1, 3]⟩
abbrev S4x8192x16x4 : Shape := ⟨4, ![4, 8192, 16, 4]⟩
abbrev S4x8192x16x32 : Shape := ⟨4, ![4, 8192, 16, 32]⟩
abbrev S4x8192x16x128 : Shape := ⟨4, ![4, 8192, 16, 128]⟩
abbrev S4x8192x16x32x4 : Shape := ⟨5, ![4, 8192, 16, 32, 4]⟩
abbrev S4x8192x16x32x1 : Shape := ⟨5, ![4, 8192, 16, 32, 1]⟩
abbrev S4x8192x32x4 : Shape := ⟨4, ![4, 8192, 32, 4]⟩
abbrev S32768x128 : Shape := ⟨2, ![32768, 128]⟩
abbrev S1x128 : Shape := ⟨2, ![1, 128]⟩

abbrev nBuf : Space → Nat
  | .hbm => 102
  | .vmem => 0
  | .smem => 0
  | _ => 0

abbrev bufTy : (tb : Table) → Fin (tcTables nBuf tb) → BufTy
  | .hbm, ⟨0, _⟩ => ⟨S4x8192x128, .f32⟩
  | .hbm, ⟨1, _⟩ => ⟨S4x8192x3, .f32⟩
  | .hbm, ⟨2, _⟩ => ⟨S4x8192x16, .i32⟩
  | .hbm, ⟨3, _⟩ => ⟨S128x128, .f32⟩
  | .hbm, ⟨4, _⟩ => ⟨S96, .f32⟩
  | .hbm, ⟨5, _⟩ => ⟨S32, .f32⟩
  | .hbm, ⟨6, _⟩ => ⟨S128, .f32⟩
  | .hbm, ⟨7, _⟩ => ⟨S128, .f32⟩
  | .hbm, ⟨8, _⟩ => ⟨S4x8192x128, .f32⟩
  | .hbm, ⟨9, _⟩ => ⟨S32x3, .f32⟩
  | .hbm, ⟨10, _⟩ => ⟨S3x32, .f32⟩
  | .hbm, ⟨11, _⟩ => ⟨S32, .f32⟩
  | .hbm, ⟨12, _⟩ => ⟨S1x32, .f32⟩
  | .hbm, ⟨13, _⟩ => ⟨S4x32, .f32⟩
  | .hbm, ⟨14, _⟩ => ⟨S4, .i32⟩
  | .hbm, ⟨15, _⟩ => ⟨S4x1x1, .i32⟩
  | .hbm, ⟨16, _⟩ => ⟨S_, .i32⟩
  | .hbm, ⟨17, _⟩ => ⟨S4x1x1, .i32⟩
  | .hbm, ⟨18, _⟩ => ⟨S4x1x1, .i1⟩
  | .hbm, ⟨19, _⟩ => ⟨S_, .i32⟩
  | .hbm, ⟨20, _⟩ => ⟨S4x1x1, .i32⟩
  | .hbm, ⟨21, _⟩ => ⟨S4x1x1, .i32⟩
  | .hbm, ⟨22, _⟩ => ⟨S4x1x1, .i32⟩
  | .hbm, ⟨23, _⟩ => ⟨S_, .i32⟩
  | .hbm, ⟨24, _⟩ => ⟨S4x8192x16, .i32⟩
  | .hbm, ⟨25, _⟩ => ⟨S4x8192x16, .i1⟩
  | .hbm, ⟨26, _⟩ => ⟨S_, .i32⟩
  | .hbm, ⟨27, _⟩ => ⟨S4x8192x16, .i32⟩
  | .hbm, ⟨28, _⟩ => ⟨S4x8192x16, .i32⟩
  | .hbm, ⟨29, _⟩ => ⟨S4x8192x16, .i32⟩
  | .hbm, ⟨30, _⟩ => ⟨S4x8192x16, .i32⟩
  | .hbm, ⟨31, _⟩ => ⟨S4x8192x16x1, .i32⟩
  | .hbm, ⟨32, _⟩ => ⟨S4x8192x16x1, .i32⟩
  | .hbm, ⟨33, _⟩ => ⟨S4x8192x16x2, .i32⟩
  | .hbm, ⟨34, _⟩ => ⟨S4x8192x16x3, .f32⟩
  | .hbm, ⟨35, _⟩ => ⟨S4x8192x1x3, .f32⟩
  | .hbm, ⟨36, _⟩ => ⟨S4x8192x16x3, .f32⟩
  | .hbm, ⟨37, _⟩ => ⟨S4x8192x16x3, .f32⟩
  | .hbm, ⟨38, _⟩ => ⟨S4x8192x16x3, .f32⟩
  | .hbm, ⟨39, _⟩ => ⟨S_, .f32⟩
  | .hbm, ⟨40, _⟩ => ⟨S4x8192x16, .f32⟩
  | .hbm, ⟨41, _⟩ => ⟨S4x8192x16x1, .f32⟩
  | .hbm, ⟨42, _⟩ => ⟨S4x8192x16x4, .f32⟩
  | .hbm, ⟨43, _⟩ => ⟨S4x8192x16x32, .f32⟩
  | .hbm, ⟨44, _⟩ => ⟨S_, .i32⟩
  | .hbm, ⟨45, _⟩ => ⟨S4x1x1, .i32⟩
  | .hbm, ⟨46, _⟩ => ⟨S4x1x1, .i1⟩
  | .hbm, ⟨47, _⟩ => ⟨S_, .i32⟩
  | .hbm, ⟨48, _⟩ => ⟨S4x1x1, .i32⟩
  | .hbm, ⟨49, _⟩ => ⟨S4x1x1, .i32⟩
  | .hbm, ⟨50, _⟩ => ⟨S4x1x1, .i32⟩
  | .hbm, ⟨51, _⟩ => ⟨S_, .i32⟩
  | .hbm, ⟨52, _⟩ => ⟨S4x8192x16, .i32⟩
  | .hbm, ⟨53, _⟩ => ⟨S4x8192x16, .i1⟩
  | .hbm, ⟨54, _⟩ => ⟨S_, .i32⟩
  | .hbm, ⟨55, _⟩ => ⟨S4x8192x16, .i32⟩
  | .hbm, ⟨56, _⟩ => ⟨S4x8192x16, .i32⟩
  | .hbm, ⟨57, _⟩ => ⟨S4x8192x16, .i32⟩
  | .hbm, ⟨58, _⟩ => ⟨S4x8192x16, .i32⟩
  | .hbm, ⟨59, _⟩ => ⟨S4x8192x16x1, .i32⟩
  | .hbm, ⟨60, _⟩ => ⟨S4x8192x16x1, .i32⟩
  | .hbm, ⟨61, _⟩ => ⟨S4x8192x16x2, .i32⟩
  | .hbm, ⟨62, _⟩ => ⟨S4x8192x16x128, .f32⟩
  | .hbm, ⟨63, _⟩ => ⟨S4x8192x16x32x4, .f32⟩
  | .hbm, ⟨64, _⟩ => ⟨S4x8192x16x32x1, .f32⟩
  | .hbm, ⟨65, _⟩ => ⟨S4x8192x16x32x4, .f32⟩
  | .hbm, ⟨66, _⟩ => ⟨S4x8192x16x32x4, .f32⟩
  | .hbm, ⟨67, _⟩ => ⟨S_, .f32⟩
  | .hbm, ⟨68, _⟩ => ⟨S4x8192x32x4, .f32⟩
  | .hbm, ⟨69, _⟩ => ⟨S4x8192x128, .f32⟩
  | .hbm, ⟨70, _⟩ => ⟨S32768x128, .f32⟩
  | .hbm, ⟨71, _⟩ => ⟨S_, .f32⟩
  | .hbm, ⟨72, _⟩ => ⟨S128, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S32768x128, .f32⟩
  | .hbm, ⟨78, _⟩ => ⟨S32768x128, .f32⟩
  | .hbm, ⟨79, _⟩ => ⟨S32768x128, .f32⟩
  | .hbm, ⟨80, _⟩ => ⟨S_, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S32768x128, .f32⟩
  | .hbm, ⟨87, _⟩ => ⟨S32768x128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S1x128, .f32⟩
  | .hbm, ⟨93, _⟩ => ⟨S32768x128, .f32⟩
  | .hbm, ⟨94, _⟩ => ⟨S32768x128, .f32⟩
  | .hbm, ⟨95, _⟩ => ⟨S1x128, .f32⟩
  | .hbm, ⟨96, _⟩ => ⟨S32768x128, .f32⟩
  | .hbm, ⟨97, _⟩ => ⟨S32768x128, .f32⟩
  | .hbm, ⟨98, _⟩ => ⟨S1x128, .f32⟩
  | .hbm, ⟨99, _⟩ => ⟨S32768x128, .f32⟩
  | .hbm, ⟨100, _⟩ => ⟨S32768x128, .f32⟩
  | .hbm, ⟨101, _⟩ => ⟨S4x8192x128, .f32⟩
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_c_3 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_c_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_7 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩

abbrev nD : Nat := 1
abbrev τ : Topo := Topo.v7x

variable {F : FTy → Type} [FloatOps F]

class Facts₀ : Prop where
  shapeCasts_S96_S32x3 : S96.ShapeCasts S32x3
  transposes_S32x3_S3x32_1_0 : S32x3.Transposes [1, 0] S3x32
  bcast_S32_S1x32_1 : S32.BroadcastsInDim S1x32 (![1] : Fin 1 → Fin S1x32.rank)
  concatenates_S3x32_S1x32_S4x32_d0 : Shape.Concatenates [S3x32, S1x32] S4x32 0
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x8192x16 : S_.BroadcastsInDim S4x8192x16 (![] : Fin 0 → Fin S4x8192x16.rank)
  bcast_S4x1x1_S4x8192x16_0_1_2 : S4x1x1.BroadcastsInDim S4x8192x16 (![0, 1, 2] : Fin 3 → Fin S4x8192x16.rank)
  bcast_S4x8192x16_S4x8192x16x1_0_1_2 : S4x8192x16.BroadcastsInDim S4x8192x16x1 (![0, 1, 2] : Fin 3 → Fin S4x8192x16x1.rank)
  concatenates_S4x8192x16x1_S4x8192x16x1_S4x8192x16x2_d3 : Shape.Concatenates [S4x8192x16x1, S4x8192x16x1] S4x8192x16x2 3
  bcast_S4x8192x3_S4x8192x1x3_0_1_3 : S4x8192x3.BroadcastsInDim S4x8192x1x3 (![0, 1, 3] : Fin 3 → Fin S4x8192x1x3.rank)
  bcast_S4x8192x1x3_S4x8192x16x3_0_1_2_3 : S4x8192x1x3.BroadcastsInDim S4x8192x16x3 (![0, 1, 2, 3] : Fin 4 → Fin S4x8192x16x3.rank)
  reducesTo_S4x8192x16x3_S4x8192x16_d3 : S4x8192x16x3.ReducesTo [3] S4x8192x16
  h_S_ : 0 < S_.numel
  concatenates_S4x8192x16x3_S4x8192x16x1_S4x8192x16x4_d3 : Shape.Concatenates [S4x8192x16x3, S4x8192x16x1] S4x8192x16x4 3
  shapeCasts_S4x8192x16x128_S4x8192x16x32x4 : S4x8192x16x128.ShapeCasts S4x8192x16x32x4
  bcast_S4x8192x16x32_S4x8192x16x32x1_0_1_2_3 : S4x8192x16x32.BroadcastsInDim S4x8192x16x32x1 (![0, 1, 2, 3] : Fin 4 → Fin S4x8192x16x32x1.rank)
  bcast_S4x8192x16x32x1_S4x8192x16x32x4_0_1_2_3_4 : S4x8192x16x32x1.BroadcastsInDim S4x8192x16x32x4 (![0, 1, 2, 3, 4] : Fin 5 → Fin S4x8192x16x32x4.rank)
  reducesTo_S4x8192x16x32x4_S4x8192x32x4_d2 : S4x8192x16x32x4.ReducesTo [2] S4x8192x32x4
  shapeCasts_S4x8192x32x4_S4x8192x128 : S4x8192x32x4.ShapeCasts S4x8192x128
  shapeCasts_S4x8192x128_S32768x128 : S4x8192x128.ShapeCasts S32768x128
  reducesTo_S32768x128_S128_d0 : S32768x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  shapeCasts_S32768x128_S4x8192x128 : S32768x128.ShapeCasts S4x8192x128
  dot_S4x8192x128_S128x128_S4x8192x128_2_1_01_0_n_n_wf : DotDims.WF S4x8192x128 S128x128 S4x8192x128 [2] [1] [0, 1] [0] [] []
  gather_S4x8192x3_S4x8192x16x2_S4x8192x16x3_3_01_n_n_01_3_113_wf : GatherDims.WF S4x8192x3 S4x8192x16x2 S4x8192x16x3 [3] [0, 1] [] [0, 1] [] 3 ![1, 1, 3]
  dot_S4x8192x16x4_S4x32_S4x8192x16x32_3_0_012_1_n_n_wf : DotDims.WF S4x8192x16x4 S4x32 S4x8192x16x32 [3] [0] [0, 1, 2] [1] [] []
  gather_S4x8192x128_S4x8192x16x2_S4x8192x16x128_3_01_n_n_01_3_11128_wf : GatherDims.WF S4x8192x128 S4x8192x16x2 S4x8192x16x128 [3] [0, 1] [] [0, 1] [] 3 ![1, 1, 128]

variable [Facts₀]

def dot_S4x8192x128_S128x128_S4x8192x128_2_1_01_0_n_n : DotDims S4x8192x128 S128x128 S4x8192x128 where
  lhsContracting := [2]
  rhsContracting := [1]
  lhsNonContracting := [0, 1]
  rhsNonContracting := [0]
  lhsBatch := []
  rhsBatch := []
  wf := dot_S4x8192x128_S128x128_S4x8192x128_2_1_01_0_n_n_wf
def gather_S4x8192x3_S4x8192x16x2_S4x8192x16x3_3_01_n_n_01_3_113 : GatherDims S4x8192x3 S4x8192x16x2 S4x8192x16x3 where
  offsetDims := [3]
  collapsedSliceDims := [0, 1]
  operandBatchingDims := []
  startIndicesBatchingDims := []
  startIndexMap := [0, 1]
  indexVectorDim := 3
  sliceSizes := ![1, 1, 3]
  wf := gather_S4x8192x3_S4x8192x16x2_S4x8192x16x3_3_01_n_n_01_3_113_wf
def dot_S4x8192x16x4_S4x32_S4x8192x16x32_3_0_012_1_n_n : DotDims S4x8192x16x4 S4x32 S4x8192x16x32 where
  lhsContracting := [3]
  rhsContracting := [0]
  lhsNonContracting := [0, 1, 2]
  rhsNonContracting := [1]
  lhsBatch := []
  rhsBatch := []
  wf := dot_S4x8192x16x4_S4x32_S4x8192x16x32_3_0_012_1_n_n_wf
def gather_S4x8192x128_S4x8192x16x2_S4x8192x16x128_3_01_n_n_01_3_11128 : GatherDims S4x8192x128 S4x8192x16x2 S4x8192x16x128 where
  offsetDims := [3]
  collapsedSliceDims := [0, 1]
  operandBatchingDims := []
  startIndicesBatchingDims := []
  startIndexMap := [0, 1]
  indexVectorDim := 3
  sliceSizes := ![1, 1, 128]
  wf := gather_S4x8192x128_S4x8192x16x2_S4x8192x16x128_3_01_n_n_01_3_11128_wf

class Facts : Prop extends Facts₀ where

variable [Facts]
-- ==== Proof.KArr.lean ====
/-
  Names for the arrays of the kernel's program: what each of the two regions reads and writes, as it finds it when it is
  entered, and the eight launched arguments — each as a vector of its literal shape over the extended reals (or words).
-/
import proofs.«407124_j33105607917673_1_alg».proof.Proof.Gen.KernelIdeal.Frame
import Idealize.ShloMosaic.PureOps.Ideal
import Idealize.ShloMosaic.Lib.ValueIdx

set_option maxRecDepth 16384

noncomputable section

namespace Cert.KnnAgg

open Idealize.ShloMosaic Idealize.ShloMosaic.ValueIdx Idealize.ShloMosaic.TcCoe Idealize.SL.Sem
open Cert.KernelIdeal Cert.KernelIdeal.Gen

/-! The arrays the two regions read and write, and the launched arguments, each under a name of its literal
    vector type, so that arithmetic on their entries is arithmetic on extended reals. -/

section Regions
variable (V : (c : Dev nD) → (b : Ref sig .tc) → Buf (Elt Ideal) ((c : Thread nD τ).loc b)) (c : Dev nD)

/-- Region 0's operands: the flattened input rows and the transposed weight. -/
abbrev aX : FVec Ideal S32768x128 .f32 := V c main_v1
abbrev aWT : FVec Ideal S128x128 .f32 := V c main_v0
/-- Region 0's output array after its last grid point. -/
abbrev out0 : FVec Ideal S32768x128 .bf16 := (dat0 (F := Ideal) V c).arrAt 2 cfg0.N

/-- Region 1's operands: neighbour words, padded coordinates (wide and narrowed), the feature table, the encoding
    weights, the expansion matrix. -/
abbrev aKnn : IVec S4x8192x16 32 := V c main_arg2
abbrev aQ : FVec Ideal S4x8192x8 .f32 := V c main_v18
abbrev aP : FVec Ideal S4x8192x8 .bf16 := V c main_v19
abbrev aH : FVec Ideal S4x8192x128 .bf16 := V c main_v3
abbrev aW : FVec Ideal S4x32 .f32 := V c main_v8
abbrev aE : FVec Ideal S32x128 .f32 := V c main_v17
/-- Region 1's output array after its last grid point. -/
abbrev out1 : FVec Ideal S4x8192x128 .f32 := (dat1 (F := Ideal) V c).arrAt 6 cfg1.N
end Regions

section Args
variable (m : (ℓ : Loc nD τ sig) → Buf (Elt Ideal) ℓ) (c : Dev nD)
/-- The launched arguments. -/
abbrev mX : FVec Ideal S4x8192x128 .f32 := m ((c.tc : Thread nD τ).loc main_arg0)
abbrev mXyz : FVec Ideal S4x8192x3 .f32 := m ((c.tc : Thread nD τ).loc main_arg1)
abbrev mKnn : IVec S4x8192x16 32 := m ((c.tc : Thread nD τ).loc main_arg2)
abbrev mW : FVec Ideal S128x128 .f32 := m ((c.tc : Thread nD τ).loc main_arg3)
abbrev mCoor : FVec Ideal S96 .f32 := m ((c.tc : Thread nD τ).loc main_arg4)
abbrev mScale : FVec Ideal S32 .f32 := m ((c.tc : Thread nD τ).loc main_arg5)
abbrev mGamma : FVec Ideal S128 .f32 := m ((c.tc : Thread nD τ).loc main_arg6)
abbrev mBeta : FVec Ideal S128 .f32 := m ((c.tc : Thread nD τ).loc main_arg7)
end Args

end Cert.KnnAgg

end
-- ==== Proof.Spec.lean ====
/-
  The mathematics both programs compute, stated once over the extended reals.

  For a query point `n` of batch `b` and a channel `d`, each of the sixteen neighbour slots `k` names a point
  `j = nbr (knn b n k)`; its term is the neighbour's projected feature `H j` at channel `d` plus the position
  encoding of the pair for the channel's group: the four features (the three relative coordinates and the sum of
  their squares) against the group's four weights.  The aggregate is the maximum of the sixteen terms, from `-∞`.
  `rowAgg` states that for ONE query row and ONE channel over plain accessor functions, so that a block of a
  tiled kernel and a whole-array host program can both be read as instances of it.
-/
import Idealize.ShloMosaic.PureOps.Ideal
import Idealize.ShloMosaic.Lib.ValueIdx

noncomputable section

namespace Cert.KnnAgg

open Idealize.ShloMosaic Idealize.ShloMosaic.ValueIdx

/-- A neighbour word read as an index into the 8192 points the way an indexing `take` reads it: a negative word
    is first wrapped by adding 8192, then the word is read as a signed integer and clamped into `[0, 8191]`. -/
def nbr (v : BitVec 32) : Fin 8192 :=
  ⟨min ((if v.toInt < 0 then v + 8192#32 else v).toInt.toNat) 8191, by omega⟩

/-- A word in range is its own index. -/
theorem nbr_of_range {v : BitVec 32} (h0 : 0 ≤ v.toInt) (h1 : v.toInt < 8192) : (nbr v).val = v.toNat := by
  show min ((if v.toInt < 0 then v + 8192#32 else v).toInt.toNat) 8191 = v.toNat
  rw [if_neg (by omega)]
  have hv : v.toInt = (v.toNat : Int) := by
    have h := BitVec.toInt_eq_toNat_cond v
    have hl := v.isLt
    split at h <;> omega
  rw [hv] at h1 ⊢
  simp only [Int.toNat_natCast]
  omega

/-- The four features of a pair with relative coordinates `r`: the three coordinates, then the sum of their squares. -/
def feat (r : Fin 3 → EReal) (f : Fin 4) : EReal :=
  if h : f.val < 3 then r ⟨f.val, h⟩ else ∑ a : Fin 3, r a * r a

/-- One neighbour slot's term: the neighbour's feature plus the encoding of the pair. `j` is the neighbour, `q` the
    query's own coordinates, `H` the feature table's column, `P` the coordinate table, `Wg` the group's weights. -/
def slotTerm (j : Fin 8192) (q : Fin 3 → EReal) (H : Fin 8192 → EReal) (P : Fin 8192 → Fin 3 → EReal)
    (Wg : Fin 4 → EReal) : EReal :=
  H j + ∑ f : Fin 4, feat (fun a => P j a - q a) f * Wg f

/-- One query row at one channel: the maximum over the sixteen neighbour slots, from `-∞`. -/
def rowAgg (nv : Fin 16 → BitVec 32) (q : Fin 3 → EReal) (H : Fin 8192 → EReal) (P : Fin 8192 → Fin 3 → EReal)
    (Wg : Fin 4 → EReal) : EReal :=
  (Finset.univ : Finset (Fin 16)).fold max (⊥ : EReal) fun k => slotTerm (nbr (nv k)) q H P Wg

abbrev SX : Shape := ⟨3, ![4, 8192, 128]⟩
abbrev SP : Shape := ⟨3, ![4, 8192, 3]⟩
abbrev SK : Shape := ⟨3, ![4, 8192, 16]⟩
abbrev SW : Shape := ⟨2, ![128, 128]⟩
abbrev SM : Shape := ⟨2, ![4, 32]⟩

/-- The projected feature of point `j` of batch `b` at channel `d`: the row of `x` against row `d` of the weight. -/
def hproj (x : FVec Ideal SX .f32) (w : FVec Ideal SW .f32) (b : Fin 4) (j : Fin 8192) (d : Fin 128) : EReal :=
  ∑ c : Fin 128, x (ix3 b j c) * w (ix2 d c)

/-- The group of a channel: four consecutive channels share one encoding. -/
def grp (d : Fin 128) : Fin 32 := ⟨d.val / 4, by omega⟩

/-- THE AGGREGATE both programs feed to the shared normalisation: index by index, `rowAgg` of the whole arrays. -/
def agg (x : FVec Ideal SX .f32) (w : FVec Ideal SW .f32) (p : FVec Ideal SP .f32) (kn : IVec SK 32)
    (Wm : FVec Ideal SM .f32) : FVec Ideal SX .f32 :=
  fun i => rowAgg (fun k => kn (ix3 (i 0) (i 1) k)) (fun a => p (ix3 (i 0) (i 1) a))
    (fun j => hproj x w (i 0) j (i 2)) (fun j a => p (ix3 (i 0) j a)) (fun f => Wm (ix2 f (grp (i 2))))

end Cert.KnnAgg

end
-- ==== Proof.KReg0.lean ====
/-
  The projection region: 32 grid points, point t multiplying rows 1024·t … 1024·t + 1023 of the flattened input against
  the whole transposed weight.  Each point's stored block is the product read element by element; the blocks tile the
  32768 rows, so the output array after the last point is the whole product.
-/
import proofs.«407124_j33105607917673_1_alg».proof.Proof.KArr
import proofs.«407124_j33105607917673_1_alg».proof.Proof.Spec
import Idealize.ShloMosaic.Lib.Pipeline.Value
import Idealize.ShloMosaic.PureOps.Ideal.Laws

set_option maxRecDepth 16384

noncomputable section

namespace Cert.KnnAgg

open Idealize.ShloMosaic Idealize.ShloMosaic.ValueIdx Idealize.ShloMosaic.TcCoe Idealize.SL.Sem
open Cert.KernelIdeal Cert.KernelIdeal.Gen

/-! ## The body's product at an element

The body narrows both loaded blocks, multiplies them into a zero accumulator and narrows the product. Over the
extended reals a narrowing is the identity, so the element at row `p` and channel `d` is the sum over the contracted
axis of the first block's row `p` against the second block's column `d`. -/

/-- The two offsets of an access to a whole buffer are zero. -/
theorem hz0 : (![0, 0] : Fin 2 → Nat) = fun _ => 0 := funext fun a => by
  match a with
  | ⟨0, _⟩ => rfl
  | ⟨1, _⟩ => rfl

/-- The product's left operand is read at the output's row … -/
theorem lhs_pay_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- … and at the contraction's coordinate. -/
theorem lhs_pay_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
/-- The right operand is read at the contraction's coordinate … -/
theorem rhs_pay_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
/-- … and at the output's channel. -/
theorem rhs_pay_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The body's stored value at row `p`, channel `d`: row `p` of the first block against column `d` of the second. -/
theorem pay0_apply (x0 : Vec Ideal S1024x128 .f32) (x1 : Vec Ideal S128x128 .f32) (p : Fin 1024) (d : Fin 128) :
    k0_pay1 (F := Ideal) x0 x1 (ix2 p d) = ∑ k : Fin 128, x0 (ix2 p k) * x1 (ix2 k d) := by
  unfold k0_pay1
  simp only [shapeCast_self]
  refine (Ideal.matmul_constant_zero_apply dot_S1024x128_S128x128_S1024x128_1_0_0_1_n_n none
    (truncf .bf16 x0 bitsLt_bf16_f32) (truncf .bf16 x1 bitsLt_bf16_f32) (ix2 p d)).trans ?_
  rw [← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 p d) ((ValueIdx.contrEquiv1 dot_S1024x128_S128x128_S1024x128_1_0_0_1_n_n 128 rfl rfl).symm k) = ix2 p k := funext fun a => Fin.ext (by
    match a with
    | ⟨0, _⟩ => exact lhs_pay_0 _ _
    | ⟨1, _⟩ => exact (lhs_pay_1 _ _).trans hk)
  have er : dot_S1024x128_S128x128_S1024x128_1_0_0_1_n_n.rhsIdx (ix2 p d) ((ValueIdx.contrEquiv1 dot_S1024x128_S128x128_S1024x128_1_0_0_1_n_n 128 rfl rfl).symm k) = ix2 k d := funext fun a => Fin.ext (by
    match a with
    | ⟨0, _⟩ => exact (rhs_pay_0 _ _).trans hk
    | ⟨1, _⟩ => exact rhs_pay_1 _ _)
  rw [el, er] <;> rfl

/-! ## From the blocks to the array

Point `t` of the grid takes rows `1024·t … 1024·t + 1023` of the first operand, the whole second operand, and writes
rows `1024·t …` of the output; the 32 points' row blocks tile the output. -/

/-- The projection as ONE function of the two operand arrays, index by index. -/
def proj (X : FVec Ideal S32768x128 .f32) (W : FVec Ideal S128x128 .f32) : FVec Ideal S32768x128 .bf16 :=
  fun i => ∑ k : Fin 128, X (ix2 (i 0) k) * W (ix2 k (i 1))

/-- The body's stored value on blocks that are restrictions of arrays `X` (rows from `1024·t`) and `W` (whole) is the
    projection of `X` and `W` at the corresponding array index. -/
theorem pay0_block (X : FVec Ideal S32768x128 .f32) (W : FVec Ideal S128x128 .f32)
    (x0 : Vec Ideal S1024x128 .f32) (x1 : Vec Ideal S128x128 .f32) (t : Nat)
    (h0 : ∀ (y : S1024x128.Idx) (i : S32768x128.Idx), (i 0).val = t * 1024 + (y 0).val → (i 1).val = (y 1).val → x0 y = X i)
    (h1 : ∀ (y i : S128x128.Idx), (i 0).val = (y 0).val → (i 1).val = (y 1).val → x1 y = W i)
    (y : S1024x128.Idx) (i : S32768x128.Idx) (hi0 : (i 0).val = t * 1024 + (y 0).val) (hi1 : (i 1).val = (y 1).val) :
    k0_pay1 (F := Ideal) x0 x1 y = proj X W i := by
  obtain ⟨p, d, rfl⟩ : ∃ (p : Fin 1024) (d : Fin 128), y = ix2 p d := ⟨y 0, y 1, eq_ix2 y⟩
  obtain ⟨r, e, rfl⟩ : ∃ (r : Fin 32768) (e : Fin 128), i = ix2 r e := ⟨i 0, i 1, eq_ix2 i⟩
  obtain rfl : e = d := Fin.ext hi1
  rw [pay0_apply]
  show _ = ∑ k : Fin 128, X (ix2 r k) * W (ix2 k e)
  refine Finset.sum_congr rfl fun k _ => ?_
  rw [h0 (ix2 p k) (ix2 r k) hi0 rfl, h1 (ix2 k e) (ix2 k e) rfl rfl]

/-- The windows' block indices over the grid: the two row windows sit at block `t`, every other axis at block 0. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Every row block of the output is some point's. -/
theorem idx_onto0 : ∀ q : Fin 32, ∃ t : Fin cfg0.N, t.val = q.val :=
  (by decide +kernel : ∀ q : Fin 32, ∃ t : Fin grid0.N, t.val = q.val)

section Region
variable (V : (c : Dev nD) → (b : Ref sig .tc) → Buf (Elt Ideal) ((c : Thread nD τ).loc b)) (c : Dev nD)

/-- The first window's block at point `t` is rows `1024·t …` of the first operand. -/
theorem blkX_apply (t : Fin cfg0.N) (y : S1024x128.Idx) (i : S32768x128.Idx)
    (h0 : (i 0).val = t.val * 1024 + (y 0).val) (h1 : (i 1).val = (y 1).val) :
    (iblk0 (F := Ideal) V c 0 t : Vec Ideal S1024x128 .f32) y = aX V c i := by
  obtain ⟨e0, e1, -, -, -, -⟩ := idx_facts0 t
  show V c main_v1 (((cfg0.win 0).blk t).view.emb y) = V c main_v1 i
  refine congrArg (V c main_v1) (funext fun a => Fin.ext ?_)
  match a with
  | ⟨0, _⟩ => show win0_0.index t (0 : Fin 2) * 1024 + 1 * (y 0).val = (i 0).val; omega
  | ⟨1, _⟩ => show win0_0.index t (1 : Fin 2) * 128 + 1 * (y 1).val = (i 1).val; omega

/-- The second window's block at every point is the second operand whole. -/
theorem blkW_apply (t : Fin cfg0.N) (y i : S128x128.Idx)
    (h0 : (i 0).val = (y 0).val) (h1 : (i 1).val = (y 1).val) :
    (iblk0 (F := Ideal) V c 1 t : Vec Ideal S128x128 .f32) y = aWT V c i := by
  obtain ⟨-, -, e2, e3, -, -⟩ := idx_facts0 t
  show V c main_v0 (((cfg0.win 1).blk t).view.emb y) = V c main_v0 i
  refine congrArg (V c main_v0) (funext fun a => Fin.ext ?_)
  match a with
  | ⟨0, _⟩ => show win0_1.index t (0 : Fin 2) * 128 + 1 * (y 0).val = (i 0).val; omega
  | ⟨1, _⟩ => show win0_1.index t (1 : Fin 2) * 128 + 1 * (y 1).val = (i 1).val; omega

/-- What point `t` writes back is block `t` of the projection of the two operand arrays. -/
theorem flushed0_eq (t : Fin cfg0.N) :
    (dat0 (F := Ideal) V c).flushed 2 t = ((cfg0.win 2).blk t).view.read (Elt Ideal) (proj (aX V c) (aWT V c)) := by
  show (cfg0.win 2).cut (grid0.coords t) ((dat0 (F := Ideal) V c).after 2 t) = _
  rw [after0_2]
  unfold out0_2
  rw [View.canon_unit_zero hz0]
  simp only [View.ld_unit_zero (S := S1024x128) hz0, View.ld_unit_zero (S := S128x128) hz0]
  obtain ⟨-, -, -, -, e4, e5⟩ := idx_facts0 t
  funext j
  show k0_pay1 (F := Ideal) (iblk0 (F := Ideal) V c 0 t) (iblk0 (F := Ideal) V c 1 t) j
    = proj (aX V c) (aWT V c) (((cfg0.win 2).blk t).view.emb j)
  refine pay0_block (aX V c) (aWT V c) (iblk0 (F := Ideal) V c 0 t) (iblk0 (F := Ideal) V c 1 t) t.val
    (fun y i h0 h1 => blkX_apply V c t y i h0 h1) (fun y i h0 h1 => blkW_apply V c t y i h0 h1) j
    (((cfg0.win 2).blk t).view.emb j) ?_ ?_
  · show win0_2.index t (0 : Fin 2) * 1024 + 1 * (j 0).val = t.val * 1024 + (j 0).val
    omega
  · show win0_2.index t (1 : Fin 2) * 128 + 1 * (j 1).val = (j 1).val
    omega

/-- An index of the output is in point `t`'s block iff each coordinate is in the block's range on its axis. -/
theorem mem_blk0 (t : Fin cfg0.N) (i : S32768x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v2).slice (win0_2.rect t)).set ↔ _
  rw [View.set_slice_whole, Rect.mem_set_unit]
  exact Iff.rfl

/-- Every index of the output is in the block of the point its row names: row `r` is in block `r / 1024`. -/
theorem cover0 (i : S32768x128.Idx) :
    ∃ t : Fin cfg0.N, (cfg0.win 2).flush t = true ∧ i ∈ ((cfg0.win 2).blk t).view.set := by
  have hi0 : (i 0).val < 32768 := (i 0).isLt
  have hi1 : (i 1).val < 128 := (i 1).isLt
  obtain ⟨t, ht⟩ := idx_onto0 ⟨(i 0).val / 1024, by omega⟩
  have ht' : t.val = (i 0).val / 1024 := ht
  obtain ⟨-, -, -, -, e4, e5⟩ := idx_facts0 t
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- The output array after the last point is the projection of the two operand arrays. -/
theorem out0_eq : out0 V c = proj (aX V c) (aWT V c) :=
  (dat0 (F := Ideal) V c).arrAt_eq_of_cover 2 (proj (aX V c) (aWT V c)) (fun t _ => flushed0_eq V c t) cover0

end Region

/-- Region 0 (the projection): after the 32 grid points the output array holds, at row `r` and channel `d`, the
    row of the first operand against the column of the second. -/
theorem arrAt0_apply (V : (c : Dev nD) → (b : Ref sig .tc) → Buf (Elt Ideal) ((c : Thread nD τ).loc b)) (c : Dev nD) (r : Fin 32768) (d : Fin 128) :
    out0 V c (ix2 r d) = ∑ k : Fin 128, aX V c (ix2 r k) * aWT V c (ix2 k d) := by
  exact congrFun (out0_eq V c) (ix2 r d)

end Cert.KnnAgg

end
-- ==== Proof.LibFoldMax.lean ====
/-
  Two general facts about finite families of extended reals.

  `fold_max_univ_succ`: the maximum from `⊥` over `Fin (n + 1)` is the maximum over the first `n` indices joined with the
  last term, so a running maximum written out term by term is a `Finset.fold`.
  `sum_ite_eq_mul`: a sum against the indicator of one index keeps that index's term (`0 · x = 0` and `1 · x = x` hold
  for every extended real, infinite ones included).
-/
import Mathlib.Data.EReal.Basic
import Mathlib.Data.EReal.Operations
import Mathlib.Algebra.BigOperators.Fin
import Mathlib.Data.Finset.Fold
import Mathlib.Data.Fintype.Basic

namespace Cert.KnnAgg

/-- The fold of `max` from `⊥` over `Fin (n + 1)`: over the first `n` indices, then the last term. -/
theorem fold_max_univ_succ {n : Nat} (f : Fin (n + 1) → EReal) :
    (Finset.univ : Finset (Fin (n + 1))).fold max (⊥ : EReal) f
      = max ((Finset.univ : Finset (Fin n)).fold max (⊥ : EReal) fun i => f i.castSucc) (f (Fin.last n)) := by
  rw [Fin.univ_castSuccEmb, Finset.fold_cons, Finset.fold_map, max_comm]
  rfl

/-- Over no index the fold is its initial value. -/
theorem fold_max_univ_zero (f : Fin 0 → EReal) : (Finset.univ : Finset (Fin 0)).fold max (⊥ : EReal) f = ⊥ := by
  rw [Finset.univ_eq_empty, Finset.fold_empty]

/-- A sum of products against the indicator of the index `j` is the term at `j`. -/
theorem sum_ite_eq_mul {ι : Type*} [Fintype ι] [DecidableEq ι] (j : ι) (f : ι → EReal) :
    ∑ i : ι, (if i = j then (1 : EReal) else 0) * f i = f j := by
  rw [Finset.sum_eq_single j]
  · rw [if_pos rfl, one_mul]
  · intro i _ hne; rw [if_neg hne, zero_mul]
  · intro h; exact absurd (Finset.mem_univ j) h

/-- The same with the indicator on the right. -/
theorem sum_mul_ite_eq {ι : Type*} [Fintype ι] [DecidableEq ι] (j : ι) (f : ι → EReal) :
    ∑ i : ι, f i * (if i = j then (1 : EReal) else 0) = f j := by
  rw [Finset.sum_eq_single j]
  · rw [if_pos rfl, mul_one]
  · intro i _ hne; rw [if_neg hne, mul_zero]
  · intro h; exact absurd (Finset.mem_univ j) h

/-- Sixteen terms joined one after the other from `⊥` are the fold over `Fin 16`. -/
theorem fold_max_fin16 (f : Fin 16 → EReal) :
    max (max (max (max (max (max (max (max (max (max (max (max (max (max (max (max ⊥ (f 0)) (f 1)) (f 2)) (f 3)) (f 4)) (f 5)) (f 6))
      (f 7)) (f 8)) (f 9)) (f 10)) (f 11)) (f 12)) (f 13)) (f 14)) (f 15)
      = (Finset.univ : Finset (Fin 16)).fold max (⊥ : EReal) f := by
  simp only [fold_max_univ_succ, fold_max_univ_zero]
  rfl

end Cert.KnnAgg
-- ==== Proof.KMatmul.lean ====
/-
  A matrix product into a zero accumulator, read at one output element on the extended reals, is the sum over the
  contracted coordinate of the products of the two operands' entries: the four products of the gather kernel's body.
-/
import proofs.«407124_j33105607917673_1_alg».proof.Proof.Gen.KernelIdeal
import Idealize.ShloMosaic.PureOps.Ideal.Laws
import Idealize.ShloMosaic.Lib.ValueIdx
import Idealize.ShloMosaic.Lib.Pipeline.Value

set_option maxRecDepth 16384

noncomputable section

namespace Cert.KnnAgg

open Idealize.ShloMosaic Idealize.ShloMosaic.ValueIdx Idealize.ShloMosaic.TcCoe Idealize.SL.Sem
open Cert.KernelIdeal Cert.KernelIdeal.Facts₀ Cert.KernelIdeal.Facts

/-! The gather kernel's four matrix products into a zero accumulator, each read at an output element as the plain sum of
    products over the contracted coordinate (at the extended reals there is no rounding and no order in it). -/

/-! The product `[256, 8192] × [8192, 128]`: the operands' indices at an output index and a contraction position, then the
    product into zero read at `(r, c)` as the sum over the 8192 contraction positions. -/
theorem mmH_lhs_0 (i : S256x128.Idx) (q : dot_S256x8192_S8192x128_S256x128_1_0_0_1_n_n.contr.Idx) :
    (dot_S256x8192_S8192x128_S256x128_1_0_0_1_n_n.lhsIdx i q 0).val = (i 0).val := by
  unfold DotDims.lhsIdx
  rw [dif_neg (show ¬(0 : Fin S256x8192.rank) ∈ dot_S256x8192_S8192x128_S256x128_1_0_0_1_n_n.lhsBatch by decide), dif_pos (show (0 : Fin S256x8192.rank) ∈ dot_S256x8192_S8192x128_S256x128_1_0_0_1_n_n.lhsNonContracting by decide)]
  rfl
theorem mmH_lhs_1 (i : S256x128.Idx) (q : dot_S256x8192_S8192x128_S256x128_1_0_0_1_n_n.contr.Idx) :
    (dot_S256x8192_S8192x128_S256x128_1_0_0_1_n_n.lhsIdx i q 1).val = (q ⟨0, by decide⟩).val :=
  dot_S256x8192_S8192x128_S256x128_1_0_0_1_n_n.lhsIdx_val_of_single rfl i q
theorem mmH_rhs_0 (i : S256x128.Idx) (q : dot_S256x8192_S8192x128_S256x128_1_0_0_1_n_n.contr.Idx) :
    (dot_S256x8192_S8192x128_S256x128_1_0_0_1_n_n.rhsIdx i q 0).val = (q ⟨0, by decide⟩).val :=
  dot_S256x8192_S8192x128_S256x128_1_0_0_1_n_n.rhsIdx_val_of_single rfl i q
theorem mmH_rhs_1 (i : S256x128.Idx) (q : dot_S256x8192_S8192x128_S256x128_1_0_0_1_n_n.contr.Idx) :
    (dot_S256x8192_S8192x128_S256x128_1_0_0_1_n_n.rhsIdx i q 1).val = (i 1).val := by
  unfold DotDims.rhsIdx
  rw [dif_neg (show ¬(1 : Fin S8192x128.rank) ∈ dot_S256x8192_S8192x128_S256x128_1_0_0_1_n_n.rhsBatch by decide), dif_pos (show (1 : Fin S8192x128.rank) ∈ dot_S256x8192_S8192x128_S256x128_1_0_0_1_n_n.rhsNonContracting by decide)]
  rfl
theorem mmH_apply {φ₁ φ₂ : FTy} (prec : Option ContractPrecision) (A : FVec Ideal S256x8192 φ₁) (B : FVec Ideal S8192x128 φ₂)
    (r : Fin 256) (c : Fin 128) :
    matmul dot_S256x8192_S8192x128_S256x128_1_0_0_1_n_n prec A B (constant (F := Ideal) S256x128 .f32 0x00000000#32) (ix2 r c)
      = ∑ k : Fin 8192, A (ix2 r k) * B (ix2 k c) := by
  simp only [matmul]
  rw [Ideal.matmul_constant_zero_apply, ← Equiv.sum_comp (ValueIdx.contrEquiv1 dot_S256x8192_S8192x128_S256x128_1_0_0_1_n_n 8192 rfl rfl).symm]
  refine Finset.sum_congr rfl fun k _ => ?_
  have hk := ValueIdx.contrEquiv1_symm_val dot_S256x8192_S8192x128_S256x128_1_0_0_1_n_n 8192 rfl rfl k
  have el : dot_S256x8192_S8192x128_S256x128_1_0_0_1_n_n.lhsIdx (ix2 r c) ((ValueIdx.contrEquiv1 dot_S256x8192_S8192x128_S256x128_1_0_0_1_n_n 8192 rfl rfl).symm k) = ix2 r k := funext fun a => Fin.ext (by
    match a with
    | ⟨0, _⟩ => exact mmH_lhs_0 _ _
    | ⟨1, _⟩ => exact (mmH_lhs_1 _ _).trans hk)
  have er : dot_S256x8192_S8192x128_S256x128_1_0_0_1_n_n.rhsIdx (ix2 r c) ((ValueIdx.contrEquiv1 dot_S256x8192_S8192x128_S256x128_1_0_0_1_n_n 8192 rfl rfl).symm k) = ix2 k c := funext fun a => Fin.ext (by
    match a with
    | ⟨0, _⟩ => exact (mmH_rhs_0 _ _).trans hk
    | ⟨1, _⟩ => exact mmH_rhs_1 _ _)
  rw [el, er]

/-! The product `[256, 8192] × [8192, 8]`: the operands' indices at an output index and a contraction position, then the
    product into zero read at `(r, c)` as the sum over the 8192 contraction positions. -/
theorem mmP_lhs_0 (i : S256x8.Idx) (q : dot_S256x8192_S8192x8_S256x8_1_0_0_1_n_n.contr.Idx) :
    (dot_S256x8192_S8192x8_S256x8_1_0_0_1_n_n.lhsIdx i q 0).val = (i 0).val := by
  unfold DotDims.lhsIdx
  rw [dif_neg (show ¬(0 : Fin S256x8192.rank) ∈ dot_S256x8192_S8192x8_S256x8_1_0_0_1_n_n.lhsBatch by decide), dif_pos (show (0 : Fin S256x8192.rank) ∈ dot_S256x8192_S8192x8_S256x8_1_0_0_1_n_n.lhsNonContracting by decide)]
  rfl
theorem mmP_lhs_1 (i : S256x8.Idx) (q : dot_S256x8192_S8192x8_S256x8_1_0_0_1_n_n.contr.Idx) :
    (dot_S256x8192_S8192x8_S256x8_1_0_0_1_n_n.lhsIdx i q 1).val = (q ⟨0, by decide⟩).val :=
  dot_S256x8192_S8192x8_S256x8_1_0_0_1_n_n.lhsIdx_val_of_single rfl i q
theorem mmP_rhs_0 (i : S256x8.Idx) (q : dot_S256x8192_S8192x8_S256x8_1_0_0_1_n_n.contr.Idx) :
    (dot_S256x8192_S8192x8_S256x8_1_0_0_1_n_n.rhsIdx i q 0).val = (q ⟨0, by decide⟩).val :=
  dot_S256x8192_S8192x8_S256x8_1_0_0_1_n_n.rhsIdx_val_of_single rfl i q
theorem mmP_rhs_1 (i : S256x8.Idx) (q : dot_S256x8192_S8192x8_S256x8_1_0_0_1_n_n.contr.Idx) :
    (dot_S256x8192_S8192x8_S256x8_1_0_0_1_n_n.rhsIdx i q 1).val = (i 1).val := by
  unfold DotDims.rhsIdx
  rw [dif_neg (show ¬(1 : Fin S8192x8.rank) ∈ dot_S256x8192_S8192x8_S256x8_1_0_0_1_n_n.rhsBatch by decide), dif_pos (show (1 : Fin S8192x8.rank) ∈ dot_S256x8192_S8192x8_S256x8_1_0_0_1_n_n.rhsNonContracting by decide)]
  rfl
theorem mmP_apply {φ₁ φ₂ : FTy} (prec : Option ContractPrecision) (A : FVec Ideal S256x8192 φ₁) (B : FVec Ideal S8192x8 φ₂)
    (r : Fin 256) (c : Fin 8) :
    matmul dot_S256x8192_S8192x8_S256x8_1_0_0_1_n_n prec A B (constant (F := Ideal) S256x8 .f32 0x00000000#32) (ix2 r c)
      = ∑ k : Fin 8192, A (ix2 r k) * B (ix2 k c) := by
  simp only [matmul]
  rw [Ideal.matmul_constant_zero_apply, ← Equiv.sum_comp (ValueIdx.contrEquiv1 dot_S256x8192_S8192x8_S256x8_1_0_0_1_n_n 8192 rfl rfl).symm]
  refine Finset.sum_congr rfl fun k _ => ?_
  have hk := ValueIdx.contrEquiv1_symm_val dot_S256x8192_S8192x8_S256x8_1_0_0_1_n_n 8192 rfl rfl k
  have el : dot_S256x8192_S8192x8_S256x8_1_0_0_1_n_n.lhsIdx (ix2 r c) ((ValueIdx.contrEquiv1 dot_S256x8192_S8192x8_S256x8_1_0_0_1_n_n 8192 rfl rfl).symm k) = ix2 r k := funext fun a => Fin.ext (by
    match a with
    | ⟨0, _⟩ => exact mmP_lhs_0 _ _
    | ⟨1, _⟩ => exact (mmP_lhs_1 _ _).trans hk)
  have er : dot_S256x8192_S8192x8_S256x8_1_0_0_1_n_n.rhsIdx (ix2 r c) ((ValueIdx.contrEquiv1 dot_S256x8192_S8192x8_S256x8_1_0_0_1_n_n 8192 rfl rfl).symm k) = ix2 k c := funext fun a => Fin.ext (by
    match a with
    | ⟨0, _⟩ => exact (mmP_rhs_0 _ _).trans hk
    | ⟨1, _⟩ => exact mmP_rhs_1 _ _)
  rw [el, er]

/-! The product `[256, 4] × [4, 32]`: the operands' indices at an output index and a contraction position, then the
    product into zero read at `(r, c)` as the sum over the 4 contraction positions. -/
theorem mmW_lhs_0 (i : S256x32.Idx) (q : dot_S256x4_S4x32_S256x32_1_0_0_1_n_n.contr.Idx) :
    (dot_S256x4_S4x32_S256x32_1_0_0_1_n_n.lhsIdx i q 0).val = (i 0).val := by
  unfold DotDims.lhsIdx
  rw [dif_neg (show ¬(0 : Fin S256x4.rank) ∈ dot_S256x4_S4x32_S256x32_1_0_0_1_n_n.lhsBatch by decide), dif_pos (show (0 : Fin S256x4.rank) ∈ dot_S256x4_S4x32_S256x32_1_0_0_1_n_n.lhsNonContracting by decide)]
  rfl
theorem mmW_lhs_1 (i : S256x32.Idx) (q : dot_S256x4_S4x32_S256x32_1_0_0_1_n_n.contr.Idx) :
    (dot_S256x4_S4x32_S256x32_1_0_0_1_n_n.lhsIdx i q 1).val = (q ⟨0, by decide⟩).val :=
  dot_S256x4_S4x32_S256x32_1_0_0_1_n_n.lhsIdx_val_of_single rfl i q
theorem mmW_rhs_0 (i : S256x32.Idx) (q : dot_S256x4_S4x32_S256x32_1_0_0_1_n_n.contr.Idx) :
    (dot_S256x4_S4x32_S256x32_1_0_0_1_n_n.rhsIdx i q 0).val = (q ⟨0, by decide⟩).val :=
  dot_S256x4_S4x32_S256x32_1_0_0_1_n_n.rhsIdx_val_of_single rfl i q
theorem mmW_rhs_1 (i : S256x32.Idx) (q : dot_S256x4_S4x32_S256x32_1_0_0_1_n_n.contr.Idx) :
    (dot_S256x4_S4x32_S256x32_1_0_0_1_n_n.rhsIdx i q 1).val = (i 1).val := by
  unfold DotDims.rhsIdx
  rw [dif_neg (show ¬(1 : Fin S4x32.rank) ∈ dot_S256x4_S4x32_S256x32_1_0_0_1_n_n.rhsBatch by decide), dif_pos (show (1 : Fin S4x32.rank) ∈ dot_S256x4_S4x32_S256x32_1_0_0_1_n_n.rhsNonContracting by decide)]
  rfl
theorem mmW_apply {φ₁ φ₂ : FTy} (prec : Option ContractPrecision) (A : FVec Ideal S256x4 φ₁) (B : FVec Ideal S4x32 φ₂)
    (r : Fin 256) (c : Fin 32) :
    matmul dot_S256x4_S4x32_S256x32_1_0_0_1_n_n prec A B (constant (F := Ideal) S256x32 .f32 0x00000000#32) (ix2 r c)
      = ∑ k : Fin 4, A (ix2 r k) * B (ix2 k c) := by
  simp only [matmul]
  rw [Ideal.matmul_constant_zero_apply, ← Equiv.sum_comp (ValueIdx.contrEquiv1 dot_S256x4_S4x32_S256x32_1_0_0_1_n_n 4 rfl rfl).symm]
  refine Finset.sum_congr rfl fun k _ => ?_
  have hk := ValueIdx.contrEquiv1_symm_val dot_S256x4_S4x32_S256x32_1_0_0_1_n_n 4 rfl rfl k
  have el : dot_S256x4_S4x32_S256x32_1_0_0_1_n_n.lhsIdx (ix2 r c) ((ValueIdx.contrEquiv1 dot_S256x4_S4x32_S256x32_1_0_0_1_n_n 4 rfl rfl).symm k) = ix2 r k := funext fun a => Fin.ext (by
    match a with
    | ⟨0, _⟩ => exact mmW_lhs_0 _ _
    | ⟨1, _⟩ => exact (mmW_lhs_1 _ _).trans hk)
  have er : dot_S256x4_S4x32_S256x32_1_0_0_1_n_n.rhsIdx (ix2 r c) ((ValueIdx.contrEquiv1 dot_S256x4_S4x32_S256x32_1_0_0_1_n_n 4 rfl rfl).symm k) = ix2 k c := funext fun a => Fin.ext (by
    match a with
    | ⟨0, _⟩ => exact (mmW_rhs_0 _ _).trans hk
    | ⟨1, _⟩ => exact mmW_rhs_1 _ _)
  rw [el, er]

/-! The product `[256, 32] × [32, 128]`: the operands' indices at an output index and a contraction position, then the
    product into zero read at `(r, c)` as the sum over the 32 contraction positions. -/
theorem mmE_lhs_0 (i : S256x128.Idx) (q : dot_S256x32_S32x128_S256x128_1_0_0_1_n_n.contr.Idx) :
    (dot_S256x32_S32x128_S256x128_1_0_0_1_n_n.lhsIdx i q 0).val = (i 0).val := by
  unfold DotDims.lhsIdx
  rw [dif_neg (show ¬(0 : Fin S256x32.rank) ∈ dot_S256x32_S32x128_S256x128_1_0_0_1_n_n.lhsBatch by decide), dif_pos (show (0 : Fin S256x32.rank) ∈ dot_S256x32_S32x128_S256x128_1_0_0_1_n_n.lhsNonContracting by decide)]
  rfl
theorem mmE_lhs_1 (i : S256x128.Idx) (q : dot_S256x32_S32x128_S256x128_1_0_0_1_n_n.contr.Idx) :
    (dot_S256x32_S32x128_S256x128_1_0_0_1_n_n.lhsIdx i q 1).val = (q ⟨0, by decide⟩).val :=
  dot_S256x32_S32x128_S256x128_1_0_0_1_n_n.lhsIdx_val_of_single rfl i q
theorem mmE_rhs_0 (i : S256x128.Idx) (q : dot_S256x32_S32x128_S256x128_1_0_0_1_n_n.contr.Idx) :
    (dot_S256x32_S32x128_S256x128_1_0_0_1_n_n.rhsIdx i q 0).val = (q ⟨0, by decide⟩).val :=
  dot_S256x32_S32x128_S256x128_1_0_0_1_n_n.rhsIdx_val_of_single rfl i q
theorem mmE_rhs_1 (i : S256x128.Idx) (q : dot_S256x32_S32x128_S256x128_1_0_0_1_n_n.contr.Idx) :
    (dot_S256x32_S32x128_S256x128_1_0_0_1_n_n.rhsIdx i q 1).val = (i 1).val := by
  unfold DotDims.rhsIdx
  rw [dif_neg (show ¬(1 : Fin S32x128.rank) ∈ dot_S256x32_S32x128_S256x128_1_0_0_1_n_n.rhsBatch by decide), dif_pos (show (1 : Fin S32x128.rank) ∈ dot_S256x32_S32x128_S256x128_1_0_0_1_n_n.rhsNonContracting by decide)]
  rfl
theorem mmE_apply {φ₁ φ₂ : FTy} (prec : Option ContractPrecision) (A : FVec Ideal S256x32 φ₁) (B : FVec Ideal S32x128 φ₂)
    (r : Fin 256) (c : Fin 128) :
    matmul dot_S256x32_S32x128_S256x128_1_0_0_1_n_n prec A B (constant (F := Ideal) S256x128 .f32 0x00000000#32) (ix2 r c)
      = ∑ k : Fin 32, A (ix2 r k) * B (ix2 k c) := by
  simp only [matmul]
  rw [Ideal.matmul_constant_zero_apply, ← Equiv.sum_comp (ValueIdx.contrEquiv1 dot_S256x32_S32x128_S256x128_1_0_0_1_n_n 32 rfl rfl).symm]
  refine Finset.sum_congr rfl fun k _ => ?_
  have hk := ValueIdx.contrEquiv1_symm_val dot_S256x32_S32x128_S256x128_1_0_0_1_n_n 32 rfl rfl k
  have el : dot_S256x32_S32x128_S256x128_1_0_0_1_n_n.lhsIdx (ix2 r c) ((ValueIdx.contrEquiv1 dot_S256x32_S32x128_S256x128_1_0_0_1_n_n 32 rfl rfl).symm k) = ix2 r k := funext fun a => Fin.ext (by
    match a with
    | ⟨0, _⟩ => exact mmE_lhs_0 _ _
    | ⟨1, _⟩ => exact (mmE_lhs_1 _ _).trans hk)
  have er : dot_S256x32_S32x128_S256x128_1_0_0_1_n_n.rhsIdx (ix2 r c) ((ValueIdx.contrEquiv1 dot_S256x32_S32x128_S256x128_1_0_0_1_n_n 32 rfl rfl).symm k) = ix2 k c := funext fun a => Fin.ext (by
    match a with
    | ⟨0, _⟩ => exact (mmE_rhs_0 _ _).trans hk
    | ⟨1, _⟩ => exact mmE_rhs_1 _ _)
  rw [el, er]

/-- A 256 × 8192 row against the 8192 × 128 feature table. -/
theorem mm_gatherH (l : FVec Ideal S256x8192 .bf16) (r : FVec Ideal S8192x128 .bf16) (p : Fin 256) (d : Fin 128) :
    matmul dot_S256x8192_S8192x128_S256x128_1_0_0_1_n_n none l r (constant S256x128 .f32 0x00000000#32) (ix2 p d)
      = ∑ j : Fin 8192, l (ix2 p j) * r (ix2 j d) := by
  exact mmH_apply none l r p d

/-- A 256 × 8192 row against the 8192 × 8 coordinate table. -/
theorem mm_gatherP (l : FVec Ideal S256x8192 .bf16) (r : FVec Ideal S8192x8 .bf16) (p : Fin 256) (a : Fin 8) :
    matmul dot_S256x8192_S8192x8_S256x8_1_0_0_1_n_n none l r (constant S256x8 .f32 0x00000000#32) (ix2 p a)
      = ∑ j : Fin 8192, l (ix2 p j) * r (ix2 j a) := by
  exact mmP_apply none l r p a

/-- The four features against the 4 × 32 encoding weights. -/
theorem mm_enc (l : FVec Ideal S256x4 .f32) (r : FVec Ideal S4x32 .f32) (p : Fin 256) (g : Fin 32) :
    matmul dot_S256x4_S4x32_S256x32_1_0_0_1_n_n (some .fp32) l r (constant S256x32 .f32 0x00000000#32) (ix2 p g)
      = ∑ f : Fin 4, l (ix2 p f) * r (ix2 f g) := by
  exact mmW_apply (some .fp32) l r p g

/-- The 32 group encodings against the 32 × 128 expansion matrix. -/
theorem mm_expand (l : FVec Ideal S256x32 .f32) (r : FVec Ideal S32x128 .f32) (p : Fin 256) (d : Fin 128) :
    matmul dot_S256x32_S32x128_S256x128_1_0_0_1_n_n (some .fp32) l r (constant S256x128 .f32 0x00000000#32) (ix2 p d)
      = ∑ g : Fin 32, l (ix2 p g) * r (ix2 g d) := by
  exact mmE_apply (some .fp32) l r p d

end Cert.KnnAgg

end
-- ==== Proof.KBody1.lean ====
/-
  The gather kernel's body at one output element.  For each of the sixteen neighbour slots the body compares the slot's
  neighbour word with 0 … 8191 (a one-hot row), multiplies that row against the feature table and the coordinate table
  (which picks the neighbour's rows, since 0 · x = 0 and 1 · x = x on every extended real), forms the relative coordinates
  and the sum of their squares, multiplies the four features by the 4 × 32 weights and spreads the 32 encodings over the
  128 channels by the 0/1 expansion matrix, adds, and keeps the running maximum from -∞.  Read at row p, channel d this is
  the spec's rowAgg of the loaded blocks.
-/
import proofs.«407124_j33105607917673_1_alg».proof.Proof.Gen.KernelIdeal.Frame
import proofs.«407124_j33105607917673_1_alg».proof.Proof.Spec
import proofs.«407124_j33105607917673_1_alg».proof.Proof.LibFoldMax
import proofs.«407124_j33105607917673_1_alg».proof.Proof.KMatmul
import Idealize.ShloMosaic.Lib.Pipeline.Value
import Idealize.ShloMosaic.Lib.ValueLayout
import Idealize.ShloMosaic.PureOps.Ideal.Laws

set_option maxRecDepth 16384

noncomputable section

namespace Cert.KnnAgg

open Idealize.ShloMosaic Idealize.ShloMosaic.ValueIdx Idealize.ShloMosaic.TcCoe Idealize.SL.Sem
open Cert.KernelIdeal Cert.KernelIdeal.Gen

/-! ## One neighbour slot of the body, as one function of the slice offset

    The body is sixteen copies of one text that differ in the column of the neighbour words they read. -/

/-- The indicator rows of one slot: row `p` is `1` at the position the slot's neighbour word of row `p` names, `0` elsewhere. -/
def onehot (off : Fin 2 → Nat) (h : S256x16.Slices off S256x1) (v1 : IVec S256x16 32) (v12 : IVec S1x8192 32) :
    FVec Ideal S256x8192 .bf16 :=
  truncf .bf16 (sitofp .f32 (extui 32 (cmpi .eq
    (broadcastTo S256x8192 (extractStridedSlice S256x1 off v1 h) broadcasts_S256x1_S256x8192)
    (broadcastTo S256x8192 v12 broadcasts_S1x8192_S256x8192)) natLt_1_32)) bitsLt_bf16_f32

/-- The relative coordinates of a slot: the gathered coordinates less the query's own. -/
def relOf (v3 : FVec Ideal S256x8 .f32) (g : FVec Ideal S256x3 .f32) : FVec Ideal S256x3 .f32 :=
  subf g (extractStridedSlice S256x3 ![0, 0] v3 slices_S256x8_o0_0_S256x3)

/-- The sum of the squares of the three relative coordinates, per row. -/
def sqOf (rel : FVec Ideal S256x3 .f32) : FVec Ideal S256 .f32 :=
  multiReduction .add [1] S256 (mulf rel rel) 0x00000000#32 reduces_S256x3_S256 (.inl rfl) rfl

/-- The four features against the group weights: a `[256, 32]` table of encodings. -/
def encOf (v5 : FVec Ideal S4x32 .f32) (rel : FVec Ideal S256x3 .f32) (sq : FVec Ideal S256 .f32) : FVec Ideal S256x32 .f32 :=
  matmul dot_S256x4_S4x32_S256x32_1_0_0_1_n_n (some .fp32)
    (concatenate S256x4 1 [⟨S256x3, rel⟩, ⟨S256x1, shapeCast S256x1 sq shapeCasts_S256_S256x1⟩] concatenates_S256x3_S256x1_S256x4_d1)
    v5 (constant S256x32 .f32 0x00000000#32)

/-- The encodings spread over the 128 channels by the expansion matrix. -/
def expOf (v7 : FVec Ideal S32x128 .f32) (e : FVec Ideal S256x32 .f32) : FVec Ideal S256x128 .f32 :=
  matmul dot_S256x32_S32x128_S256x128_1_0_0_1_n_n (some .fp32) e v7 (constant S256x128 .f32 0x00000000#32)

/-- The gathered feature rows of a slot. -/
def gatherH (v9 : FVec Ideal S8192x128 .bf16) (oh : FVec Ideal S256x8192 .bf16) : FVec Ideal S256x128 .f32 :=
  matmul dot_S256x8192_S8192x128_S256x128_1_0_0_1_n_n none oh v9 (constant S256x128 .f32 0x00000000#32)

/-- The gathered coordinate rows of a slot, cut to the three real coordinates. -/
def gatherP (v11 : FVec Ideal S8192x8 .bf16) (oh : FVec Ideal S256x8192 .bf16) : FVec Ideal S256x3 .f32 :=
  extractStridedSlice S256x3 ![0, 0]
    (matmul dot_S256x8192_S8192x8_S256x8_1_0_0_1_n_n none oh v11 (constant S256x8 .f32 0x00000000#32)) slices_S256x8_o0_0_S256x3

/-- One slot's `[256, 128]` block of terms: the gathered feature plus the expanded encoding. -/
def slot (off : Fin 2 → Nat) (h : S256x16.Slices off S256x1) (v1 : IVec S256x16 32) (v3 : FVec Ideal S256x8 .f32) (v5 : FVec Ideal S4x32 .f32) (v7 : FVec Ideal S32x128 .f32) (v9 : FVec Ideal S8192x128 .bf16) (v11 : FVec Ideal S8192x8 .bf16) (v12 : IVec S1x8192 32) : FVec Ideal S256x128 .f32 :=
  addf (gatherH v9 (onehot off h v1 v12))
    (expOf v7 (encOf v5 (relOf v3 (gatherP v11 (onehot off h v1 v12))) (sqOf (relOf v3 (gatherP v11 (onehot off h v1 v12))))))

/-- The running maximum after all sixteen slots, from the splat of `-∞`. -/
def acc16 (v1 : IVec S256x16 32) (v3 : FVec Ideal S256x8 .f32) (v5 : FVec Ideal S4x32 .f32) (v7 : FVec Ideal S32x128 .f32) (v9 : FVec Ideal S8192x128 .bf16) (v11 : FVec Ideal S8192x8 .bf16) (v12 : IVec S1x8192 32) : FVec Ideal S256x128 .f32 :=
  (maximumf (maximumf (maximumf (maximumf (maximumf (maximumf (maximumf (maximumf (maximumf (maximumf (maximumf (maximumf (maximumf (maximumf (maximumf (maximumf (broadcast S256x128 (Scalar.ofBits (F := Ideal) .f32 0xFF800000#32))
    (slot ![0, 0] slices_S256x16_o0_0_S256x1 v1 v3 v5 v7 v9 v11 v12))
    (slot ![0, 1] slices_S256x16_o0_1_S256x1 v1 v3 v5 v7 v9 v11 v12))
    (slot ![0, 2] slices_S256x16_o0_2_S256x1 v1 v3 v5 v7 v9 v11 v12))
    (slot ![0, 3] slices_S256x16_o0_3_S256x1 v1 v3 v5 v7 v9 v11 v12))
    (slot ![0, 4] slices_S256x16_o0_4_S256x1 v1 v3 v5 v7 v9 v11 v12))
    (slot ![0, 5] slices_S256x16_o0_5_S256x1 v1 v3 v5 v7 v9 v11 v12))
    (slot ![0, 6] slices_S256x16_o0_6_S256x1 v1 v3 v5 v7 v9 v11 v12))
    (slot ![0, 7] slices_S256x16_o0_7_S256x1 v1 v3 v5 v7 v9 v11 v12))
    (slot ![0, 8] slices_S256x16_o0_8_S256x1 v1 v3 v5 v7 v9 v11 v12))
    (slot ![0, 9] slices_S256x16_o0_9_S256x1 v1 v3 v5 v7 v9 v11 v12))
    (slot ![0, 10] slices_S256x16_o0_10_S256x1 v1 v3 v5 v7 v9 v11 v12))
    (slot ![0, 11] slices_S256x16_o0_11_S256x1 v1 v3 v5 v7 v9 v11 v12))
    (slot ![0, 12] slices_S256x16_o0_12_S256x1 v1 v3 v5 v7 v9 v11 v12))
    (slot ![0, 13] slices_S256x16_o0_13_S256x1 v1 v3 v5 v7 v9 v11 v12))
    (slot ![0, 14] slices_S256x16_o0_14_S256x1 v1 v3 v5 v7 v9 v11 v12))
    (slot ![0, 15] slices_S256x16_o0_15_S256x1 v1 v3 v5 v7 v9 v11 v12))

/-! ## The printed payloads are the running maximum, slot by slot (each by unfolding) -/

theorem pay8_eq (v0 : Vec Ideal S1x256x16 .i32) (v2 : Vec Ideal S1x256x8 .f32) (v4 : Vec Ideal S4x32 .f32) (v6 : Vec Ideal S32x128 .f32)
    (v8 : Vec Ideal S1x8192x128 .bf16) (v10 : Vec Ideal S1x8192x8 .bf16) :
    k1_pay8 (F := Ideal) v0 v2 v4 v6 v8 v10
      = maximumf (broadcast S256x128 (Scalar.ofBits (F := Ideal) .f32 0xFF800000#32))
          (slot ![0, 0] slices_S256x16_o0_0_S256x1 (k1_pay2 (F := Ideal) v0) (k1_pay3 v2) (k1_pay4 v4) (k1_pay5 v6) (k1_pay6 v8) (k1_pay7 v10)
            (iota .tc S1x8192 32 [1] iota_S1x8192_d1_w32)) := rfl

theorem pay9_eq (v0 : Vec Ideal S1x256x16 .i32) :
    k1_pay9 (F := Ideal) v0
      = broadcastTo S256x8192 (extractStridedSlice S256x1 ![0, 1] (k1_pay2 (F := Ideal) v0) slices_S256x16_o0_1_S256x1) broadcasts_S256x1_S256x8192 := rfl

theorem pay10_eq (v1 : IVec S256x16 32) (v3 : FVec Ideal S256x8 .f32) (v5 : FVec Ideal S4x32 .f32) (v7 : FVec Ideal S32x128 .f32) (v9 : FVec Ideal S8192x128 .bf16) (v11 : FVec Ideal S8192x8 .bf16) (v12 : IVec S1x8192 32) (a : FVec Ideal S256x128 .f32) :
    k1_pay10 v1 v3 v5 v7 v9 v11 v12 a (broadcastTo S256x8192 (extractStridedSlice S256x1 ![0, 1] v1 slices_S256x16_o0_1_S256x1) broadcasts_S256x1_S256x8192) = (maximumf (maximumf a (slot ![0, 1] slices_S256x16_o0_1_S256x1 v1 v3 v5 v7 v9 v11 v12)) (slot ![0, 2] slices_S256x16_o0_2_S256x1 v1 v3 v5 v7 v9 v11 v12)) := rfl

theorem pay14_eq (v1 : IVec S256x16 32) (v3 : FVec Ideal S256x8 .f32) (v5 : FVec Ideal S4x32 .f32) (v7 : FVec Ideal S32x128 .f32) (v9 : FVec Ideal S8192x128 .bf16) (v11 : FVec Ideal S8192x8 .bf16) (v12 : IVec S1x8192 32) (a : FVec Ideal S256x128 .f32) :
    k1_pay14 v1 v3 v5 v7 v9 v11 v12 a (k1_pay12 v1 v9 v12) (k1_pay13 v1 v11 v12) = (maximumf (maximumf a (slot ![0, 3] slices_S256x16_o0_3_S256x1 v1 v3 v5 v7 v9 v11 v12)) (slot ![0, 4] slices_S256x16_o0_4_S256x1 v1 v3 v5 v7 v9 v11 v12)) := rfl

theorem pay18_eq (v1 : IVec S256x16 32) (v3 : FVec Ideal S256x8 .f32) (v5 : FVec Ideal S4x32 .f32) (v7 : FVec Ideal S32x128 .f32) (v9 : FVec Ideal S8192x128 .bf16) (v11 : FVec Ideal S8192x8 .bf16) (v12 : IVec S1x8192 32) (a : FVec Ideal S256x128 .f32) :
    k1_pay18 v1 v3 v5 v7 v9 v11 v12 a (k1_pay16 v1 v9 v12) (k1_pay17 v1 v3 v5 v11 v12) (constant S256x128 .f32 0x00000000#32)
      = (maximumf (maximumf (maximumf a (slot ![0, 5] slices_S256x16_o0_5_S256x1 v1 v3 v5 v7 v9 v11 v12)) (slot ![0, 6] slices_S256x16_o0_6_S256x1 v1 v3 v5 v7 v9 v11 v12)) (slot ![0, 7] slices_S256x16_o0_7_S256x1 v1 v3 v5 v7 v9 v11 v12)) := rfl

theorem pay20_eq (v1 : IVec S256x16 32) (v3 : FVec Ideal S256x8 .f32) (v5 : FVec Ideal S4x32 .f32) (v7 : FVec Ideal S32x128 .f32) (v9 : FVec Ideal S8192x128 .bf16) (v11 : FVec Ideal S8192x8 .bf16) (v12 : IVec S1x8192 32) (a : FVec Ideal S256x128 .f32) :
    k1_pay20 v1 v3 v5 v7 v9 v11 v12 a (k1_pay19 v1 v12) = (maximumf (maximumf a (slot ![0, 8] slices_S256x16_o0_8_S256x1 v1 v3 v5 v7 v9 v11 v12)) (slot ![0, 9] slices_S256x16_o0_9_S256x1 v1 v3 v5 v7 v9 v11 v12)) := rfl

theorem pay25_eq (v1 : IVec S256x16 32) (v3 : FVec Ideal S256x8 .f32) (v5 : FVec Ideal S4x32 .f32) (v7 : FVec Ideal S32x128 .f32) (v9 : FVec Ideal S8192x128 .bf16) (v11 : FVec Ideal S8192x8 .bf16) (v12 : IVec S1x8192 32) (a : FVec Ideal S256x128 .f32) :
    k1_pay25 v1 v3 v5 v7 v9 v11 v12 a (k1_pay22 v1 v9 v12) (k1_pay23 v1 v3 v11 v12) (k1_pay24 v1 v3 v11 v12)
      = (maximumf (maximumf (maximumf a (slot ![0, 10] slices_S256x16_o0_10_S256x1 v1 v3 v5 v7 v9 v11 v12)) (slot ![0, 11] slices_S256x16_o0_11_S256x1 v1 v3 v5 v7 v9 v11 v12)) (slot ![0, 12] slices_S256x16_o0_12_S256x1 v1 v3 v5 v7 v9 v11 v12)) := rfl

theorem pay26_eq (v1 : IVec S256x16 32) :
    k1_pay26 v1 = (broadcastTo S256x8192 (extractStridedSlice S256x1 ![0, 13] v1 slices_S256x16_o0_13_S256x1) broadcasts_S256x1_S256x8192) := rfl

theorem pay27_eq (v1 : IVec S256x16 32) (v3 : FVec Ideal S256x8 .f32) (v5 : FVec Ideal S4x32 .f32) (v7 : FVec Ideal S32x128 .f32) (v9 : FVec Ideal S8192x128 .bf16) (v11 : FVec Ideal S8192x8 .bf16) (v12 : IVec S1x8192 32) (a : FVec Ideal S256x128 .f32) :
    k1_pay27 v1 v3 v5 v7 v9 v11 v12 a (broadcastTo S256x8192 (extractStridedSlice S256x1 ![0, 13] v1 slices_S256x16_o0_13_S256x1) broadcasts_S256x1_S256x8192) = (maximumf (maximumf a (slot ![0, 13] slices_S256x16_o0_13_S256x1 v1 v3 v5 v7 v9 v11 v12)) (slot ![0, 14] slices_S256x16_o0_14_S256x1 v1 v3 v5 v7 v9 v11 v12)) := rfl

theorem pay1_eq (v1 : IVec S256x16 32) (v3 : FVec Ideal S256x8 .f32) (v5 : FVec Ideal S4x32 .f32) (v7 : FVec Ideal S32x128 .f32) (v9 : FVec Ideal S8192x128 .bf16) (v11 : FVec Ideal S8192x8 .bf16) (v12 : IVec S1x8192 32) (a : FVec Ideal S256x128 .f32) :
    k1_pay1 v3 v5 v7 a (k1_pay29 v1 v9 v12) (k1_pay30 v1 v11 v12)
      = shapeCast S1x256x128 (maximumf a (slot ![0, 15] slices_S256x16_o0_15_S256x1 v1 v3 v5 v7 v9 v11 v12)) shapeCasts_S256x128_S1x256x128 := rfl

/-- The stored block is the cast of the running maximum over the sixteen slots of the loaded blocks. -/
theorem out1_6_eq (x0 : Vec Ideal S1x256x16 .i32) (x1 : Vec Ideal S1x256x8 .f32) (x2 : Vec Ideal S1x8192x8 .bf16)
    (x3 : Vec Ideal S1x8192x128 .bf16) (x4 : Vec Ideal S4x32 .f32) (x5 : Vec Ideal S32x128 .f32) :
    out1_6 (F := Ideal) x0 x1 x2 x3 x4 x5
      = shapeCast S1x256x128 (acc16 (k1_pay2 (F := Ideal) x0) (k1_pay3 x1) (k1_pay4 x4) (k1_pay5 x5) (k1_pay6 x3) (k1_pay7 x2)
          (iota .tc S1x8192 32 [1] iota_S1x8192_d1_w32)) shapeCasts_S256x128_S1x256x128 := by
  have hz3 : (![0, 0, 0] : Fin 3 → Nat) = fun _ => 0 := by funext a; match a with | ⟨0, _⟩ => rfl | ⟨1, _⟩ => rfl | ⟨2, _⟩ => rfl
  have hz2 : (![0, 0] : Fin 2 → Nat) = fun _ => 0 := by funext a; match a with | ⟨0, _⟩ => rfl | ⟨1, _⟩ => rfl
  unfold out1_6
  rw [View.canon_unit_zero hz3]
  simp only [View.ld_unit_zero (S := S1x256x16) hz3, View.ld_unit_zero (S := S1x256x8) hz3, View.ld_unit_zero (S := S1x8192x128) hz3,
    View.ld_unit_zero (S := S1x8192x8) hz3, View.ld_unit_zero (S := S4x32) hz2, View.ld_unit_zero (S := S32x128) hz2]
  rw [pay8_eq, pay9_eq, pay10_eq, pay14_eq, pay18_eq, pay20_eq, pay25_eq, pay26_eq, pay27_eq, pay1_eq]
  rfl

/-! ## One slot read at one element -/

/-- A neighbour word in range equals the word of a position exactly when that position is the neighbour it names. -/
theorem word_eq_iff {w : BitVec 32} (h0 : 0 ≤ w.toInt) (h1 : w.toInt < 8192) (j : Fin 8192) :
    w = BitVec.ofNat 32 j.val ↔ j = nbr w := by
  have hn := nbr_of_range h0 h1
  constructor
  · intro e
    apply Fin.ext
    rw [hn, e, BitVec.toNat_ofNat]
    have := j.isLt
    exact (Nat.mod_eq_of_lt (by omega)).symm
  · intro e
    subst e
    apply BitVec.eq_of_toNat_eq
    rw [BitVec.toNat_ofNat, hn]
    exact (Nat.mod_eq_of_lt w.isLt).symm

/-- The word of row `p` in the slot's column, broadcast along the row. -/
theorem bcast_word_apply (kk : Nat) (h : S256x16.Slices ![0, kk] S256x1) (k : Fin 16) (hkk : k.val = kk) (v1 : IVec S256x16 32)
    (p : Fin 256) (j : Fin 8192) :
    broadcastTo S256x8192 (extractStridedSlice S256x1 ![0, kk] v1 h) broadcasts_S256x1_S256x8192 (ix2 p j) = v1 (ix2 p k) := by
  refine (broadcastTo_apply _ broadcasts_S256x1_S256x8192 (ix2 p j) (ix2 p (0 : Fin 1)) fun ax => ?_).trans ?_
  · match ax with
    | ⟨0, _⟩ => rfl
    | ⟨1, _⟩ => rfl
  · exact slice2_axis1_apply kk v1 h p (0 : Fin 1) k (by rw [hkk]; rfl)

/-- The position row broadcast down the rows reads the position's own word. -/
theorem bcast_iota_apply (p : Fin 256) (j : Fin 8192) :
    broadcastTo S256x8192 (iota .tc S1x8192 32 [1] iota_S1x8192_d1_w32) broadcasts_S1x8192_S256x8192 (ix2 p j) = BitVec.ofNat 32 j.val :=
  (broadcastTo_1b_ab_apply _ broadcasts_S1x8192_S256x8192 p j).trans
    (iota_single_apply .tc S1x8192 32 1 iota_S1x8192_d1_w32 (ix2 (0 : Fin 1) j))

/-- The indicator row of a slot at position `j`: one where `j` is the neighbour the word names, zero elsewhere. -/
theorem onehot_apply (kk : Nat) (h : S256x16.Slices ![0, kk] S256x1) (k : Fin 16) (hkk : k.val = kk) (v1 : IVec S256x16 32)
    (p : Fin 256) (h0 : 0 ≤ (v1 (ix2 p k)).toInt) (h1 : (v1 (ix2 p k)).toInt < 8192) (j : Fin 8192) :
    onehot ![0, kk] h v1 (iota .tc S1x8192 32 [1] iota_S1x8192_d1_w32) (ix2 p j) = if j = nbr (v1 (ix2 p k)) then (1 : EReal) else 0 := by
  have e0 : onehot ![0, kk] h v1 (iota .tc S1x8192 32 [1] iota_S1x8192_d1_w32) (ix2 p j)
      = (((((IntOp.cmpi .eq
          (broadcastTo S256x8192 (extractStridedSlice S256x1 ![0, kk] v1 h) broadcasts_S256x1_S256x8192 (ix2 p j))
          (broadcastTo S256x8192 (iota .tc S1x8192 32 [1] iota_S1x8192_d1_w32) broadcasts_S1x8192_S256x8192 (ix2 p j))).setWidth 32).toInt : ℝ)) : EReal) := rfl
  rw [e0, bcast_word_apply kk h k hkk v1 p j, bcast_iota_apply p j]
  by_cases hw : v1 (ix2 p k) = BitVec.ofNat 32 j.val
  · rw [if_pos ((word_eq_iff h0 h1 j).mp hw), IntOp.cmpi_eq.mpr hw]
    have : ((1#1 : BitVec 1).setWidth 32).toInt = 1 := by decide
    rw [this]; simp
  · rw [if_neg (fun e => hw ((word_eq_iff h0 h1 j).mpr e)), eq_zero_of_ne_one (fun e => hw (IntOp.cmpi_eq.mp e))]
    have : ((0#1 : BitVec 1).setWidth 32).toInt = 0 := by decide
    rw [this]; simp

/-- The gathered feature of row `p` at channel `d` is the table's row at the neighbour. -/
theorem gatherH_apply (kk : Nat) (h : S256x16.Slices ![0, kk] S256x1) (k : Fin 16) (hkk : k.val = kk) (v1 : IVec S256x16 32)
    (v9 : FVec Ideal S8192x128 .bf16) (p : Fin 256) (h0 : 0 ≤ (v1 (ix2 p k)).toInt) (h1 : (v1 (ix2 p k)).toInt < 8192) (d : Fin 128) :
    gatherH v9 (onehot ![0, kk] h v1 (iota .tc S1x8192 32 [1] iota_S1x8192_d1_w32)) (ix2 p d) = v9 (ix2 (nbr (v1 (ix2 p k))) d) := by
  unfold gatherH
  rw [mm_gatherH]
  rw [Finset.sum_congr rfl fun j _ => by rw [onehot_apply kk h k hkk v1 p h0 h1 j]]
  exact sum_ite_eq_mul (nbr (v1 (ix2 p k))) fun j => v9 (ix2 j d)

/-- The gathered coordinate `a` of row `p` is the coordinate table's row at the neighbour. -/
theorem gatherP_apply (kk : Nat) (h : S256x16.Slices ![0, kk] S256x1) (k : Fin 16) (hkk : k.val = kk) (v1 : IVec S256x16 32)
    (v11 : FVec Ideal S8192x8 .bf16) (p : Fin 256) (h0 : 0 ≤ (v1 (ix2 p k)).toInt) (h1 : (v1 (ix2 p k)).toInt < 8192) (a : Fin 3) :
    gatherP v11 (onehot ![0, kk] h v1 (iota .tc S1x8192 32 [1] iota_S1x8192_d1_w32)) (ix2 p a)
      = v11 (ix2 (nbr (v1 (ix2 p k))) (a.castLE (by decide))) := by
  unfold gatherP
  refine (slice2_axis1_apply 0 _ slices_S256x8_o0_0_S256x3 p a (a.castLE (by decide)) (by simp)).trans ?_
  rw [mm_gatherP]
  rw [Finset.sum_congr rfl fun j _ => by rw [onehot_apply kk h k hkk v1 p h0 h1 j]]
  exact sum_ite_eq_mul (nbr (v1 (ix2 p k))) fun j => v11 (ix2 j (a.castLE (by decide)))

/-- The relative coordinate: the gathered one less the query's. -/
theorem relOf_apply (v3 : FVec Ideal S256x8 .f32) (g : FVec Ideal S256x3 .f32) (p : Fin 256) (a : Fin 3) :
    relOf v3 g (ix2 p a) = g (ix2 p a) - v3 (ix2 p (a.castLE (by decide))) := by
  unfold relOf
  refine (subf_apply _ _ _).trans ?_
  exact congrArg (g (ix2 p a) - ·) (slice2_axis1_apply 0 v3 slices_S256x8_o0_0_S256x3 p a (a.castLE (by decide)) (by simp))

/-- The lane sum: the three squares of a row. -/
theorem sqOf_apply (rel : FVec Ideal S256x3 .f32) (p : Fin 256) :
    sqOf rel (ix1 p) = ∑ a : Fin 3, rel (ix2 p a) * rel (ix2 p a) := by
  unfold sqOf
  refine (Ideal.multiReduction_add_single (mulf rel rel) 0x00000000#32 reduces_S256x3_S256 (.inl rfl) rfl (ix1 p)).trans ?_
  refine Finset.sum_congr rfl fun a _ => ?_
  have e : reduces_S256x3_S256.lift (ix1 p) a = ix2 p a := funext fun b => Fin.ext (by
    match b with
    | ⟨0, _⟩ => rfl
    | ⟨1, _⟩ => rfl)
  rw [e]; rfl

/-- The four features of a row as the joined vector holds them. -/
theorem feat4_apply (rel : FVec Ideal S256x3 .f32) (sq : FVec Ideal S256 .f32) (p : Fin 256) (f : Fin 4) :
    concatenate S256x4 1 [⟨S256x3, rel⟩, ⟨S256x1, shapeCast S256x1 sq shapeCasts_S256_S256x1⟩] concatenates_S256x3_S256x1_S256x4_d1 (ix2 p f)
      = if hf : f.val < 3 then rel (ix2 p ⟨f.val, hf⟩) else sq (ix1 p) := by
  by_cases hf : f.val < 3
  · rw [dif_pos hf]
    exact concatenate_pair_apply_left 1 rel _ concatenates_S256x3_S256x1_S256x4_d1 (ix2 p f) rfl (ix2 p ⟨f.val, hf⟩) (fun b => by
      match b with
      | ⟨0, _⟩ => rfl
      | ⟨1, _⟩ => rfl)
  · rw [dif_neg hf]
    have hf3 : f.val = 3 := by have := f.isLt; omega
    refine (concatenate_pair_apply_right 1 rel _ concatenates_S256x3_S256x1_S256x4_d1 (ix2 p f) rfl rfl (ix2 p (0 : Fin 1)) (fun b hb => by
      match b with
      | ⟨0, _⟩ => rfl
      | ⟨1, _⟩ => exact absurd rfl hb) (by show 0 + 3 = f.val; omega)).trans ?_
    exact shapeCast_apply sq shapeCasts_S256_S256x1 (ix2 p (0 : Fin 1)) (ix1 p) (by
      rw [Shape.rowMajor_val_two, Shape.rowMajor_val_one]
      show p.val = p.val * 1 + 0
      omega)

/-- The encoding of row `p` for group `g`: the four features against the group's weights. -/
theorem encOf_apply (v5 : FVec Ideal S4x32 .f32) (rel : FVec Ideal S256x3 .f32) (p : Fin 256) (g : Fin 32) :
    encOf v5 rel (sqOf rel) (ix2 p g) = ∑ f : Fin 4, feat (fun a => rel (ix2 p a)) f * v5 (ix2 f g) := by
  unfold encOf
  rw [mm_enc]
  refine Finset.sum_congr rfl fun f _ => ?_
  rw [feat4_apply, sqOf_apply]
  rfl

/-- The expansion picks the encoding of the channel's own group. -/
theorem expOf_apply (v7 : FVec Ideal S32x128 .f32)
    (hE : ∀ (g : Fin 32) (d : Fin 128), v7 (ix2 g d) = if d.val / 4 = g.val then (1 : EReal) else 0)
    (e : FVec Ideal S256x32 .f32) (p : Fin 256) (d : Fin 128) :
    expOf v7 e (ix2 p d) = e (ix2 p (grp d)) := by
  unfold expOf
  rw [mm_expand]
  rw [Finset.sum_congr rfl fun g _ => by
    rw [hE g d, show (if d.val / 4 = g.val then (1 : EReal) else 0) = if g = grp d then (1 : EReal) else 0 from
      if_congr ⟨fun h => Fin.ext h.symm, fun h => (congrArg Fin.val h).symm⟩ rfl rfl]]
  exact sum_mul_ite_eq (grp d) fun g => e (ix2 p g)

/-- One slot at row `p` and channel `d`: the specification's term for the neighbour the slot's word names. -/
theorem slot_apply (kk : Nat) (h : S256x16.Slices ![0, kk] S256x1) (k : Fin 16) (hkk : k.val = kk) (v1 : IVec S256x16 32)
    (v3 : FVec Ideal S256x8 .f32) (v5 : FVec Ideal S4x32 .f32) (v7 : FVec Ideal S32x128 .f32) (v9 : FVec Ideal S8192x128 .bf16)
    (v11 : FVec Ideal S8192x8 .bf16)
    (hE : ∀ (g : Fin 32) (d : Fin 128), v7 (ix2 g d) = if d.val / 4 = g.val then (1 : EReal) else 0)
    (p : Fin 256) (h0 : 0 ≤ (v1 (ix2 p k)).toInt) (h1 : (v1 (ix2 p k)).toInt < 8192) (d : Fin 128) :
    slot ![0, kk] h v1 v3 v5 v7 v9 v11 (iota .tc S1x8192 32 [1] iota_S1x8192_d1_w32) (ix2 p d)
      = slotTerm (nbr (v1 (ix2 p k))) (fun a => v3 (ix2 p (a.castLE (by decide)))) (fun j => v9 (ix2 j d))
          (fun j a => v11 (ix2 j (a.castLE (by decide)))) (fun f => v5 (ix2 f (grp d))) := by
  unfold slot slotTerm
  refine (addf_apply _ _ _).trans ?_
  rw [gatherH_apply kk h k hkk v1 v9 p h0 h1 d, expOf_apply v7 hE, encOf_apply]
  have er : (fun a : Fin 3 => relOf v3 (gatherP v11 (onehot ![0, kk] h v1 (iota .tc S1x8192 32 [1] iota_S1x8192_d1_w32))) (ix2 p a))
      = fun a => v11 (ix2 (nbr (v1 (ix2 p k))) (a.castLE (by decide))) - v3 (ix2 p (a.castLE (by decide))) := funext fun a => by
    rw [relOf_apply, gatherP_apply kk h k hkk v1 v11 p h0 h1 a]
  rw [er]

/-! ## The stored block at one element -/

/-- The running maximum at an element: sixteen terms joined one after the other from the splat's value. -/
theorem acc16_apply (v1 : IVec S256x16 32) (v3 : FVec Ideal S256x8 .f32) (v5 : FVec Ideal S4x32 .f32) (v7 : FVec Ideal S32x128 .f32) (v9 : FVec Ideal S8192x128 .bf16) (v11 : FVec Ideal S8192x8 .bf16) (v12 : IVec S1x8192 32) (i : S256x128.Idx) :
    acc16 v1 v3 v5 v7 v9 v11 v12 i
      = (max (max (max (max (max (max (max (max (max (max (max (max (max (max (max (max (Ideal.ofBits .f32 0xFF800000#32)
          (slot ![0, 0] slices_S256x16_o0_0_S256x1 v1 v3 v5 v7 v9 v11 v12 i))
          (slot ![0, 1] slices_S256x16_o0_1_S256x1 v1 v3 v5 v7 v9 v11 v12 i))
          (slot ![0, 2] slices_S256x16_o0_2_S256x1 v1 v3 v5 v7 v9 v11 v12 i))
          (slot ![0, 3] slices_S256x16_o0_3_S256x1 v1 v3 v5 v7 v9 v11 v12 i))
          (slot ![0, 4] slices_S256x16_o0_4_S256x1 v1 v3 v5 v7 v9 v11 v12 i))
          (slot ![0, 5] slices_S256x16_o0_5_S256x1 v1 v3 v5 v7 v9 v11 v12 i))
          (slot ![0, 6] slices_S256x16_o0_6_S256x1 v1 v3 v5 v7 v9 v11 v12 i))
          (slot ![0, 7] slices_S256x16_o0_7_S256x1 v1 v3 v5 v7 v9 v11 v12 i))
          (slot ![0, 8] slices_S256x16_o0_8_S256x1 v1 v3 v5 v7 v9 v11 v12 i))
          (slot ![0, 9] slices_S256x16_o0_9_S256x1 v1 v3 v5 v7 v9 v11 v12 i))
          (slot ![0, 10] slices_S256x16_o0_10_S256x1 v1 v3 v5 v7 v9 v11 v12 i))
          (slot ![0, 11] slices_S256x16_o0_11_S256x1 v1 v3 v5 v7 v9 v11 v12 i))
          (slot ![0, 12] slices_S256x16_o0_12_S256x1 v1 v3 v5 v7 v9 v11 v12 i))
          (slot ![0, 13] slices_S256x16_o0_13_S256x1 v1 v3 v5 v7 v9 v11 v12 i))
          (slot ![0, 14] slices_S256x16_o0_14_S256x1 v1 v3 v5 v7 v9 v11 v12 i))
          (slot ![0, 15] slices_S256x16_o0_15_S256x1 v1 v3 v5 v7 v9 v11 v12 i)) := rfl

/-- The splat the maximum starts from is `-∞`. -/
theorem ofBits_neg_inf : Ideal.ofBits .f32 0xFF800000#32 = (⊥ : EReal) := by simp [Ideal.ofBits, Ideal.ieee]

/-- One slot of the loaded blocks at row `p` and channel `d`: the blocks' leading unit axis dropped, the slot's term is the
    specification's for the neighbour named in column `k`. -/
theorem slot_blocks_apply (kk : Nat) (h : S256x16.Slices ![0, kk] S256x1) (k : Fin 16) (hkk : k.val = kk)
    (x0 : Vec Ideal S1x256x16 .i32) (x1 : Vec Ideal S1x256x8 .f32) (x2 : Vec Ideal S1x8192x8 .bf16)
    (x3 : Vec Ideal S1x8192x128 .bf16) (x4 : Vec Ideal S4x32 .f32) (x5 : Vec Ideal S32x128 .f32)
    (hk : ∀ (p : Fin 256) (k : Fin 16), 0 ≤ (x0 (ix3 0 p k)).toInt ∧ (x0 (ix3 0 p k)).toInt < 8192)
    (hE : ∀ (g : Fin 32) (d : Fin 128), x5 (ix2 g d) = if d.val / 4 = g.val then (1 : EReal) else 0)
    (p : Fin 256) (d : Fin 128) :
    slot ![0, kk] h (k1_pay2 (F := Ideal) x0) (k1_pay3 x1) (k1_pay4 x4) (k1_pay5 x5) (k1_pay6 x3) (k1_pay7 x2) (iota .tc S1x8192 32 [1] iota_S1x8192_d1_w32) (ix2 p d)
      = slotTerm (nbr (x0 (ix3 0 p k))) (fun a => x1 (ix3 0 p (a.castLE (by decide)))) (fun j => x3 (ix3 0 j d))
          (fun j a => x2 (ix3 0 j (a.castLE (by decide)))) (fun f => x4 (ix2 f (grp d))) := by
  have e1 : ∀ (r : Fin 256) (c : Fin 16), k1_pay2 (F := Ideal) x0 (ix2 r c) = x0 (ix3 0 r c) :=
    fun r c => shapeCast_1ab_ab_apply x0 shapeCasts_S1x256x16_S256x16 r c
  have e3 : ∀ (r : Fin 256) (c : Fin 8), k1_pay3 x1 (ix2 r c) = x1 (ix3 0 r c) :=
    fun r c => shapeCast_1ab_ab_apply x1 shapeCasts_S1x256x8_S256x8 r c
  have e9 : ∀ (r : Fin 8192) (c : Fin 128), k1_pay6 x3 (ix2 r c) = x3 (ix3 0 r c) :=
    fun r c => shapeCast_1ab_ab_apply x3 shapeCasts_S1x8192x128_S8192x128 r c
  have e11 : ∀ (r : Fin 8192) (c : Fin 8), k1_pay7 x2 (ix2 r c) = x2 (ix3 0 r c) :=
    fun r c => shapeCast_1ab_ab_apply x2 shapeCasts_S1x8192x8_S8192x8 r c
  have e5 : k1_pay4 x4 = x4 := shapeCast_self x4 shapeCasts_S4x32_S4x32
  have e7 : k1_pay5 x5 = x5 := shapeCast_self x5 shapeCasts_S32x128_S32x128
  rw [slot_apply kk h k hkk (k1_pay2 (F := Ideal) x0) (k1_pay3 x1) (k1_pay4 x4) (k1_pay5 x5) (k1_pay6 x3) (k1_pay7 x2)
    (by rw [e7]; exact hE) p (by rw [e1]; exact (hk p k).1) (by rw [e1]; exact (hk p k).2) d]
  simp only [e1, e3, e9, e11, e5]

/-- The gather kernel's body at one output element: with every neighbour word in range (`hk`) and the expansion
    matrix the indicator of "channel `d` belongs to group `g`" (`hE`), row `p` and channel `d` of the stored block are
    `rowAgg` of the loaded blocks. -/
theorem out1_6_apply (x0 : Vec Ideal S1x256x16 .i32) (x1 : Vec Ideal S1x256x8 .f32) (x2 : Vec Ideal S1x8192x8 .bf16)
    (x3 : Vec Ideal S1x8192x128 .bf16) (x4 : Vec Ideal S4x32 .f32) (x5 : Vec Ideal S32x128 .f32)
    (hk : ∀ (p : Fin 256) (k : Fin 16), 0 ≤ (x0 (ix3 0 p k)).toInt ∧ (x0 (ix3 0 p k)).toInt < 8192)
    (hE : ∀ (g : Fin 32) (d : Fin 128), x5 (ix2 g d) = if d.val / 4 = g.val then (1 : EReal) else 0)
    (p : Fin 256) (d : Fin 128) :
    out1_6 (F := Ideal) x0 x1 x2 x3 x4 x5 (ix3 0 p d)
      = rowAgg (fun k => x0 (ix3 0 p k)) (fun a => x1 (ix3 0 p (a.castLE (by decide))))
          (fun j => x3 (ix3 0 j d)) (fun j a => x2 (ix3 0 j (a.castLE (by decide))))
          (fun f => x4 (ix2 f (grp d))) := by
  rw [out1_6_eq]
  refine (shapeCast_ab_1ab_apply _ shapeCasts_S256x128_S1x256x128 0 p d).trans ?_
  rw [acc16_apply, ofBits_neg_inf]
  rw [slot_blocks_apply 0 _ 0 rfl x0 x1 x2 x3 x4 x5 hk hE p d,
    slot_blocks_apply 1 _ 1 rfl x0 x1 x2 x3 x4 x5 hk hE p d,
    slot_blocks_apply 2 _ 2 rfl x0 x1 x2 x3 x4 x5 hk hE p d,
    slot_blocks_apply 3 _ 3 rfl x0 x1 x2 x3 x4 x5 hk hE p d,
    slot_blocks_apply 4 _ 4 rfl x0 x1 x2 x3 x4 x5 hk hE p d,
    slot_blocks_apply 5 _ 5 rfl x0 x1 x2 x3 x4 x5 hk hE p d,
    slot_blocks_apply 6 _ 6 rfl x0 x1 x2 x3 x4 x5 hk hE p d,
    slot_blocks_apply 7 _ 7 rfl x0 x1 x2 x3 x4 x5 hk hE p d,
    slot_blocks_apply 8 _ 8 rfl x0 x1 x2 x3 x4 x5 hk hE p d,
    slot_blocks_apply 9 _ 9 rfl x0 x1 x2 x3 x4 x5 hk hE p d,
    slot_blocks_apply 10 _ 10 rfl x0 x1 x2 x3 x4 x5 hk hE p d,
    slot_blocks_apply 11 _ 11 rfl x0 x1 x2 x3 x4 x5 hk hE p d,
    slot_blocks_apply 12 _ 12 rfl x0 x1 x2 x3 x4 x5 hk hE p d,
    slot_blocks_apply 13 _ 13 rfl x0 x1 x2 x3 x4 x5 hk hE p d,
    slot_blocks_apply 14 _ 14 rfl x0 x1 x2 x3 x4 x5 hk hE p d,
    slot_blocks_apply 15 _ 15 rfl x0 x1 x2 x3 x4 x5 hk hE p d]
  exact fold_max_fin16 fun k => slotTerm (nbr (x0 (ix3 0 p k))) (fun a => x1 (ix3 0 p (a.castLE (by decide)))) (fun j => x3 (ix3 0 j d))
          (fun j a => x2 (ix3 0 j (a.castLE (by decide)))) (fun f => x4 (ix2 f (grp d)))

end Cert.KnnAgg

end
-- ==== Proof.KReg1.lean ====
/-
  The gather region: a 4 × 32 grid, point (b, qi) computing rows 256·qi … 256·qi + 255 of batch b from that batch's whole
  tables.  Each point's stored block is the body's rowAgg of the blocks it loads; reading every block where its window
  places it in its array, and covering (b, n) by the point (b, n / 256), gives the output array element by element.
-/
import proofs.«407124_j33105607917673_1_alg».proof.Proof.KArr
import proofs.«407124_j33105607917673_1_alg».proof.Proof.KBody1

set_option maxRecDepth 16384

noncomputable section

namespace Cert.KnnAgg

open Idealize.ShloMosaic Idealize.ShloMosaic.ValueIdx Idealize.ShloMosaic.TcCoe Idealize.SL.Sem
open Cert.KernelIdeal Cert.KernelIdeal.Gen

section Launch
variable (V : (c : Dev nD) → (b : Ref sig .tc) → Buf (Elt Ideal) ((c : Thread nD τ).loc b)) (c : Dev nD)

/-- The index maps over the 4 × 32 grid: point `t` is batch `t / 32` and row block `t % 32`. The neighbour words, the
    query coordinates and the output move with both; the coordinate and feature tables with the batch only; the
    encoding weights and the expansion matrix stay whole. -/
theorem idx1 : ∀ t : Fin cfg1.N,
    win1_0.index t (0 : Fin 3) = t.val / 32 ∧ win1_0.index t (1 : Fin 3) = t.val % 32 ∧ win1_0.index t (2 : Fin 3) = 0
    ∧ win1_1.index t (0 : Fin 3) = t.val / 32 ∧ win1_1.index t (1 : Fin 3) = t.val % 32 ∧ win1_1.index t (2 : Fin 3) = 0
    ∧ win1_2.index t (0 : Fin 3) = t.val / 32 ∧ win1_2.index t (1 : Fin 3) = 0 ∧ win1_2.index t (2 : Fin 3) = 0
    ∧ win1_3.index t (0 : Fin 3) = t.val / 32 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val / 32 ∧ win1_6.index t (1 : Fin 3) = t.val % 32 ∧ win1_6.index t (2 : Fin 3) = 0 :=
  (by decide +kernel : ∀ t : Fin grid1.N, _)

/-- The block of neighbour words at point `t`: rows `256·(t % 32) + p` of batch `t / 32`. -/
theorem blk0_apply (t : Fin cfg1.N) (b : Fin 4) (hb : b.val = t.val / 32) (p : Fin 256) (k : Fin 16) (n : Fin 8192)
    (hn : n.val = t.val % 32 * 256 + p.val) :
    (iblk1 (F := Ideal) V c 0 t : Vec Ideal S1x256x16 .i32) (ix3 0 p k) = aKnn V c (ix3 b n k) := by
  obtain ⟨a0, a1, a2, b0, b1, b2, c0, c1, c2, d0, d1, d2, f0, f1, g0, g1, o0, o1, o2⟩ := idx1 t
  unfold iblk1
  rw [View.read_apply]
  show V c main_arg2 _ = V c main_arg2 _
  congr 1
  funext a
  apply Fin.ext
  match a with
  | ⟨0, _⟩ => show win1_0.index t (0 : Fin 3) * 1 + 1 * 0 = b.val; omega
  | ⟨1, _⟩ => show win1_0.index t (1 : Fin 3) * 256 + 1 * p.val = n.val; omega
  | ⟨2, _⟩ => show win1_0.index t (2 : Fin 3) * 16 + 1 * k.val = k.val; omega

/-- The block of query coordinates at point `t`: the same rows of the padded coordinate array. -/
theorem blk1_apply (t : Fin cfg1.N) (b : Fin 4) (hb : b.val = t.val / 32) (p : Fin 256) (k : Fin 8) (n : Fin 8192)
    (hn : n.val = t.val % 32 * 256 + p.val) :
    (iblk1 (F := Ideal) V c 1 t : Vec Ideal S1x256x8 .f32) (ix3 0 p k) = aQ V c (ix3 b n k) := by
  obtain ⟨a0, a1, a2, b0, b1, b2, c0, c1, c2, d0, d1, d2, f0, f1, g0, g1, o0, o1, o2⟩ := idx1 t
  unfold iblk1
  rw [View.read_apply]
  show V c main_v18 _ = V c main_v18 _
  congr 1
  funext a
  apply Fin.ext
  match a with
  | ⟨0, _⟩ => show win1_1.index t (0 : Fin 3) * 1 + 1 * 0 = b.val; omega
  | ⟨1, _⟩ => show win1_1.index t (1 : Fin 3) * 256 + 1 * p.val = n.val; omega
  | ⟨2, _⟩ => show win1_1.index t (2 : Fin 3) * 8 + 1 * k.val = k.val; omega

/-- The coordinate table's block at point `t`: the whole slab of batch `t / 32`. -/
theorem blk2_apply (t : Fin cfg1.N) (b : Fin 4) (hb : b.val = t.val / 32) (j : Fin 8192) (k : Fin 8) :
    (iblk1 (F := Ideal) V c 2 t : Vec Ideal S1x8192x8 .bf16) (ix3 0 j k) = aP V c (ix3 b j k) := by
  obtain ⟨a0, a1, a2, b0, b1, b2, c0, c1, c2, d0, d1, d2, f0, f1, g0, g1, o0, o1, o2⟩ := idx1 t
  unfold iblk1
  rw [View.read_apply]
  show V c main_v19 _ = V c main_v19 _
  congr 1
  funext a
  apply Fin.ext
  match a with
  | ⟨0, _⟩ => show win1_2.index t (0 : Fin 3) * 1 + 1 * 0 = b.val; omega
  | ⟨1, _⟩ => show win1_2.index t (1 : Fin 3) * 8192 + 1 * j.val = j.val; omega
  | ⟨2, _⟩ => show win1_2.index t (2 : Fin 3) * 8 + 1 * k.val = k.val; omega

/-- The feature table's block at point `t`: the whole slab of batch `t / 32`. -/
theorem blk3_apply (t : Fin cfg1.N) (b : Fin 4) (hb : b.val = t.val / 32) (j : Fin 8192) (d : Fin 128) :
    (iblk1 (F := Ideal) V c 3 t : Vec Ideal S1x8192x128 .bf16) (ix3 0 j d) = aH V c (ix3 b j d) := by
  obtain ⟨a0, a1, a2, b0, b1, b2, c0, c1, c2, d0, d1, d2, f0, f1, g0, g1, o0, o1, o2⟩ := idx1 t
  unfold iblk1
  rw [View.read_apply]
  show V c main_v3 _ = V c main_v3 _
  congr 1
  funext a
  apply Fin.ext
  match a with
  | ⟨0, _⟩ => show win1_3.index t (0 : Fin 3) * 1 + 1 * 0 = b.val; omega
  | ⟨1, _⟩ => show win1_3.index t (1 : Fin 3) * 8192 + 1 * j.val = j.val; omega
  | ⟨2, _⟩ => show win1_3.index t (2 : Fin 3) * 128 + 1 * d.val = d.val; omega

/-- The encoding weights' block at every point is the whole array. -/
theorem blk4_apply (t : Fin cfg1.N) (f : Fin 4) (g : Fin 32) :
    (iblk1 (F := Ideal) V c 4 t : Vec Ideal S4x32 .f32) (ix2 f g) = aW V c (ix2 f g) := by
  obtain ⟨a0, a1, a2, b0, b1, b2, c0, c1, c2, d0, d1, d2, f0, f1, g0, g1, o0, o1, o2⟩ := idx1 t
  unfold iblk1
  rw [View.read_apply]
  show V c main_v8 _ = V c main_v8 _
  congr 1
  funext a
  apply Fin.ext
  match a with
  | ⟨0, _⟩ => show win1_4.index t (0 : Fin 2) * 4 + 1 * f.val = f.val; omega
  | ⟨1, _⟩ => show win1_4.index t (1 : Fin 2) * 32 + 1 * g.val = g.val; omega

/-- The expansion matrix's block at every point is the whole array. -/
theorem blk5_apply (t : Fin cfg1.N) (g : Fin 32) (d : Fin 128) :
    (iblk1 (F := Ideal) V c 5 t : Vec Ideal S32x128 .f32) (ix2 g d) = aE V c (ix2 g d) := by
  obtain ⟨a0, a1, a2, b0, b1, b2, c0, c1, c2, d0, d1, d2, f0, f1, g0, g1, o0, o1, o2⟩ := idx1 t
  unfold iblk1
  rw [View.read_apply]
  show V c main_v17 _ = V c main_v17 _
  congr 1
  funext a
  apply Fin.ext
  match a with
  | ⟨0, _⟩ => show win1_5.index t (0 : Fin 2) * 32 + 1 * g.val = g.val; omega
  | ⟨1, _⟩ => show win1_5.index t (1 : Fin 2) * 128 + 1 * d.val = d.val; omega

/-- The aggregate of the region's input arrays at batch `b`, point `n`, channel `d`. -/
def aggAt (b : Fin 4) (n : Fin 8192) (d : Fin 128) : EReal :=
  rowAgg (fun k => aKnn V c (ix3 b n k)) (fun a => aQ V c (ix3 b n (a.castLE (by decide))))
    (fun j => aH V c (ix3 b j d)) (fun j a => aP V c (ix3 b j (a.castLE (by decide))))
    (fun f => aW V c (ix2 f (grp d)))

/-- The same as one array over the output's index set. -/
def aggArr : FVec Ideal S4x8192x128 .f32 := fun i => aggAt V c (i 0) (i 1) (i 2)

/-- One element of one point's stored block. The six loaded blocks are blocks of the region's input arrays: the rows
    `256·qi + p` of batch `b` for the neighbour words and the query coordinates, the whole slab of batch `b` for the two
    tables, the whole array for the weights and the expansion matrix. Then the body's value at row `p` of the block is
    the aggregate at row `256·qi + p` of batch `b`. -/
theorem point_eq
    (hk : ∀ i : S4x8192x16.Idx, 0 ≤ (aKnn V c i).toInt ∧ (aKnn V c i).toInt < 8192)
    (hE : ∀ (g : Fin 32) (d : Fin 128), aE V c (ix2 g d) = if d.val / 4 = g.val then (1 : EReal) else 0)
    (x0 : Vec Ideal S1x256x16 .i32) (x1 : Vec Ideal S1x256x8 .f32) (x2 : Vec Ideal S1x8192x8 .bf16)
    (x3 : Vec Ideal S1x8192x128 .bf16) (x4 : Vec Ideal S4x32 .f32) (x5 : Vec Ideal S32x128 .f32)
    (b : Fin 4) (qi : Nat) (hqi : qi < 32)
    (e0 : ∀ (p : Fin 256) (k : Fin 16) (n : Fin 8192), n.val = qi * 256 + p.val → x0 (ix3 0 p k) = aKnn V c (ix3 b n k))
    (e1 : ∀ (p : Fin 256) (k : Fin 8) (n : Fin 8192), n.val = qi * 256 + p.val → x1 (ix3 0 p k) = aQ V c (ix3 b n k))
    (e2 : ∀ (j : Fin 8192) (k : Fin 8), x2 (ix3 0 j k) = aP V c (ix3 b j k))
    (e3 : ∀ (j : Fin 8192) (d : Fin 128), x3 (ix3 0 j d) = aH V c (ix3 b j d))
    (e4 : ∀ (f : Fin 4) (g : Fin 32), x4 (ix2 f g) = aW V c (ix2 f g))
    (e5 : ∀ (g : Fin 32) (d : Fin 128), x5 (ix2 g d) = aE V c (ix2 g d))
    (y : S1x256x128.Idx) (i : S4x8192x128.Idx)
    (h0 : (i 0).val = b.val) (h1 : (i 1).val = qi * 256 + (y 1).val) (h2 : (i 2).val = (y 2).val) :
    out1_6 (F := Ideal) x0 x1 x2 x3 x4 x5 y = aggArr V c i := by
  obtain ⟨p, d, rfl⟩ : ∃ (p : Fin 256) (d : Fin 128), y = ix3 0 p d := ⟨y 1, y 2, by
    funext a
    match a with
    | ⟨0, _⟩ => exact Fin.ext (by have h : (y 0).val < 1 := (y 0).isLt; show (y 0).val = 0; omega)
    | ⟨1, _⟩ => rfl
    | ⟨2, _⟩ => rfl⟩
  obtain ⟨b', n, d', rfl⟩ : ∃ (b' : Fin 4) (n : Fin 8192) (d' : Fin 128), i = ix3 b' n d' := ⟨i 0, i 1, i 2, eq_ix3 i⟩
  obtain rfl : b' = b := Fin.ext h0
  obtain rfl : d' = d := Fin.ext h2
  have hn : n.val = qi * 256 + p.val := h1
  rw [out1_6_apply x0 x1 x2 x3 x4 x5
    (fun p k => by
      have hlt : qi * 256 + p.val < 8192 := by have := p.isLt; omega
      rw [e0 p k ⟨qi * 256 + p.val, hlt⟩ rfl]; exact hk _)
    (fun g d => (e5 g d).trans (hE g d)) p d']
  show _ = aggAt V c b' n d'
  unfold aggAt
  simp only [e0 _ _ n hn, e1 _ _ n hn, e2, e3, e4]

/-- What point `t` writes back is its block of the aggregate array. -/
theorem flushed1_eq
    (hk : ∀ i : S4x8192x16.Idx, 0 ≤ (aKnn V c i).toInt ∧ (aKnn V c i).toInt < 8192)
    (hE : ∀ (g : Fin 32) (d : Fin 128), aE V c (ix2 g d) = if d.val / 4 = g.val then (1 : EReal) else 0)
    (t : Fin cfg1.N) :
    (dat1 (F := Ideal) V c).flushed 6 t = ((cfg1.win 6).blk t).view.read (Elt Ideal) (aggArr V c) := by
  show (cfg1.win 6).cut (grid1.coords t) ((dat1 (F := Ideal) V c).after 6 t) = _
  rw [after1_6]
  funext y
  obtain ⟨a0, a1, a2, b0, b1, b2, c0, c1, c2, d0, d1, d2, f0, f1, g0, g1, o0, o1, o2⟩ := idx1 t
  have hN : cfg1.N = 128 := N_1
  have ht := t.isLt
  have hb : t.val / 32 < 4 := by omega
  rw [View.read_apply]
  show out1_6 (F := Ideal) (iblk1 V c 0 t) (iblk1 V c 1 t) (iblk1 V c 2 t) (iblk1 V c 3 t) (iblk1 V c 4 t) (iblk1 V c 5 t) y
    = aggArr V c (((cfg1.win 6).blk t).view.emb y)
  have hy0 : (y 0).val < 1 := (y 0).isLt
  exact point_eq V c hk hE (iblk1 V c 0 t) (iblk1 V c 1 t) (iblk1 V c 2 t) (iblk1 V c 3 t) (iblk1 V c 4 t) (iblk1 V c 5 t)
    ⟨t.val / 32, hb⟩ (t.val % 32) (by omega)
    (fun p k n hn => blk0_apply V c t ⟨t.val / 32, hb⟩ rfl p k n hn)
    (fun p k n hn => blk1_apply V c t ⟨t.val / 32, hb⟩ rfl p k n hn)
    (fun j k => blk2_apply V c t ⟨t.val / 32, hb⟩ rfl j k)
    (fun j d => blk3_apply V c t ⟨t.val / 32, hb⟩ rfl j d)
    (fun f g => blk4_apply V c t f g)
    (fun g d => blk5_apply V c t g d)
    y (((cfg1.win 6).blk t).view.emb y)
    (by show win1_6.index t (0 : Fin 3) * 1 + 1 * (y 0).val = t.val / 32; omega)
    (by show win1_6.index t (1 : Fin 3) * 256 + 1 * (y 1).val = t.val % 32 * 256 + (y 1).val; omega)
    (by show win1_6.index t (2 : Fin 3) * 128 + 1 * (y 2).val = (y 2).val; omega)

end Launch

/-- Region 1 (the gather and aggregation): after the 4 × 32 grid points the output array holds, at batch `b`, point `n`
    and channel `d`, `rowAgg` of the region's input arrays as it finds them. -/
theorem arrAt1_apply (V : (c : Dev nD) → (b : Ref sig .tc) → Buf (Elt Ideal) ((c : Thread nD τ).loc b)) (c : Dev nD)
    (hk : ∀ i : S4x8192x16.Idx, 0 ≤ (aKnn V c i).toInt ∧ (aKnn V c i).toInt < 8192)
    (hE : ∀ (g : Fin 32) (d : Fin 128), aE V c (ix2 g d) = if d.val / 4 = g.val then (1 : EReal) else 0)
    (b : Fin 4) (n : Fin 8192) (d : Fin 128) :
    out1 V c (ix3 b n d)
      = rowAgg (fun k => aKnn V c (ix3 b n k)) (fun a => aQ V c (ix3 b n (a.castLE (by decide))))
          (fun j => aH V c (ix3 b j d)) (fun j a => aP V c (ix3 b j (a.castLE (by decide))))
          (fun f => aW V c (ix2 f (grp d))) := by
  have hN : cfg1.N = 128 := N_1
  have hb := b.isLt
  have hn := n.isLt
  -- the point whose block holds row `n` of batch `b`
  obtain ⟨t, ht⟩ : ∃ t : Fin cfg1.N, t.val = b.val * 32 + n.val / 256 :=
    ⟨⟨b.val * 32 + n.val / 256, by omega⟩, rfl⟩
  show (dat1 (F := Ideal) V c).arrAt 6 cfg1.N (ix3 b n d) = aggArr V c (ix3 b n d)
  refine (dat1 (F := Ideal) V c).arrAt_apply_of_mem 6 (aggArr V c) (fun t _ => flushed1_eq V c hk hE t) cfg1.N t (ix3 b n d)
    t.isLt (flush1_6 t) ?_
  show ix3 b n d ∈ ((View.whole main_v20).slice (win1_6.rect t)).set
  rw [View.set_slice_whole, Rect.mem_set_unit]
  obtain ⟨a0, a1, a2, b0, b1, b2, c0, c1, c2, d0, d1, d2, f0, f1, g0, g1, o0, o1, o2⟩ := idx1 t
  intro a
  match a with
  | ⟨0, _⟩ => show win1_6.index t (0 : Fin 3) * 1 ≤ b.val ∧ b.val < win1_6.index t (0 : Fin 3) * 1 + 1; omega
  | ⟨1, _⟩ => show win1_6.index t (1 : Fin 3) * 256 ≤ n.val ∧ n.val < win1_6.index t (1 : Fin 3) * 256 + 256; omega
  | ⟨2, _⟩ => show win1_6.index t (2 : Fin 3) * 128 ≤ d.val ∧ d.val < win1_6.index t (2 : Fin 3) * 128 + 128; omega

end Cert.KnnAgg

end
-- ==== Proof.KHostIn.lean ====
/-
  What the host operations before each region leave in the arrays the regions read: the input with its leading axes
  flattened, the weight transposed, the neighbour words untouched, the coordinates padded with five zero columns (and that
  narrowed: the identity on extended reals), and the projection's output regrouped by batch.
-/
import proofs.«407124_j33105607917673_1_alg».proof.Proof.KArr
import proofs.«407124_j33105607917673_1_alg».proof.Proof.Spec
import Idealize.ShloMosaic.Lib.Pipeline.Value
import Idealize.ShloMosaic.Lib.StableHlo.Run
import Idealize.ShloMosaic.Lib.KernelVsHost
import Idealize.ShloMosaic.Lib.ValueLayout

set_option maxRecDepth 16384

noncomputable section

namespace Cert.KnnAgg

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## Region 0's operands: one host operation each, over the launch memory -/

/-- The first operand is the input with its two leading axes merged. -/
theorem V1_v1_eq : (aX (V1 m ρ) c : S32768x128.Idx → EReal)
    = shapeCast S32768x128 (mX m c) shapeCasts_S4x8192x128_S32768x128 := by
  show StableHlo.after hostOps0 (W0 m ρ c) (Proc.devRef .tc main_v1) = _
  after_results
  rfl

/-- The second operand is the weight with its axes exchanged. -/
theorem V1_v0_eq : (aWT (V1 m ρ) c : S128x128.Idx → EReal)
    = transpose S128x128 [1, 0] (mW m c) transposes_S128x128_S128x128_1_0 := by
  show StableHlo.after hostOps0 (W0 m ρ c) (Proc.devRef .tc main_v0) = _
  after_results

/-- Region 0's first operand is `x` with its two leading axes flattened. -/
theorem V1_v1_apply (b : Fin 4) (j : Fin 8192) (k : Fin 128) :
    aX (V1 m ρ) c (ix2 ⟨b.val * 8192 + j.val, by omega⟩ k) = mX m c (ix3 b j k) := by
  rw [V1_v1_eq]
  exact shapeCast_apply _ shapeCasts_S4x8192x128_S32768x128 _ _
    (by rewrite [Shape.rowMajor_val_three, Shape.rowMajor_val_two]; rfl)

/-- Region 0's second operand is the projection weight transposed. -/
theorem V1_v0_apply (k d : Fin 128) : aWT (V1 m ρ) c (ix2 k d) = mW m c (ix2 d k) := by
  rw [V1_v0_eq]
  exact transpose_ix2_apply _ _ k d

/-! ## A buffer that a stretch of host operations does not write keeps its contents -/

/-- Closes `after ops U b = U b` when no operation of the literal list `ops` writes `b`. -/
local macro "not_written " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- The coordinates are as launched until the padding reads them. -/
theorem W5_arg1 : W5 m ρ c (Proc.devRef .tc main_arg1) = m ((c : Thread nD τ).loc main_arg1) :=
  calc W5 m ρ c (Proc.devRef .tc main_arg1)
    _ = W4 m ρ c (Proc.devRef .tc main_arg1) := by not_written hostOps1_2
    _ = W3 m ρ c (Proc.devRef .tc main_arg1) := by not_written hostOps1_1
    _ = W2 m ρ c (Proc.devRef .tc main_arg1) := by not_written hostOps1
    _ = W1 m ρ c (Proc.devRef .tc main_arg1) := W2_of_ne m ρ c main_arg1 (by decide)
    _ = W0 m ρ c (Proc.devRef .tc main_arg1) := by not_written hostOps0
    _ = m ((c : Thread nD τ).loc main_arg1) := rfl

/-- The neighbour indices are as launched when region 1 reads them. -/
theorem W7_arg2 : W7 m ρ c (Proc.devRef .tc main_arg2) = m ((c : Thread nD τ).loc main_arg2) :=
  calc W7 m ρ c (Proc.devRef .tc main_arg2)
    _ = W6 m ρ c (Proc.devRef .tc main_arg2) := by not_written hostOps1_4
    _ = W5 m ρ c (Proc.devRef .tc main_arg2) := by not_written hostOps1_3
    _ = W4 m ρ c (Proc.devRef .tc main_arg2) := by not_written hostOps1_2
    _ = W3 m ρ c (Proc.devRef .tc main_arg2) := by not_written hostOps1_1
    _ = W2 m ρ c (Proc.devRef .tc main_arg2) := by not_written hostOps1
    _ = W1 m ρ c (Proc.devRef .tc main_arg2) := W2_of_ne m ρ c main_arg2 (by decide)
    _ = W0 m ρ c (Proc.devRef .tc main_arg2) := by not_written hostOps0
    _ = m ((c : Thread nD τ).loc main_arg2) := rfl

/-- Region 1 reads the neighbour indices as launched. -/
theorem V7_arg2 : aKnn (V7 m ρ) c = mKnn m c := by
  exact W7_arg2 m ρ c

/-! ## The padded coordinates -/

/-- What the last two stretches before region 1 leave in the padded array and in its narrowed copy, over any
    contents `U` before them: the padding of the coordinates held then, and that padding narrowed. -/
theorem v18_of (U : Valuation τ sig (Elt Ideal)) :
    (StableHlo.after hostOps1_4 (StableHlo.after hostOps1_3 U) (Proc.devRef .tc main_v18) : S4x8192x8.Idx → EReal)
      = pad S4x8192x8 ![0, 0, 0] ![0, 0, 5] ![0, 0, 0] (U (Proc.devRef .tc main_arg1) : S4x8192x3.Idx → EReal)
          (sitofp .f32 (U (Proc.devRef .tc main_c_0) : IVec S_ 32) : FVec Ideal S_ .f32)
          pads_S4x8192x3_S4x8192x8_000_000_050 h_S_ := by
  after_results
  rfl

theorem v19_of (U : Valuation τ sig (Elt Ideal)) :
    (StableHlo.after hostOps1_4 (StableHlo.after hostOps1_3 U) (Proc.devRef .tc main_v19) : S4x8192x8.Idx → EReal)
      = StableHlo.after hostOps1_4 (StableHlo.after hostOps1_3 U) (Proc.devRef .tc main_v18) := by
  after_results
  rfl

/-- The padded coordinates agree with the coordinates on the first three columns. -/
theorem V7_v18_apply (b : Fin 4) (j : Fin 8192) (a : Fin 3) :
    aQ (V7 m ρ) c (ix3 b j (a.castLE (by decide))) = mXyz m c (ix3 b j a) := by
  have e : (aQ (V7 m ρ) c : S4x8192x8.Idx → EReal) = _ := v18_of (W5 m ρ c)
  rw [e, W5_arg1]
  exact pad_apply_of_inside _ _ _ _ _ pads_S4x8192x3_S4x8192x8_000_000_050 h_S_ _ (ix3 b j a)
    (fun x => match x with
      | ⟨0, _⟩ => by simp
      | ⟨1, _⟩ => by simp
      | ⟨2, _⟩ => by simp)

/-- So does their narrowed copy: a change of float format is the identity on the extended reals. -/
theorem V7_v19_apply (b : Fin 4) (j : Fin 8192) (a : Fin 3) :
    aP (V7 m ρ) c (ix3 b j (a.castLE (by decide))) = mXyz m c (ix3 b j a) := by
  have e : (aP (V7 m ρ) c : S4x8192x8.Idx → EReal) = aQ (V7 m ρ) c := v19_of (W5 m ρ c)
  rw [e]
  exact V7_v18_apply m ρ c b j a

/-! ## The feature table -/

/-- The feature table is region 0's output array with its leading axis split. -/
theorem V7_v3_eq : (aH (V7 m ρ) c : S4x8192x128.Idx → EReal)
    = shapeCast S4x8192x128 (out0 (V1 m ρ) c) shapeCasts_S32768x128_S4x8192x128 := by
  have e : W7 m ρ c (Proc.devRef .tc main_v3) = W3 m ρ c (Proc.devRef .tc main_v3) :=
    calc W7 m ρ c (Proc.devRef .tc main_v3)
      _ = W6 m ρ c (Proc.devRef .tc main_v3) := by not_written hostOps1_4
      _ = W5 m ρ c (Proc.devRef .tc main_v3) := by not_written hostOps1_3
      _ = W4 m ρ c (Proc.devRef .tc main_v3) := by not_written hostOps1_2
      _ = W3 m ρ c (Proc.devRef .tc main_v3) := by not_written hostOps1_1
  show W7 m ρ c (Proc.devRef .tc main_v3) = _
  rw [e]
  show StableHlo.after hostOps1 (W2 m ρ c) (Proc.devRef .tc main_v3) = _
  after_results
  have h2 : W2 m ρ c (Proc.devRef .tc main_v2) = out0 (V1 m ρ) c := W2_arr m ρ c 2
  rw [h2]
  rfl

/-- The feature table region 1 reads is region 0's output array with its rows regrouped by batch. -/
theorem V7_v3_apply (b : Fin 4) (j : Fin 8192) (d : Fin 128) :
    aH (V7 m ρ) c (ix3 b j d) = out0 (V1 m ρ) c (ix2 ⟨b.val * 8192 + j.val, by omega⟩ d) := by
  rw [V7_v3_eq]
  exact shapeCast_apply _ shapeCasts_S32768x128_S4x8192x128 _ _
    (by rewrite [Shape.rowMajor_val_three, Shape.rowMajor_val_two]; rfl)

end Cert.KnnAgg

end
-- ==== Proof.Tail.lean ====
/-
  The two stretches of host arithmetic the kernel's program and the reference share, each as ONE function.

  `wmat` is the 4 × 32 matrix of encoding weights: the 96 coordinates read as 32 rows of 3 and transposed to 3 × 32,
  with the squared scales as a fourth row.  `bnTail` is the batch normalisation over the 32768 rows of the
  aggregate: per channel the mean, the biased variance, then `(a - mean) · rsqrt (var + ε) · weight + bias`.
  Both programs apply exactly these operations, so the certificate never opens them: it proves the aggregates equal
  and applies the same function to both.
-/
import proofs.«407124_j33105607917673_1_alg».proof.Proof.Gen.KernelIdeal
import Idealize.ShloMosaic.PureOps.Ideal

noncomputable section

namespace Cert.KnnAgg

open Idealize.ShloMosaic Cert.KernelIdeal Cert.KernelIdeal.Facts₀ Cert.KernelIdeal.Facts

/-- The encoding weights: rows 0–2 the transposed coordinates, row 3 the squared scales. -/
def wmat (coor : FVec Ideal S96 .f32) (scale : FVec Ideal S32 .f32) : FVec Ideal S4x32 .f32 :=
  concatenate S4x32 0
    [⟨S3x32, transpose S3x32 [1, 0] (shapeCast S32x3 coor shapeCasts_S96_S32x3) transposes_S32x3_S3x32_1_0⟩,
     ⟨S1x32, broadcastInDim S1x32 ![1] bcast_S32_S1x32_1 (mulf scale scale)⟩]
    concatenates_S3x32_S1x32_S4x32_d0

/-- Batch normalisation of the aggregate `a` over its 32768 rows, with weight `g` and bias `b`. -/
def bnTail (a : FVec Ideal S4x8192x128 .f32) (g b : FVec Ideal S128 .f32) : FVec Ideal S4x8192x128 .f32 :=
  let v21 : FVec Ideal S32768x128 .f32 := shapeCast S32768x128 a shapeCasts_S4x8192x128_S32768x128
  let v22 : FVec Ideal S128 .f32 := Host.reduceAdd v21 (constant (F := Ideal) S_ .f32 0x00000000#32) reducesTo_S32768x128_S128_d0 h_S_
  let v23 : FVec Ideal S128 .f32 := broadcastInDim S128 ![] bcast_S_S128 (constant (F := Ideal) S_ .f32 0x47000000#32)
  let v24 : FVec Ideal S128 .f32 := Host.divf v22 v23
  let v25 : FVec Ideal S1x128 .f32 := broadcastInDim S1x128 ![1] bcast_S128_S1x128_1 v24
  let v26 : FVec Ideal S32768x128 .f32 := broadcastInDim S32768x128 ![0, 1] bcast_S1x128_S32768x128_0_1 v25
  let v27 : FVec Ideal S32768x128 .f32 := subf v21 v26
  let v28 : FVec Ideal S32768x128 .f32 := mulf v27 v27
  let v29 : FVec Ideal S128 .f32 := Host.reduceAdd v28 (constant (F := Ideal) S_ .f32 0x00000000#32) reducesTo_S32768x128_S128_d0 h_S_
  let v30 : FVec Ideal S128 .f32 := broadcastInDim S128 ![] bcast_S_S128 (constant (F := Ideal) S_ .f32 0x47000000#32)
  let v31 : FVec Ideal S128 .f32 := Host.divf v29 v30
  let v32 : FVec Ideal S1x128 .f32 := broadcastInDim S1x128 ![1] bcast_S128_S1x128_1 v24
  let v33 : FVec Ideal S32768x128 .f32 := broadcastInDim S32768x128 ![0, 1] bcast_S1x128_S32768x128_0_1 v32
  let v34 : FVec Ideal S32768x128 .f32 := subf v21 v33
  let v35 : FVec Ideal S128 .f32 := broadcastInDim S128 ![] bcast_S_S128 (constant (F := Ideal) S_ .f32 0x3727C5AC#32)
  let v36 : FVec Ideal S128 .f32 := addf v31 v35
  let v37 : FVec Ideal S128 .f32 := Host.rsqrt v36
  let v38 : FVec Ideal S1x128 .f32 := broadcastInDim S1x128 ![1] bcast_S128_S1x128_1 v37
  let v39 : FVec Ideal S32768x128 .f32 := broadcastInDim S32768x128 ![0, 1] bcast_S1x128_S32768x128_0_1 v38
  let v40 : FVec Ideal S32768x128 .f32 := mulf v34 v39
  let v41 : FVec Ideal S1x128 .f32 := broadcastInDim S1x128 ![1] bcast_S128_S1x128_1 g
  let v42 : FVec Ideal S32768x128 .f32 := broadcastInDim S32768x128 ![0, 1] bcast_S1x128_S32768x128_0_1 v41
  let v43 : FVec Ideal S32768x128 .f32 := mulf v40 v42
  let v44 : FVec Ideal S1x128 .f32 := broadcastInDim S1x128 ![1] bcast_S128_S1x128_1 b
  let v45 : FVec Ideal S32768x128 .f32 := broadcastInDim S32768x128 ![0, 1] bcast_S1x128_S32768x128_0_1 v44
  let v46 : FVec Ideal S32768x128 .f32 := addf v43 v45
  shapeCast S4x8192x128 v46 shapeCasts_S32768x128_S4x8192x128

end Cert.KnnAgg

end
-- ==== Proof.KHostW.lean ====
/-
  Two stretches of host operations read as the shared functions: the encoding weights region 1 reads are wmat of the
  launched coordinates and scales, and the program's result is bnTail of region 1's output array with the launched weight
  and bias.  A buffer no operation of a stretch writes keeps its contents across the stretch.
-/
import proofs.«407124_j33105607917673_1_alg».proof.Proof.KArr
import proofs.«407124_j33105607917673_1_alg».proof.Proof.Tail
import Idealize.ShloMosaic.Lib.Pipeline.Value
import Idealize.ShloMosaic.Lib.StableHlo.Run

set_option maxRecDepth 16384

noncomputable section

namespace Cert.KnnAgg

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- A buffer that none of a stretch's operations writes holds after the stretch what it held before it. -/
local macro "keeps" : tactic =>
  `(tactic| (refine StableHlo.after_of_forall_not_mem _ _ (List.forall_iff_forall_mem.mp ?_)
             simp only [hostOps0, hostOps1, hostOps1_1, hostOps1_2, hostOps1_3, hostOps1_4, hostOps2,
               List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-! ## The encoding weights -/

/-- The stretch that builds the weights, from ANY contents `Z`: the weight buffer ends as `wmat` of what `Z` holds
    at the coordinates' and the scales' buffers. -/
theorem hostOps1_v8 (Z : Valuation τ sig (Elt Ideal)) :
    StableHlo.after hostOps1 Z (Proc.devRef .tc main_v8)
      = wmat (Z (Proc.devRef .tc main_arg4)) (Z (Proc.devRef .tc main_arg5)) := by
  after_results
  rfl

/-- The weight buffer is written by no later stretch before region 1. -/
theorem W7_v8 : W7 m ρ c (Proc.devRef .tc main_v8) = W3 m ρ c (Proc.devRef .tc main_v8) :=
  calc W7 m ρ c (Proc.devRef .tc main_v8)
    _ = W6 m ρ c (Proc.devRef .tc main_v8) := by keeps
    _ = W5 m ρ c (Proc.devRef .tc main_v8) := by keeps
    _ = W4 m ρ c (Proc.devRef .tc main_v8) := by keeps
    _ = W3 m ρ c (Proc.devRef .tc main_v8) := by keeps

/-- At region 0's exit the coordinates' and the scales' buffers hold the launched arguments. -/
theorem W2_arg4 : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := by keeps
    _ = m ((c : Thread nD τ).loc main_arg4) := rfl
theorem W2_arg5 : W2 m ρ c (Proc.devRef .tc main_arg5) = m ((c : Thread nD τ).loc main_arg5) :=
  calc W2 m ρ c (Proc.devRef .tc main_arg5)
    _ = W1 m ρ c (Proc.devRef .tc main_arg5) := W2_of_ne m ρ c main_arg5 (by decide)
    _ = W0 m ρ c (Proc.devRef .tc main_arg5) := by keeps
    _ = m ((c : Thread nD τ).loc main_arg5) := rfl

/-- The encoding weights region 1 reads are `wmat` of the launched coordinates and scales. -/
theorem V7_v8 : aW (V7 m ρ) c = wmat (mCoor m c) (mScale m c) := by
  show W7 m ρ c (Proc.devRef .tc main_v8) = wmat (mCoor m c) (mScale m c)
  refine (W7_v8 m ρ c).trans ?_
  refine (hostOps1_v8 (W2 m ρ c)).trans ?_
  have e4 : (W2 m ρ c (Proc.devRef .tc main_arg4) : FVec Ideal S96 .f32) = mCoor m c := W2_arg4 m ρ c
  have e5 : (W2 m ρ c (Proc.devRef .tc main_arg5) : FVec Ideal S32 .f32) = mScale m c := W2_arg5 m ρ c
  rw [e4, e5]

/-! ## The normalisation after region 1 -/

/-- The last stretch, from ANY contents `Z`: the result buffer ends as `bnTail` of what `Z` holds at region 1's
    output array and at the weight's and the bias's buffers. -/
theorem hostOps2_v47 (Z : Valuation τ sig (Elt Ideal)) :
    StableHlo.after hostOps2 Z (Proc.devRef .tc main_v47)
      = bnTail (Z (Proc.devRef .tc main_v20)) (Z (Proc.devRef .tc main_arg6)) (Z (Proc.devRef .tc main_arg7)) := by
  after_results_simp
  rfl

/-- At region 1's exit the weight's and the bias's buffers hold the launched arguments: no stretch and no region
    writes them. -/
theorem W8_arg6 : W8 m ρ c (Proc.devRef .tc main_arg6) = m ((c : Thread nD τ).loc main_arg6) :=
  calc W8 m ρ c (Proc.devRef .tc main_arg6)
    _ = W7 m ρ c (Proc.devRef .tc main_arg6) := W8_of_ne m ρ c main_arg6 (by decide)
    _ = W6 m ρ c (Proc.devRef .tc main_arg6) := by keeps
    _ = W5 m ρ c (Proc.devRef .tc main_arg6) := by keeps
    _ = W4 m ρ c (Proc.devRef .tc main_arg6) := by keeps
    _ = W3 m ρ c (Proc.devRef .tc main_arg6) := by keeps
    _ = W2 m ρ c (Proc.devRef .tc main_arg6) := by keeps
    _ = W1 m ρ c (Proc.devRef .tc main_arg6) := W2_of_ne m ρ c main_arg6 (by decide)
    _ = W0 m ρ c (Proc.devRef .tc main_arg6) := by keeps
    _ = m ((c : Thread nD τ).loc main_arg6) := rfl
theorem W8_arg7 : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by keeps
    _ = W5 m ρ c (Proc.devRef .tc main_arg7) := by keeps
    _ = W4 m ρ c (Proc.devRef .tc main_arg7) := by keeps
    _ = W3 m ρ c (Proc.devRef .tc main_arg7) := by keeps
    _ = W2 m ρ c (Proc.devRef .tc main_arg7) := by keeps
    _ = W1 m ρ c (Proc.devRef .tc main_arg7) := W2_of_ne m ρ c main_arg7 (by decide)
    _ = W0 m ρ c (Proc.devRef .tc main_arg7) := by keeps
    _ = m ((c : Thread nD τ).loc main_arg7) := rfl

/-- The program's result is the shared normalisation of region 1's output array, with the launched weight and bias. -/
theorem W9_v47 :
    W9 m ρ c (Proc.devRef .tc main_v47) = bnTail (out1 (V7 m ρ) c) (mGamma m c) (mBeta m c) := by
  show StableHlo.after hostOps2 (W8 m ρ c) (Proc.devRef .tc main_v47) = bnTail (out1 (V7 m ρ) c) (mGamma m c) (mBeta m c)
  refine (hostOps2_v47 (W8 m ρ c)).trans ?_
  have e20 : (W8 m ρ c (Proc.devRef .tc main_v20) : FVec Ideal S4x8192x128 .f32) = out1 (V7 m ρ) c := W8_arr m ρ c 6
  have e6 : (W8 m ρ c (Proc.devRef .tc main_arg6) : FVec Ideal S128 .f32) = mGamma m c := W8_arg6 m ρ c
  have e7 : (W8 m ρ c (Proc.devRef .tc main_arg7) : FVec Ideal S128 .f32) = mBeta m c := W8_arg7 m ρ c
  rw [e20, e6, e7]

end Cert.KnnAgg

end
-- ==== Proof.KExpand.lean ====
/-
  The expansion matrix: entry (g, d) compares the floor quotient of d by 4 with g and converts the bit to a float, so it
  is 1 where channel d belongs to group g and 0 elsewhere.  The floor quotient is computed by the sign-corrected integer
  division jnp lowers to; on 0 … 127 it is the natural-number quotient.
-/
import proofs.«407124_j33105607917673_1_alg».proof.Proof.KArr
import Idealize.ShloMosaic.Lib.Pipeline.Value
import Idealize.ShloMosaic.Lib.StableHlo.Run

set_option maxRecDepth 16384

noncomputable section

namespace Cert.KnnAgg

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg) (c : Dev nD)

namespace Expand

/-! ## The floor division of a channel number by four, on one word -/

/-- The sign of a word: zero, minus one or one. -/
def sgnw (x : BitVec 32) : BitVec 32 := if x = 0 then 0 else if x.msb then -1 else 1

/-- Floor division by the word `k` as the program spells it: the truncated quotient, less one when the signs of
    dividend and divisor differ and the remainder is not zero. -/
def fdw (k x : BitVec 32) : BitVec 32 :=
  Scalar.select
    (IntOp.andi (IntOp.cmpi .ne (sgnw x) (sgnw k)) (IntOp.cmpi .ne (IntOp.remsi .host x k) 0#32))
    (IntOp.subi (IntOp.divsi .host x k) 1#32)
    (IntOp.divsi .host x k)

/-- On the 128 channel numbers the floor division by four is the quotient of natural numbers. -/
theorem fdw_four : ∀ d : Fin 128, fdw 4#32 (BitVec.ofNat 32 d.val) = BitVec.ofNat 32 (d.val / 4) := by
  decide +kernel

/-! ## The two stretches of host operations, over any contents before them -/

/-- After the stretch that makes the channel numbers and the constant four, and the floor division's own stretch, the
    quotient's buffer holds at each channel the floor division of its number by four. -/
theorem v10_of (U : Valuation τ sig (Elt Ideal)) :
    (StableHlo.after hostOps1_1 (StableHlo.after hostOps1 U) (Proc.devRef .tc main_v10) : IVec S128 32)
      = fun i => fdw 4#32 (BitVec.ofNat 32 (i 0).val) := by
  after_results_simp <;> (try simp only [StableHlo.TRef.ofBuf, StableHlo.TRef.toBuf, cast_eq]) <;> rfl

/-- After the stretch that compares, the expansion matrix's buffer holds the comparison of the quotient, laid along
    the columns, with the group number, laid along the rows, read as a number. -/
theorem v17_of (U : Valuation τ sig (Elt Ideal)) :
    (StableHlo.after hostOps1_2 U (Proc.devRef .tc main_v17) : S32x128.Idx → EReal)
      = uitofp (F := Ideal) .f32 (cmpi .eq
          (broadcastInDim S32x128 ![0, 1] bcast_S1x128_S32x128_0_1
            (broadcastInDim S1x128 ![1] bcast_S128_S1x128_1 (U (Proc.devRef .tc main_v10) : IVec S128 32)))
          (broadcastInDim S32x128 ![0, 1] bcast_S32x1_S32x128_0_1
            (broadcastInDim S32x1 ![0] bcast_S32_S32x1_0 (iotaInDim S32 32 0)))) := by
  after_results

/-- The comparison read at one entry: the word at the column against the row's number. -/
theorem expand_apply (q : IVec S128 32) (g : Fin 32) (d : Fin 128) :
    uitofp (F := Ideal) .f32 (cmpi .eq
        (broadcastInDim S32x128 ![0, 1] bcast_S1x128_S32x128_0_1 (broadcastInDim S1x128 ![1] bcast_S128_S1x128_1 q))
        (broadcastInDim S32x128 ![0, 1] bcast_S32x1_S32x128_0_1
          (broadcastInDim S32x1 ![0] bcast_S32_S32x1_0 (iotaInDim S32 32 0)))) (ix2 g d)
      = (((IntOp.cmpi .eq (q (ix1 d)) (BitVec.ofNat 32 g.val)).toNat : ℝ) : EReal) := by
  have e1 : broadcastInDim S32x128 ![0, 1] bcast_S1x128_S32x128_0_1
      (broadcastInDim S1x128 ![1] bcast_S128_S1x128_1 q) (ix2 g d) = q (ix1 d) :=
    (broadcastInDim_apply _ bcast_S1x128_S32x128_0_1 _ (ix2 g d) (ix2 (0 : Fin 1) d)
      (fun a => match a with | ⟨0, _⟩ => rfl | ⟨1, _⟩ => rfl)).trans
    (broadcastInDim_apply _ bcast_S128_S1x128_1 q (ix2 (0 : Fin 1) d) (ix1 d)
      (fun a => match a with | ⟨0, _⟩ => rfl))
  have e2 : broadcastInDim S32x128 ![0, 1] bcast_S32x1_S32x128_0_1
      (broadcastInDim S32x1 ![0] bcast_S32_S32x1_0 (iotaInDim S32 32 0)) (ix2 g d) = BitVec.ofNat 32 g.val :=
    (broadcastInDim_apply _ bcast_S32x1_S32x128_0_1 _ (ix2 g d) (ix2 g (0 : Fin 1))
      (fun a => match a with | ⟨0, _⟩ => rfl | ⟨1, _⟩ => rfl)).trans
    (broadcastInDim_apply _ bcast_S32_S32x1_0 (iotaInDim S32 32 0) (ix2 g (0 : Fin 1)) (ix1 g)
      (fun a => match a with | ⟨0, _⟩ => rfl))
  show (((IntOp.cmpi .eq _ _).toNat : ℝ) : EReal) = _
  rw [e1, e2]

/-- The bit of an equality of two words below 2³², as a number: one when the numbers agree, zero otherwise. -/
theorem cmpi_eq_ofNat (a b : Nat) (ha : a < 2 ^ 32) (hb : b < 2 ^ 32) :
    (((IntOp.cmpi .eq (BitVec.ofNat 32 a) (BitVec.ofNat 32 b)).toNat : ℝ) : EReal) = if a = b then 1 else 0 := by
  by_cases h : a = b
  · subst h
    rw [if_pos rfl]
    have : IntOp.cmpi .eq (BitVec.ofNat 32 a) (BitVec.ofNat 32 a) = 1#1 := by simp [IntOp.cmpi]
    rw [this]; simp
  · rw [if_neg h]
    have hne : BitVec.ofNat 32 a ≠ BitVec.ofNat 32 b := by
      intro e
      have := congrArg BitVec.toNat e
      simp only [BitVec.toNat_ofNat] at this
      rw [Nat.mod_eq_of_lt ha, Nat.mod_eq_of_lt hb] at this
      exact h this
    have : IntOp.cmpi .eq (BitVec.ofNat 32 a) (BitVec.ofNat 32 b) = 0#1 := by
      show BitVec.ofBool (BitVec.ofNat 32 a == BitVec.ofNat 32 b) = 0#1
      rw [beq_eq_false_iff_ne.mpr hne]; rfl
    rw [this]; simp

/-! ## The buffer region 1 reads -/

/-- A buffer that none of a stretch's operations writes holds after the stretch what it held before it. -/
local macro "keeps" : tactic =>
  `(tactic| (refine StableHlo.after_of_forall_not_mem _ _ (List.forall_iff_forall_mem.mp ?_)
             simp only [hostOps1_3, hostOps1_4,
               List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

/-- The two last stretches before region 1 do not write the expansion matrix. -/
theorem W7_v17 : W7 m ρ c (Proc.devRef .tc main_v17) = W5 m ρ c (Proc.devRef .tc main_v17) :=
  calc W7 m ρ c (Proc.devRef .tc main_v17)
    _ = W6 m ρ c (Proc.devRef .tc main_v17) := by keeps
    _ = W5 m ρ c (Proc.devRef .tc main_v17) := by keeps

end Expand

/-- The expansion matrix is the indicator of "channel `d` belongs to group `g`": `d / 4 = g`. -/
theorem V7_v17_apply (g : Fin 32) (d : Fin 128) :
    aE (V7 m ρ) c (ix2 g d) = if d.val / 4 = g.val then (1 : EReal) else 0 := by
  have e : (aE (V7 m ρ) c : S32x128.Idx → EReal) = _ := (Expand.W7_v17 m ρ c).trans (Expand.v17_of (W4 m ρ c))
  have e10 : (W4 m ρ c (Proc.devRef .tc main_v10) : IVec S128 32) = _ := Expand.v10_of (W2 m ρ c)
  rw [e, e10, Expand.expand_apply]
  show (((IntOp.cmpi .eq (Expand.fdw 4#32 (BitVec.ofNat 32 d.val)) (BitVec.ofNat 32 g.val)).toNat : ℝ) : EReal) = _
  rw [Expand.fdw_four d]
  exact Expand.cmpi_eq_ofNat _ _ (by omega) (by omega)

end Cert.KnnAgg

end
-- ==== Proof.KValue.lean ====
/-
  The kernel program's result as the shared normalisation of the spec's aggregate: region 1's output array, read through
  what the host operations and region 0 leave in its input arrays.
-/
import proofs.«407124_j33105607917673_1_alg».proof.Proof.KRun
import proofs.«407124_j33105607917673_1_alg».proof.Proof.KReg0
import proofs.«407124_j33105607917673_1_alg».proof.Proof.KReg1
import proofs.«407124_j33105607917673_1_alg».proof.Proof.KHostIn
import proofs.«407124_j33105607917673_1_alg».proof.Proof.KHostW
import proofs.«407124_j33105607917673_1_alg».proof.Proof.KExpand
import proofs.«407124_j33105607917673_1_alg».proof.Proof.Spec
import proofs.«407124_j33105607917673_1_alg».proof.Proof.Tail

set_option maxRecDepth 16384

noncomputable section

namespace Cert.KnnAgg

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- Region 1's output array is the spec's aggregate of the launched arguments: each of `rowAgg`'s accessors, read off the
    region's input arrays, is the spec's — the neighbour words as launched, the coordinates through the padding (and its
    narrowed copy), the feature table through region 0's output (row `b·8192 + j` of the projection: the row of `x`
    against the row of the weight, its transpose's column), the weights `wmat`. -/
theorem kernel_agg (hk : ∀ i : S4x8192x16.Idx, 0 ≤ (mKnn m c i).toInt ∧ (mKnn m c i).toInt < 8192) :
    out1 (V7 m ρ) c = agg (mX m c) (mW m c) (mXyz m c) (mKnn m c) (wmat (mCoor m c) (mScale m c)) := by
  funext i
  obtain ⟨b, n, d, rfl⟩ : ∃ (b : Fin 4) (n : Fin 8192) (d : Fin 128), i = ix3 b n d := ⟨i 0, i 1, i 2, eq_ix3 i⟩
  rw [arrAt1_apply (V7 m ρ) c (by rw [V7_arg2]; exact hk) (V7_v17_apply m ρ c) b n d]
  have hnv : (fun k : Fin 16 => aKnn (V7 m ρ) c (ix3 b n k)) = fun k => mKnn m c (ix3 b n k) := by rw [V7_arg2]
  have hq : (fun a : Fin 3 => aQ (V7 m ρ) c (ix3 b n (a.castLE (by decide)))) = fun a => mXyz m c (ix3 b n a) :=
    funext fun a => V7_v18_apply m ρ c b n a
  have hH : (fun j : Fin 8192 => aH (V7 m ρ) c (ix3 b j d)) = fun j => hproj (mX m c) (mW m c) b j d :=
    funext fun j => by
      rw [V7_v3_apply, arrAt0_apply]
      unfold hproj
      exact Finset.sum_congr rfl fun k _ => by rw [V1_v1_apply, V1_v0_apply]
  have hP : (fun (j : Fin 8192) (a : Fin 3) => aP (V7 m ρ) c (ix3 b j (a.castLE (by decide))))
      = fun j a => mXyz m c (ix3 b j a) :=
    funext fun j => funext fun a => V7_v19_apply m ρ c b j a
  have hW : (fun f : Fin 4 => aW (V7 m ρ) c (ix2 f (grp d)))
      = fun f => wmat (mCoor m c) (mScale m c) (ix2 f (grp d)) := by rw [V7_v8]
  rw [hnv, hq, hH, hP, hW]
  rfl

/-- The kernel program's result: the shared normalisation of the spec's aggregate. -/
theorem kernel_value (hk : ∀ i : S4x8192x16.Idx, 0 ≤ (mKnn m c i).toInt ∧ (mKnn m c i).toInt < 8192) :
    W9 m ρ c (Proc.devRef .tc main_v47)
      = bnTail (agg (mX m c) (mW m c) (mXyz m c) (mKnn m c) (wmat (mCoor m c) (mScale m c))) (mGamma m c) (mBeta m c) := by
  rw [W9_v47, kernel_agg m ρ c hk]

end Cert.KnnAgg

end
-- ==== Proof.PreRange.lean ====
/-
  The index range, decoded from the precondition: its last conjunct is the conjunction over all neighbour words of
  "0 ≤ word" and "word < 8192", both signed comparisons.
-/
import proofs.«407124_j33105607917673_1_alg».proof.Proof.KArr
import proofs.«407124_j33105607917673_1_alg».proof.Proof.Gen.Pre_finite_inputs
import proofs.«407124_j33105607917673_1_alg».proof.Defs
import Idealize.ShloMosaic.Lib.ReduceAll
import Idealize.ShloMosaic.Lib.StableHlo.Predicate

set_option maxRecDepth 16384

noncomputable section

namespace Cert.KnnAgg

open Idealize.ShloMosaic Idealize.ShloMosaic.ValueIdx Idealize.ShloMosaic.TcCoe Idealize.SL.Sem
open Cert.KernelIdeal Cert.KernelIdeal.Gen

/-- The closing stretch of the printed predicate, read at one element.  Its result is the conjunction of the earlier
    conjuncts with the `and`-reduction, over all three axes, of `0 ≤ w ∧ w < 8192` taken word by word with signed
    comparisons.  If the result is one, the reduction is one, so every word passed both comparisons; a signed
    comparison that came out one is the order of the two words read as signed integers, and the two bounds are the
    integers `0` and `8192`. -/
private theorem part2_range [Cert.Pre_finite_inputs.Facts] (kn : IVec Cert.Pre_finite_inputs.S4x8192x16 32)
    (v33 : IVec Cert.Pre_finite_inputs.S_ 1)
    (h : Cert.Pre_finite_inputs.fn_part2 (F := Ideal) kn v33 = fun _ => 1#1)
    (i : Cert.Pre_finite_inputs.S4x8192x16.Idx) :
    0 ≤ (kn i).toInt ∧ (kn i).toInt < 8192 := by
  -- a shape of rank zero has exactly one index
  haveI : Subsingleton Cert.Pre_finite_inputs.S_.Idx := ⟨fun a b => funext fun d => d.elim0⟩
  have j : Cert.Pre_finite_inputs.S_.Idx := fun d => d.elim0
  have h0 := congrFun h j
  unfold Cert.Pre_finite_inputs.fn_part2 at h0
  dsimp only at h0
  -- the result is the earlier conjuncts `and` the reduction: keep the reduction
  have h1 := (IntOp.andi_eq_one.1 h0).2
  -- a reduction by `and` into the one index that is one met a one at every element
  have h2 := Host.reduce_andi_all _ _ _ _ j h1 i
  -- the element is the `and` of the two comparisons
  obtain ⟨ha, hb⟩ := IntOp.andi_eq_one.1 h2
  have ha' : (0#32 : BitVec 32).toInt ≤ (kn i).toInt := IntOp.cmpi_sge.1 ha
  have hb' : (kn i).toInt < (8192#32 : BitVec 32).toInt := IntOp.cmpi_slt.1 hb
  have e0 : (0#32 : BitVec 32).toInt = 0 := by decide
  have e1 : (8192#32 : BitVec 32).toInt = 8192 := by decide
  rw [e0] at ha'
  rw [e1] at hb'
  exact ⟨ha', hb'⟩

/-- The precondition's last conjunct, decoded: every neighbour word, read as a signed integer, lies in `[0, 8192)`. -/
theorem knn_range (m : (ℓ : Loc nD τ sig) → Buf (Elt Ideal) ℓ) (h : Cert.Pre_KernelIdeal m) (c : Dev nD) (i : S4x8192x16.Idx) :
    0 ≤ (mKnn m c i).toInt ∧ (mKnn m c i).toInt < 8192 := by
  exact part2_range (mKnn m c) _ (h c) i

end Cert.KnnAgg

end
-- ==== Proof.RefValue.lean ====
/-
  The reference read against the spec.  Its aggregate is a maximum over the slot axis of "gathered feature row, regrouped
  as 32 groups of 4, plus the group's encoding broadcast over the 4"; the gathers read the operand at the row their start
  index names (batch, neighbour word wrapped and clamped: nbr), the encoding is the four features against the weights,
  and the regrouping sends (g, j) to channel 4·g + j.  Before and after it the reference applies wmat and bnTail.
-/
import proofs.«407124_j33105607917673_1_alg».proof.Proof.Gen.ReferenceIdeal.Run
import proofs.«407124_j33105607917673_1_alg».proof.Proof.Gen.ReferenceIdeal.Read
import proofs.«407124_j33105607917673_1_alg».proof.Proof.Spec
import proofs.«407124_j33105607917673_1_alg».proof.Proof.Tail

set_option maxRecDepth 16384

noncomputable section

namespace Cert.KnnAgg.Ref

open Idealize.ShloMosaic Idealize.ShloMosaic.ValueIdx Idealize.ShloMosaic.TcCoe Idealize.SL.Sem
open Cert.ReferenceIdeal Cert.ReferenceIdeal.Read Cert.KnnAgg

variable (x0 : FVec Ideal S4x8192x128 .f32) (x1 : FVec Ideal S4x8192x3 .f32) (x2 : IVec S4x8192x16 32)
  (x3 : FVec Ideal S128x128 .f32) (x4 : FVec Ideal S96 .f32) (x5 : FVec Ideal S32 .f32) (x6 x7 : FVec Ideal S128 .f32)

/-- The reference's encoding weights are `wmat`. -/
theorem ref_wmat : val_main_v5 (F := Ideal) x4 x5 = wmat x4 x5 := by
  -- the same four operations on the same two arguments; the side conditions are propositions
  rfl

/-! ## The aggregate

    The reference gathers, for each query `(b, n)` and slot `k`, the neighbour's row of the projected features and
    its row of coordinates, forms the pair's four features against the group's weights, adds, and takes the maximum
    over the slots.  The lemmas below read that chain at explicit coordinates, one operation at a time. -/

namespace Slot

section Gather
variable {α : Type}

/-- A gather of rows: the operand `[4, 8192, C]`, the start indices `[4, 8192, 16, 2]` with the index vector last,
    both leading operand axes collapsed and named by the start index, the trailing axis whole. The result at
    `(b, n, k, c)` is the operand at the two start components, each read signed and clamped into its axis, and `c`. -/
theorem gather_rows_apply {C w : Nat}
    (d : GatherDims ⟨3, ![4, 8192, C]⟩ ⟨4, ![4, 8192, 16, 2]⟩ ⟨4, ![4, 8192, 16, C]⟩)
    (hoff : d.offsetDims = [3]) (hcoll : d.collapsedSliceDims = [0, 1]) (hob : d.operandBatchingDims = [])
    (hsb : d.startIndicesBatchingDims = [])
    (hmap : d.startIndexMap = [0, 1]) (hiv : d.indexVectorDim = 3) (hss : d.sliceSizes = ![1, 1, C])
    (x : (⟨3, ![4, 8192, C]⟩ : Shape).Idx → α) (idx : IVec ⟨4, ![4, 8192, 16, 2]⟩ w)
    (b : Fin 4) (n : Fin 8192) (k : Fin 16) (c : Fin C) :
    Host.gather d x idx (ix4 b n k c)
      = x (ix3 (⟨min (idx (ix4 b n k 0)).toInt.toNat 3, by omega⟩ : Fin 4)
            (⟨min (idx (ix4 b n k 1)).toInt.toNat 8191, by omega⟩ : Fin 8192) c) := by
  obtain ⟨od, cd, ob, sb, sm, iv, ss, wf⟩ := d
  simp only at hoff hcoll hob hsb hmap hiv hss
  subst hoff hcoll hob hsb hmap hiv hss
  unfold Host.gather
  congr 1
  funext a
  refine Fin.ext ?_
  have m0 : (0 : Fin 3) ∈ ([0, 1] : List (Fin 3)) := by decide
  have m1 : (1 : Fin 3) ∈ ([0, 1] : List (Fin 3)) := by decide
  have m2 : (2 : Fin 3) ∉ ([0, 1] : List (Fin 3)) := by decide
  match a with
  | ⟨0, _⟩ =>
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 m0)]
    simp only [Nat.add_zero]
    unfold GatherDims.start
    rw [dif_pos m0]
    have hsi : GatherDims.siIdx (s := ⟨3, ![4, 8192, C]⟩) (si := ⟨4, ![4, 8192, 16, 2]⟩) (t := ⟨4, ![4, 8192, 16, C]⟩)
        { offsetDims := [3], collapsedSliceDims := [0, 1], operandBatchingDims := [], startIndicesBatchingDims := [],
          startIndexMap := [0, 1], indexVectorDim := 3, sliceSizes := ![1, 1, C], wf := wf } (ix4 b n k c)
        ⟨List.idxOf (0 : Fin 3) [0, 1], List.idxOf_lt_length_iff.2 m0⟩ = ix4 b n k 0 := by
      funext e; refine Fin.ext ?_
      match e with
      | ⟨0, _⟩ => rfl
      | ⟨1, _⟩ => rfl
      | ⟨2, _⟩ => rfl
      | ⟨3, _⟩ => rfl
    rw [hsi]
    rfl
  | ⟨1, _⟩ =>
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 m1)]
    simp only [Nat.add_zero]
    unfold GatherDims.start
    rw [dif_pos m1]
    have hsi : GatherDims.siIdx (s := ⟨3, ![4, 8192, C]⟩) (si := ⟨4, ![4, 8192, 16, 2]⟩) (t := ⟨4, ![4, 8192, 16, C]⟩)
        { offsetDims := [3], collapsedSliceDims := [0, 1], operandBatchingDims := [], startIndicesBatchingDims := [],
          startIndexMap := [0, 1], indexVectorDim := 3, sliceSizes := ![1, 1, C], wf := wf } (ix4 b n k c)
        ⟨List.idxOf (1 : Fin 3) [0, 1], List.idxOf_lt_length_iff.2 m1⟩ = ix4 b n k 1 := by
      funext e; refine Fin.ext ?_
      match e with
      | ⟨0, _⟩ => rfl
      | ⟨1, _⟩ => rfl
      | ⟨2, _⟩ => rfl
      | ⟨3, _⟩ => rfl
    rw [hsi]
    rfl
  | ⟨2, _⟩ =>
    show GatherDims.start _ _ idx 2 + GatherDims.batchCoord _ _ 2 + GatherDims.offCoord _ _ 2 = _
    rw [GatherDims.batchCoord_eq_zero _ _ _ List.not_mem_nil]
    unfold GatherDims.start
    rw [dif_neg m2]
    simp only [Nat.add_zero, Nat.zero_add]
    unfold GatherDims.offCoord
    rw [dif_pos ((GatherDims.mem_sKept _ _).mpr ⟨m2, List.not_mem_nil⟩)]
    rfl

end Gather

/-! ### The start indices of the two gathers -/

/-- The wrap of a neighbour word: the extent is added when the word is negative. -/
theorem wrap_word (v : BitVec 32) :
    Scalar.select (IntOp.cmpi .slt v 0#32) (IntOp.addi v 8192#32) v = if v.toInt < 0 then v + 8192#32 else v := by
  unfold Scalar.select IntOp.cmpi IntOp.addi
  by_cases h : v.toInt < 0
  · have hs : v.slt 0#32 = true := by simp [BitVec.slt, h]
    rw [if_pos h, hs]; rfl
  · have hs : v.slt 0#32 = false := by simp [BitVec.slt, h]
    rw [if_neg h, hs]; rfl

/-- The wrap of a batch number is the number: it is not negative. -/
theorem wrap_batch : ∀ b : Fin 4,
    Scalar.select (IntOp.cmpi .slt (BitVec.ofNat 32 b.val) 0#32) (IntOp.addi (BitVec.ofNat 32 b.val) 4#32)
      (BitVec.ofNat 32 b.val) = BitVec.ofNat 32 b.val := by decide

/-- A batch number read signed and clamped into the batch axis is itself. -/
theorem batch_clamp : ∀ b : Fin 4, min (BitVec.ofNat 32 b.val).toInt.toNat 3 = b.val := by decide

/-- The first component of the feature gather's start index is the batch number. -/
theorem v44_zero (b : Fin 4) (n : Fin 8192) (k : Fin 16) :
    val_main_v44 (F := Ideal) x2 (ix4 b n k 0) = BitVec.ofNat 32 b.val := by
  unfold val_main_v44
  rw [concatenate_pair_apply_left (t := S4x8192x16x2) (s₁ := S4x8192x16x1) (s₂ := S4x8192x16x1) (3 : Fin 4) _ _ _ (ix4 b n k (0 : Fin 2)) rfl (ix4 b n k (0 : Fin 1))
    (fun e => match e with | ⟨0, _⟩ => rfl | ⟨1, _⟩ => rfl | ⟨2, _⟩ => rfl | ⟨3, _⟩ => rfl)]
  rw [val_main_v42_apply, val_main_v41_apply, val_main_v35_apply, val_main_v32_apply, val_main_v34_apply,
    val_main_v7_apply, val_main_v6_apply, val_main_v31_apply, val_main_v33_apply, val_main_c_3_apply,
    val_main_c_4_apply]
  exact wrap_batch b

/-- Its second component is the wrapped neighbour word. -/
theorem v44_one (b : Fin 4) (n : Fin 8192) (k : Fin 16) :
    val_main_v44 (F := Ideal) x2 (ix4 b n k 1)
      = if (x2 (ix3 b n k)).toInt < 0 then x2 (ix3 b n k) + 8192#32 else x2 (ix3 b n k) := by
  unfold val_main_v44
  rw [concatenate_pair_apply_right (t := S4x8192x16x2) (s₁ := S4x8192x16x1) (s₂ := S4x8192x16x1) (3 : Fin 4) _ _ _ (ix4 b n k (1 : Fin 2)) rfl rfl (ix4 b n k (0 : Fin 1))
    (fun e he => match e, he with
      | ⟨0, _⟩, _ => rfl | ⟨1, _⟩, _ => rfl | ⟨2, _⟩, _ => rfl | ⟨3, _⟩, he => absurd rfl he) rfl]
  rw [val_main_v43_apply, val_main_v40_apply, val_main_v37_apply, val_main_v39_apply, val_main_v36_apply,
    val_main_v38_apply, val_main_c_5_apply, val_main_c_6_apply]
  have e : idx_main_v43 (ix4 b n k (0 : Fin 1)) = ix3 b n k := by
    funext a; match a with | ⟨0, _⟩ => rfl | ⟨1, _⟩ => rfl | ⟨2, _⟩ => rfl
  rw [e]
  exact wrap_word _

/-- The coordinate gather's start index has the same two components. -/
theorem v21_zero (b : Fin 4) (n : Fin 8192) (k : Fin 16) :
    val_main_v21 (F := Ideal) x2 (ix4 b n k 0) = BitVec.ofNat 32 b.val := by
  unfold val_main_v21
  rw [concatenate_pair_apply_left (t := S4x8192x16x2) (s₁ := S4x8192x16x1) (s₂ := S4x8192x16x1) (3 : Fin 4) _ _ _ (ix4 b n k (0 : Fin 2)) rfl (ix4 b n k (0 : Fin 1))
    (fun e => match e with | ⟨0, _⟩ => rfl | ⟨1, _⟩ => rfl | ⟨2, _⟩ => rfl | ⟨3, _⟩ => rfl)]
  rw [val_main_v19_apply, val_main_v18_apply, val_main_v12_apply, val_main_v9_apply, val_main_v11_apply,
    val_main_v7_apply, val_main_v6_apply, val_main_v8_apply, val_main_v10_apply, val_main_c_apply,
    val_main_c_0_apply]
  exact wrap_batch b

theorem v21_one (b : Fin 4) (n : Fin 8192) (k : Fin 16) :
    val_main_v21 (F := Ideal) x2 (ix4 b n k 1)
      = if (x2 (ix3 b n k)).toInt < 0 then x2 (ix3 b n k) + 8192#32 else x2 (ix3 b n k) := by
  unfold val_main_v21
  rw [concatenate_pair_apply_right (t := S4x8192x16x2) (s₁ := S4x8192x16x1) (s₂ := S4x8192x16x1) (3 : Fin 4) _ _ _ (ix4 b n k (1 : Fin 2)) rfl rfl (ix4 b n k (0 : Fin 1))
    (fun e he => match e, he with
      | ⟨0, _⟩, _ => rfl | ⟨1, _⟩, _ => rfl | ⟨2, _⟩, _ => rfl | ⟨3, _⟩, he => absurd rfl he) rfl]
  rw [val_main_v20_apply, val_main_v17_apply, val_main_v14_apply, val_main_v16_apply, val_main_v13_apply,
    val_main_v15_apply, val_main_c_1_apply, val_main_c_2_apply]
  have e : idx_main_v20 (ix4 b n k (0 : Fin 1)) = ix3 b n k := by
    funext a; match a with | ⟨0, _⟩ => rfl | ⟨1, _⟩ => rfl | ⟨2, _⟩ => rfl
  rw [e]
  exact wrap_word _

/-! ### The maximum over the sixteen slots -/

/-- The aggregate before its last reshape, at `(b, n, g, j)`: the maximum, from `-∞`, over the slot axis. -/
theorem v50_apply (b : Fin 4) (n : Fin 8192) (g : Fin 32) (jj : Fin 4) :
    val_main_v50 (F := Ideal) x0 x1 x2 x3 x4 x5 (ix4 b n g jj)
      = (Finset.univ : Finset (Fin 16)).fold max (⊥ : EReal)
          fun k => val_main_v49 (F := Ideal) x0 x1 x2 x3 x4 x5 (ix5 b n k g jj) := by
  unfold val_main_v50
  have H : S4x8192x16x32x4.Reduces [2] S4x8192x32x4 := by decide
  rw [Host.reduce_eq_fold_single FloatOps.maximumf _ _ _ H _ (ix4 b n g jj)]
  have hbot : (val_main_cst_7 (F := Ideal)) (Shape.Idx.first Gen.h_S_) = (⊥ : EReal) := by
    show Ideal.ofBits .f32 0xFF800000#32 = ⊥
    simp [Ideal.ofBits, Ideal.ieee]
  have hf : (val_main_v49 (F := Ideal) x0 x1 x2 x3 x4 x5 ∘ H.lift (ix4 b n g jj))
      = fun k : Fin 16 => val_main_v49 (F := Ideal) x0 x1 x2 x3 x4 x5 (ix5 b n k g jj) := by
    funext k
    show val_main_v49 (F := Ideal) x0 x1 x2 x3 x4 x5 (H.lift (ix4 b n g jj) k) = _
    congr 1
    funext c
    refine Fin.ext ?_
    rw [Shape.Reduces.lift_val]
    match c with
    | ⟨0, _⟩ => rfl
    | ⟨1, _⟩ => rfl
    | ⟨2, _⟩ => rfl
    | ⟨3, _⟩ => rfl
    | ⟨4, _⟩ => rfl
  rw [hbot, hf]
  rfl

/-! ### One slot's term -/

/-- The feature gather at `(b, n, k, d)`: the neighbour's projected feature at channel `d`. -/
theorem v45_apply' (b : Fin 4) (n : Fin 8192) (k : Fin 16) (d : Fin 128) :
    val_main_v45 (F := Ideal) x0 x2 x3 (ix4 b n k d) = hproj x0 x3 b (nbr (x2 (ix3 b n k))) d := by
  unfold val_main_v45
  rw [gather_rows_apply gather_S4x8192x128_S4x8192x16x2_S4x8192x16x128_3_01_n_n_01_3_11128 rfl rfl rfl rfl rfl rfl rfl]
  have e0 : (⟨min (val_main_v44 (F := Ideal) x2 (ix4 b n k 0)).toInt.toNat 3, by omega⟩ : Fin 4) = b :=
    Fin.ext (by
      show min (val_main_v44 (F := Ideal) x2 (ix4 b n k 0)).toInt.toNat 3 = b.val
      rw [v44_zero]; exact batch_clamp b)
  have e1 : (⟨min (val_main_v44 (F := Ideal) x2 (ix4 b n k 1)).toInt.toNat 8191, by omega⟩ : Fin 8192)
      = nbr (x2 (ix3 b n k)) :=
    Fin.ext (by
      show min (val_main_v44 (F := Ideal) x2 (ix4 b n k 1)).toInt.toNat 8191 = (nbr (x2 (ix3 b n k))).val
      rw [v44_one]; rfl)
  rw [e0, e1, val_main_v0_apply]
  unfold hproj
  refine Finset.sum_congr rfl fun c _ => ?_
  have el : lidx_main_v0 (ix3 b (nbr (x2 (ix3 b n k))) d) c = ix3 b (nbr (x2 (ix3 b n k))) c := by
    funext a; match a with | ⟨0, _⟩ => rfl | ⟨1, _⟩ => rfl | ⟨2, _⟩ => rfl
  have er : ridx_main_v0 (ix3 b (nbr (x2 (ix3 b n k))) d) c = ix2 d c := by
    funext a; match a with | ⟨0, _⟩ => rfl | ⟨1, _⟩ => rfl
  rw [el, er]

/-- Its reshape at `(b, n, k, g, j)`, the channel being `4 g + j`. -/
theorem v46_apply' (b : Fin 4) (n : Fin 8192) (k : Fin 16) (g : Fin 32) (jj : Fin 4) (d : Fin 128)
    (hd : d.val = 4 * g.val + jj.val) :
    val_main_v46 (F := Ideal) x0 x2 x3 (ix5 b n k g jj) = hproj x0 x3 b (nbr (x2 (ix3 b n k))) d := by
  rw [val_main_v46_apply]
  have e : idx_main_v46 (ix5 b n k g jj) = ix4 b n k d := by
    funext a; refine Fin.ext ?_
    have hb := b.isLt; have hn := n.isLt; have hk := k.isLt; have hg := g.isLt; have hj := jj.isLt
    match a with
    | ⟨0, _⟩ =>
      show ((((b.val * 8192 + n.val) * 16 + k.val) * 32 + g.val) * 4 + jj.val) / 16777216 = b.val; omega
    | ⟨1, _⟩ =>
      show ((((b.val * 8192 + n.val) * 16 + k.val) * 32 + g.val) * 4 + jj.val) / 2048 % 8192 = n.val; omega
    | ⟨2, _⟩ =>
      show ((((b.val * 8192 + n.val) * 16 + k.val) * 32 + g.val) * 4 + jj.val) / 128 % 16 = k.val; omega
    | ⟨3, _⟩ =>
      show ((((b.val * 8192 + n.val) * 16 + k.val) * 32 + g.val) * 4 + jj.val) % 128 = d.val; omega
  rw [e, v45_apply']

/-- The relative coordinate of the pair: the neighbour's coordinate less the query's. -/
theorem v25_apply' (b : Fin 4) (n : Fin 8192) (k : Fin 16) (a : Fin 3) :
    val_main_v25 (F := Ideal) x1 x2 (ix4 b n k a) = x1 (ix3 b (nbr (x2 (ix3 b n k))) a) - x1 (ix3 b n a) := by
  rw [val_main_v25_apply]
  show val_main_v22 (F := Ideal) x1 x2 (ix4 b n k a) - val_main_v24 (F := Ideal) x1 (ix4 b n k a) = _
  have h22 : val_main_v22 (F := Ideal) x1 x2 (ix4 b n k a) = x1 (ix3 b (nbr (x2 (ix3 b n k))) a) := by
    unfold val_main_v22
    rw [gather_rows_apply gather_S4x8192x3_S4x8192x16x2_S4x8192x16x3_3_01_n_n_01_3_113 rfl rfl rfl rfl rfl rfl rfl]
    have e0 : (⟨min (val_main_v21 (F := Ideal) x2 (ix4 b n k 0)).toInt.toNat 3, by omega⟩ : Fin 4) = b :=
      Fin.ext (by
        show min (val_main_v21 (F := Ideal) x2 (ix4 b n k 0)).toInt.toNat 3 = b.val
        rw [v21_zero]; exact batch_clamp b)
    have e1 : (⟨min (val_main_v21 (F := Ideal) x2 (ix4 b n k 1)).toInt.toNat 8191, by omega⟩ : Fin 8192)
        = nbr (x2 (ix3 b n k)) :=
      Fin.ext (by
        show min (val_main_v21 (F := Ideal) x2 (ix4 b n k 1)).toInt.toNat 8191 = (nbr (x2 (ix3 b n k))).val
        rw [v21_one]; rfl)
    rw [e0, e1]
  have h24 : val_main_v24 (F := Ideal) x1 (ix4 b n k a) = x1 (ix3 b n a) := by
    rw [val_main_v24_apply, val_main_v23_apply]
    congr 1
    funext e; match e with | ⟨0, _⟩ => rfl | ⟨1, _⟩ => rfl | ⟨2, _⟩ => rfl
  rw [h22, h24]

/-- The four features of the pair: the three relative coordinates, then the sum of their squares. -/
theorem v29_apply' (b : Fin 4) (n : Fin 8192) (k : Fin 16) (f : Fin 4) :
    val_main_v29 (F := Ideal) x1 x2 (ix4 b n k f)
      = feat (fun a => x1 (ix3 b (nbr (x2 (ix3 b n k))) a) - x1 (ix3 b n a)) f := by
  unfold val_main_v29 feat
  by_cases h : f.val < 3
  · rw [dif_pos h, concatenate_pair_apply_left (t := S4x8192x16x4) (s₁ := S4x8192x16x3) (s₂ := S4x8192x16x1)
      (3 : Fin 4) _ _ _ (ix4 b n k f) rfl (ix4 b n k (⟨f.val, h⟩ : Fin 3))
      (fun e => match e with | ⟨0, _⟩ => rfl | ⟨1, _⟩ => rfl | ⟨2, _⟩ => rfl | ⟨3, _⟩ => rfl)]
    exact v25_apply' x1 x2 b n k ⟨f.val, h⟩
  · rw [dif_neg h, concatenate_pair_apply_right (t := S4x8192x16x4) (s₁ := S4x8192x16x3) (s₂ := S4x8192x16x1)
      (3 : Fin 4) _ _ _ (ix4 b n k f) rfl rfl (ix4 b n k (0 : Fin 1))
      (fun e he => match e, he with
        | ⟨0, _⟩, _ => rfl | ⟨1, _⟩, _ => rfl | ⟨2, _⟩, _ => rfl | ⟨3, _⟩, he => absurd rfl he)
      (by show 0 + 3 = f.val; have := f.isLt; omega)]
    rw [val_main_v28_apply, val_main_v27_apply]
    have hz : (val_main_cst (F := Ideal)) (Shape.Idx.first Gen.h_S_) = (0 : EReal) := by
      show Ideal.ofBits .f32 0x00000000#32 = 0
      exact Ideal.ofBits_zero_f32
    rw [hz, zero_add]
    refine Finset.sum_congr rfl fun a _ => ?_
    rw [val_main_v26_apply]
    have e : idx_main_v27 (idx_main_v28 (ix4 b n k (0 : Fin 1))) a = ix4 b n k a := by
      funext e; match e with | ⟨0, _⟩ => rfl | ⟨1, _⟩ => rfl | ⟨2, _⟩ => rfl | ⟨3, _⟩ => rfl
    rw [e, v25_apply']
    rfl

/-- The encoding of the pair for group `g`: the four features against the group's four weights. -/
theorem v48_apply' (b : Fin 4) (n : Fin 8192) (k : Fin 16) (g : Fin 32) (jj : Fin 4) :
    val_main_v48 (F := Ideal) x1 x2 x4 x5 (ix5 b n k g jj)
      = ∑ f : Fin 4, feat (fun a => x1 (ix3 b (nbr (x2 (ix3 b n k))) a) - x1 (ix3 b n a)) f
          * val_main_v5 (F := Ideal) x4 x5 (ix2 f g) := by
  rw [val_main_v48_apply, val_main_v47_apply, val_main_v30_apply]
  refine Finset.sum_congr rfl fun f _ => ?_
  have el : lidx_main_v30 (idx_main_v47 (idx_main_v48 (ix5 b n k g jj))) f = ix4 b n k f := by
    funext e; match e with | ⟨0, _⟩ => rfl | ⟨1, _⟩ => rfl | ⟨2, _⟩ => rfl | ⟨3, _⟩ => rfl
  have er : ridx_main_v30 (idx_main_v47 (idx_main_v48 (ix5 b n k g jj))) f = ix2 f g := by
    funext e; match e with | ⟨0, _⟩ => rfl | ⟨1, _⟩ => rfl
  rw [el, er, v29_apply']

/-- One slot's term: the neighbour's feature plus the encoding of the pair. -/
theorem v49_apply' (b : Fin 4) (n : Fin 8192) (k : Fin 16) (g : Fin 32) (jj : Fin 4) (d : Fin 128)
    (hd : d.val = 4 * g.val + jj.val) :
    val_main_v49 (F := Ideal) x0 x1 x2 x3 x4 x5 (ix5 b n k g jj)
      = slotTerm (nbr (x2 (ix3 b n k))) (fun a => x1 (ix3 b n a)) (fun j => hproj x0 x3 b j d)
          (fun j a => x1 (ix3 b j a)) (fun f => val_main_v5 (F := Ideal) x4 x5 (ix2 f g)) := by
  rw [val_main_v49_apply]
  show val_main_v46 (F := Ideal) x0 x2 x3 (ix5 b n k g jj) + val_main_v48 (F := Ideal) x1 x2 x4 x5 (ix5 b n k g jj) = _
  rw [v46_apply' x0 x2 x3 b n k g jj d hd, v48_apply']
  rfl

end Slot
/-- The reference's aggregate (its value before the normalisation), read at an index, is `rowAgg` of the arguments. -/
theorem ref_agg_apply (b : Fin 4) (n : Fin 8192) (d : Fin 128) :
    val_main_v51 (F := Ideal) x0 x1 x2 x3 x4 x5 (ix3 b n d)
      = rowAgg (fun k => x2 (ix3 b n k)) (fun a => x1 (ix3 b n a)) (fun j => hproj x0 x3 b j d)
          (fun j a => x1 (ix3 b j a)) (fun f => val_main_v5 (F := Ideal) x4 x5 (ix2 f (grp d))) := by
  -- the last reshape reads `(b, n, d)` at `(b, n, d / 4, d % 4)`
  rw [val_main_v51_apply]
  have e : idx_main_v51 (ix3 b n d) = ix4 b n (grp d) (⟨d.val % 4, Nat.mod_lt _ (by decide)⟩ : Fin 4) := by
    funext a; refine Fin.ext ?_
    have hb := b.isLt; have hn := n.isLt; have hd := d.isLt
    match a with
    | ⟨0, _⟩ => show ((b.val * 8192 + n.val) * 128 + d.val) / 1048576 = b.val; omega
    | ⟨1, _⟩ => show ((b.val * 8192 + n.val) * 128 + d.val) / 128 % 8192 = n.val; omega
    | ⟨2, _⟩ => show ((b.val * 8192 + n.val) * 128 + d.val) / 4 % 32 = d.val / 4; omega
    | ⟨3, _⟩ => show ((b.val * 8192 + n.val) * 128 + d.val) % 4 = d.val % 4; omega
  -- the maximum over the slots, each slot's term read off the two gathers
  rw [e, Slot.v50_apply]
  unfold rowAgg
  refine congrArg (fun t => (Finset.univ : Finset (Fin 16)).fold max (⊥ : EReal) t) (funext fun k => ?_)
  exact Slot.v49_apply' x0 x1 x2 x3 x4 x5 b n k (grp d) _ d (by show d.val = 4 * (d.val / 4) + d.val % 4; omega)

/-- From the aggregate on, the reference applies the shared normalisation. -/
theorem ref_tail :
    val_main_v78 (F := Ideal) x0 x1 x2 x3 x4 x5 x6 x7 = bnTail (val_main_v51 (F := Ideal) x0 x1 x2 x3 x4 x5) x6 x7 := by
  -- operation by operation the same chain applied to the aggregate; the side conditions are propositions
  rfl

end Cert.KnnAgg.Ref

end
-- ==== Proof.lean ====
/-
  The certificate of a k-nearest-neighbour aggregation kernel against its jnp reference, over the extended reals.

  Both programs compute, for every point `n` of batch `b` and channel `d`, the maximum over the sixteen neighbour slots
  of "the neighbour's projected feature plus the position encoding of the pair" (`Cert.KnnAgg.agg`, Proof/Spec.lean), and
  then normalise the aggregate per channel over all 32768 rows (`Cert.KnnAgg.bnTail`, Proof/Tail.lean: the same host
  operations in both programs, never opened).  The kernel's program gathers a neighbour's row by multiplying a one-hot row
  against the whole table — exact on the extended reals, where `0 · x = 0` and `1 · x = x` for every `x` — and spreads a
  group's encoding over its four channels by a 0/1 matrix; the reference indexes.  The one-hot row finds the neighbour only
  where the neighbour word is an index of the table, so the claim is stated under `0 ≤ knn < 8192`: the words that are
  indices of the 8192 points.  (Outside that range the reference's indexing does something else than name a point: it
  wraps a negative word by adding 8192 and clamps what is still out of range, while the one-hot row is all zeros; the two
  programs then differ.)  No law used needs finiteness of a float input.

  Kernel side: Proof/KRun.lean (the run with the result named), Proof/KHostIn.lean, KHostW.lean, KExpand.lean (what the host
  operations leave in the arrays the two regions read, and the shared tail), Proof/KReg0.lean (the projection region),
  Proof/KBody1.lean and KReg1.lean (the gather region: one element of its body, then the array), Proof/KValue.lean (their
  composition).  Reference side: Proof/RefValue.lean over the generated run and its read-at-an-index lemmas.
  Proof/PreRange.lean decodes the index range from the precondition.
-/
import proofs.«407124_j33105607917673_1_alg».proof.Defs
import proofs.«407124_j33105607917673_1_alg».proof.Proof.Gen.Kernel
import proofs.«407124_j33105607917673_1_alg».proof.Proof.Gen.Kernel.Frame
import proofs.«407124_j33105607917673_1_alg».proof.Proof.Gen.KernelIdeal
import proofs.«407124_j33105607917673_1_alg».proof.Proof.Gen.KernelIdeal.Frame
import proofs.«407124_j33105607917673_1_alg».proof.Proof.Gen.ReferenceIdeal
import proofs.«407124_j33105607917673_1_alg».proof.Proof.Gen.ReferenceIdeal.Run
import proofs.«407124_j33105607917673_1_alg».proof.Proof.Gen.ReferenceIdeal.Read
import proofs.«407124_j33105607917673_1_alg».proof.Proof.Gen.Pre_finite_inputs
import proofs.«407124_j33105607917673_1_alg».proof.Proof.KValue
import proofs.«407124_j33105607917673_1_alg».proof.Proof.PreRange
import proofs.«407124_j33105607917673_1_alg».proof.Proof.RefValue

noncomputable section

namespace Cert.Proof

open Idealize.ShloMosaic Idealize.ShloMosaic.ValueIdx Idealize.ShloMosaic.TcCoe Idealize.SL.Sem Cert.KnnAgg

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end with the result at the shared normalisation of the spec's aggregate of the (agreeing) arguments: the
    kernel's by `kernel_value` under the decoded index range, the reference's by its generated run, `ref_tail`,
    `ref_agg_apply` and `ref_wmat`. -/
theorem algebraic : Cert.algebraic_KernelIdeal_ReferenceIdeal := by
  intro m ρ m' ρ' hpre hagree
  refine ⟨fun c => bnTail (agg (mX m c) (mW m c) (mXyz m c) (mKnn m c) (wmat (mCoor m c) (mScale m c))) (mGamma m c) (mBeta m c),
    ?_, ?_⟩
  · exact (θ_run Cert.KernelIdeal.defs _ _).mono
      (fun r h c => ⟨(h c).1.trans (kernel_value m ρ c (knn_range m hpre c)), (h c).2⟩)
      (Cert.KernelIdeal.Gen.run_v47 m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v78_eq, h0, h1, h2, h3, h4, h5, h6, h7, Cert.KnnAgg.Ref.ref_tail]
    refine congrArg (fun a => bnTail a (mGamma m c) (mBeta m c)) ?_
    funext i
    obtain ⟨b, n, d, rfl⟩ : ∃ (b : Fin 4) (n : Fin 8192) (d : Fin 128), i = ix3 b n d := ⟨i 0, i 1, i 2, eq_ix3 i⟩
    rw [Cert.KnnAgg.Ref.ref_agg_apply, Cert.KnnAgg.Ref.ref_wmat]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
